-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v48)) (v1 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000x128 : Shape := ⟨2, ![600000, 128]⟩
abbrev S1 : Shape := ⟨1, ![1]⟩
abbrev S50000 : Shape := ⟨1, ![50000]⟩
abbrev S128x128 : Shape := ⟨2, ![128, 128]⟩
abbrev S128x384 : Shape := ⟨2, ![128, 384]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S1 : S_.BroadcastsInDim S1 (![] : Fin 0 → Fin S1.rank)
  reducesTo_S1_S_d0 : S1.ReducesTo [0] S_
  bcast_S_S128x128 : S_.BroadcastsInDim S128x128 (![] : Fin 0 → Fin S128x128.rank)
  reducesTo_S128x128_S_d0_1 : S128x128.ReducesTo [0, 1] S_
  bcast_S_S128x384 : S_.BroadcastsInDim S128x384 (![] : Fin 0 → Fin S128x384.rank)
  reducesTo_S128x384_S_d0_1 : S128x384.ReducesTo [0, 1] S_
  bcast_S_S128 : S_.BroadcastsInDim S128 (![] : Fin 0 → Fin S128.rank)
  reducesTo_S128_S_d0 : S128.ReducesTo [0] S_
  bcast_S_S2x600000 : S_.BroadcastsInDim S2x600000 (![] : Fin 0 → Fin S2x600000.rank)
  reducesTo_S2x600000_S_d0_1 : S2x600000.ReducesTo [0, 1] S_

variable [Facts]

def fn_part3 {F : FTy → Type} [FloatOps F] (main_arg1 : IVec S2x600000 32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_c_20 : IVec S_ 32 := constantI S_ 32 0#32
  let main_v54 : IVec S2x600000 32 := broadcastInDim S2x600000 ![] bcast_S_S2x600000 main_c_20
  let main_v55 : IVec S2x600000 1 := cmpi .sge main_arg1 main_v54
  let main_c_21 : IVec S_ 1 := constantI S_ 1 1#1
  let main_v56 : IVec S_ 1 := (fun x v => Host.reduce IntOp.andi x v reducesTo_S2x600000_S_d0_1 h_S_) main_v55 main_c_21
  let main_v57 : IVec S_ 1 := andi main_v53 main_v56
  let main_c_22 : IVec S_ 32 := constantI S_ 32 50000#32
  let main_v58 : IVec S2x600000 32 := broadcastInDim S2x600000 ![] bcast_S_S2x600000 main_c_22
  let main_v59 : IVec S2x600000 1 := cmpi .slt main_arg1 main_v58
  let main_c_23 : IVec S_ 1 := constantI S_ 1 1#1
  let main_v60 : IVec S_ 1 := (fun x v => Host.reduce IntOp.andi x v reducesTo_S2x600000_S_d0_1 h_S_) main_v59 main_c_23
  let main_v61 : IVec S_ 1 := andi main_v57 main_v60
  main_v61

def fn_part2 {F : FTy → Type} [FloatOps F] (main_arg1 : IVec S2x600000 32) (main_arg9 : FVec F S128x128 .f32) (main_arg10 : FVec F S128x128 .f32) (main_arg11 : FVec F S128x384 .f32) (main_arg12 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x384 .f32 := Host.absf main_arg11
  let main_cst_16 : FVec F S_ .f32 := constant S_ .f32 0x7F800000#32
  let main_v45 : FVec F S128x384 .f32 := broadcastInDim S128x384 ![] bcast_S_S128x384 main_cst_16
  let main_v46 : IVec S128x384 1 := cmpf .olt main_v44 main_v45
  let main_c_17 : IVec S_ 1 := constantI S_ 1 1#1
  let main_v47 : IVec S_ 1 := (fun x v => Host.reduce IntOp.andi x v reducesTo_S128x384_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg1 main_v48 main_v49 main_v50

def fn_part1 {F : FTy → Type} [FloatOps F] (main_arg1 : IVec S2x600000 32) (main_arg6 : FVec F S128x128 .f32) (main_arg7 : FVec F S128x384 .f32) (main_arg8 : FVec F S128 .f32) (main_arg9 : FVec F S128x128 .f32) (main_arg10 : FVec F S128x128 .f32) (main_arg11 : FVec F S128x384 .f32) (main_arg12 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x384 .f32 := Host.absf main_arg7
  let main_cst_8 : FVec F S_ .f32 := constant S_ .f32 0x7F800000#32
  let main_v25 : FVec F S128x384 .f32 := broadcastInDim S128x384 ![] bcast_S_S128x384 main_cst_8
  let main_v26 : IVec S128x384 1 := cmpf .olt main_v24 main_v25
  let main_c_9 : IVec S_ 1 := constantI S_ 1 1#1
  let main_v27 : IVec S_ 1 := (fun x v => Host.reduce IntOp.andi x v reducesTo_S128x384_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg9 main_arg10 main_arg11 main_arg12 main_v33

def fn {F : FTy → Type} [FloatOps F] (main_arg0 : FVec F S50000x128 .f32) (main_arg1 : IVec S2x600000 32) (main_arg2 : FVec F S600000x128 .f32) (main_arg3 : FVec F S1 .f32) (main_arg4 : IVec S50000 32) (main_arg5 : FVec F S128x128 .f32) (main_arg6 : FVec F S128x128 .f32) (main_arg7 : FVec F S128x384 .f32) (main_arg8 : FVec F S128 .f32) (main_arg9 : FVec F S128x128 .f32) (main_arg10 : FVec F S128x128 .f32) (main_arg11 : FVec F S128x384 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg2
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg6 main_arg7 main_arg8 main_arg9 main_arg10 main_arg11 main_arg12 main_v13 main_v16
-- ==== Kernel.lean ====
abbrev S50000x128 : Shape := ⟨2, ![50000, 128]⟩
abbrev S2x600000 : Shape := ⟨2, ![2, 600000]⟩
abbrev S600000x128 : Shape := ⟨2, ![600000, 128]⟩
abbrev S1 : Shape := ⟨1, ![1]⟩
abbrev S50000 : Shape := ⟨1, ![50000]⟩
abbrev S128x128 : Shape := ⟨2, ![128, 128]⟩
abbrev S128x384 : Shape := ⟨2, ![128, 384]⟩
abbrev S128 : Shape := ⟨1, ![128]⟩
abbrev S128x256 : Shape := ⟨2, ![128, 256]⟩
abbrev S5000x128 : Shape := ⟨2, ![5000, 128]⟩
abbrev S5000x256 : Shape := ⟨2, ![5000, 256]⟩
abbrev S1x128 : Shape := ⟨2, ![1, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1x1 : Shape := ⟨2, ![1, 1]⟩
abbrev S1200x128 : Shape := ⟨2, ![1200, 128]⟩

abbrev nBuf : Space → Nat
  | .hbm => 155
  | .vmem => 31
  | .smem => 0
  | _ => 0

abbrev hbmTy0_0 (i : Nat) : BufTy := match i % 128 with
  | 0 => ⟨S50000x128, .f32⟩
  | 1 => ⟨S2x600000, .i32⟩
  | 2 => ⟨S600000x128, .f32⟩
  | 3 => ⟨S1, .f32⟩
  | 4 => ⟨S50000, .i32⟩
  | 5 => ⟨S128x128, .f32⟩
  | 6 => ⟨S128x128, .f32⟩
  | 7 => ⟨S128x384, .f32⟩
  | 8 => ⟨S128, .f32⟩
  | 9 => ⟨S128x128, .f32⟩
  | 10 => ⟨S128x128, .f32⟩
  | 11 => ⟨S128x384, .f32⟩
  | 12 => ⟨S128, .f32⟩
  | 13 => ⟨S128x128, .f32⟩
  | 14 => ⟨S128x128, .f32⟩
  | 15 => ⟨S128x256, .f32⟩
  | 16 => ⟨S128x256, .bf16⟩
  | 17 => ⟨S50000x128, .f32⟩
  | 18 => ⟨S50000x128, .f32⟩
  | 19 => ⟨S128x128, .f32⟩
  | 20 => ⟨S128x128, .bf16⟩
  | 21 => ⟨S128x128, .f32⟩
  | 22 => ⟨S128x128, .bf16⟩
  | 23 => ⟨S128x128, .f32⟩
  | 24 => ⟨S128x128, .f32⟩
  | 25 => ⟨S128x128, .bf16⟩
  | 26 => ⟨S128x128, .f32⟩
  | 27 => ⟨S128x128, .f32⟩
  | 28 => ⟨S128x128, .bf16⟩
  | 29 => ⟨S128x128, .f32⟩
  | 30 => ⟨S128x128, .f32⟩
  | 31 => ⟨S128x128, .bf16⟩
  | 32 => ⟨S128x128, .f32⟩
  | 33 => ⟨S128x128, .f32⟩
  | 34 => ⟨S128x128, .bf16⟩
  | 35 => ⟨S128x128, .f32⟩
  | 36 => ⟨S128x128, .f32⟩
  | 37 => ⟨S128x128, .bf16⟩
  | 38 => ⟨S128x128, .f32⟩
  | 39 => ⟨S128x128, .f32⟩
  | 40 => ⟨S128x128, .bf16⟩
  | 41 => ⟨S1x128, .f32⟩
  | 42 => ⟨S1x128, .f32⟩
  | 43 => ⟨S1x600000, .i32⟩
  | 44 => ⟨S600000, .i32⟩
  | 45 => ⟨S1x600000, .i32⟩
  | 46 => ⟨S600000, .i32⟩
  | 47 => ⟨S_, .i32⟩
  | 48 => ⟨S600000, .i32⟩
  | 49 => ⟨S600000, .i1⟩
  | 50 => ⟨S_, .i32⟩
  | 51 => ⟨S600000, .i32⟩
  | 52 => ⟨S600000, .i32⟩
  | 53 => ⟨S600000, .i32⟩
  | 54 => ⟨S600000x1, .i32⟩
  | 55 => ⟨S1, .i32⟩
  | 56 => ⟨S_, .i32⟩
  | 57 => ⟨S600000x1, .i32⟩
  | 58 => ⟨S600000x1, .i1⟩
  | 59 => ⟨S1x1, .i32⟩
  | 60 => ⟨S600000x1, .i32⟩
  | 61 => ⟨S600000x1, .i1⟩
  | 62 => ⟨S600000x1, .i1⟩
  | 63 => ⟨S_, .i1⟩
  | 64 => ⟨S600000, .i1⟩
  | 65 => ⟨S600000x128, .f32⟩
  | 66 => ⟨S600000x128, .i1⟩
  | 67 => ⟨S_, .f32⟩
  | 68 => ⟨S600000x128, .f32⟩
  | 69 => ⟨S600000x128, .f32⟩
  | 70 => ⟨S_, .i32⟩
  | 71 => ⟨S600000, .i32⟩
  | 72 => ⟨S600000, .i1⟩
  | 73 => ⟨S_, .i32⟩
  | 74 => ⟨S600000, .i32⟩
  | 75 => ⟨S600000, .i32⟩
  | 76 => ⟨S600000, .i32⟩
  | 77 => ⟨S600000x1, .i32⟩
  | 78 => ⟨S1, .i32⟩
  | 79 => ⟨S_, .i32⟩
  | 80 => ⟨S600000x1, .i32⟩
  | 81 => ⟨S600000x1, .i1⟩
  | 82 => ⟨S1x1, .i32⟩
  | 83 => ⟨S600000x1, .i32⟩
  | 84 => ⟨S600000x1, .i1⟩
  | 85 => ⟨S600000x1, .i1⟩
  | 86 => ⟨S_, .i1⟩
  | 87 => ⟨S600000, .i1⟩
  | 88 => ⟨S600000x128, .f32⟩
  | 89 => ⟨S600000x128, .i1⟩
  | 90 => ⟨S_, .f32⟩
  | 91 => ⟨S600000x128, .f32⟩
  | 92 => ⟨S600000x128, .f32⟩
  | 93 => ⟨S_, .i32⟩
  | 94 => ⟨S600000, .i32⟩
  | 95 => ⟨S600000, .i1⟩
  | 96 => ⟨S_, .i32⟩
  | 97 => ⟨S600000, .i32⟩
  | 98 => ⟨S600000, .i32⟩
  | 99 => ⟨S600000, .i32⟩
  | 100 => ⟨S600000x1, .i32⟩
  | 101 => ⟨S1, .i32⟩
  | 102 => ⟨S_, .i32⟩
  | 103 => ⟨S600000x1, .i32⟩
  | 104 => ⟨S600000x1, .i1⟩
  | 105 => ⟨S1x1, .i32⟩
  | 106 => ⟨S600000x1, .i32⟩
  | 107 => ⟨S600000x1, .i1⟩
  | 108 => ⟨S600000x1, .i1⟩
  | 109 => ⟨S_, .i1⟩
  | 110 => ⟨S600000, .i1⟩
  | 111 => ⟨S600000x128, .f32⟩
  | 112 => ⟨S600000x128, .i1⟩
  | 113 => ⟨S_, .f32⟩
  | 114 => ⟨S600000x128, .f32⟩
  | 115 => ⟨S600000x128, .f32⟩
  | 116 => ⟨S_, .i32⟩
  | 117 => ⟨S600000, .i32⟩
  | 118 => ⟨S600000, .i1⟩
  | 119 => ⟨S_, .i32⟩
  | 120 => ⟨S600000, .i32⟩
  | 121 => ⟨S600000, .i32⟩
  | 122 => ⟨S600000, .i32⟩
  | 123 => ⟨S600000x1, .i32⟩
  | 124 => ⟨S1, .i32⟩
  | 125 => ⟨S_, .i32⟩
  | 126 => ⟨S600000x1, .i32⟩
  | 127 => ⟨S600000x1, .i1⟩
  | _ => ⟨S50000x128, .f32⟩

abbrev hbmTy0_1 (i : Nat) : BufTy := match i % 128 with
  | 0 => ⟨S1x1, .i32⟩
  | 1 => ⟨S600000x1, .i32⟩
  | 2 => ⟨S600000x1, .i1⟩
  | 3 => ⟨S600000x1, .i1⟩
  | 4 => ⟨S_, .i1⟩
  | 5 => ⟨S600000, .i1⟩
  | 6 => ⟨S600000x128, .f32⟩
  | 7 => ⟨S600000x128, .i1⟩
  | 8 => ⟨S_, .f32⟩
  | 9 => ⟨S600000x128, .f32⟩
  | 10 => ⟨S600000x128, .f32⟩
  | 11 => ⟨S600000x128, .f32⟩
  | 12 => ⟨S600000x128, .f32⟩
  | 13 => ⟨S_, .f32⟩
  | 14 => ⟨S50000x128, .f32⟩
  | 15 => ⟨S600000x1, .i32⟩
  | 16 => ⟨S50000x128, .f32⟩
  | 17 => ⟨S50000x128, .f32⟩
  | 18 => ⟨S_, .f32⟩
  | 19 => ⟨S50000x128, .f32⟩
  | 20 => ⟨S600000x1, .i32⟩
  | 21 => ⟨S50000x128, .f32⟩
  | 22 => ⟨S50000x128, .f32⟩
  | 23 => ⟨S50000x128, .f32⟩
  | 24 => ⟨S_, .f32⟩
  | 25 => ⟨S50000x128, .f32⟩
  | 26 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x256, .bf16⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1200x128, .f32⟩
  | .local _ .vmem, ⟨8, _⟩ => ⟨S1200x128, .f32⟩
  | .local _ .vmem, ⟨9, _⟩ => ⟨S1200x128, .f32⟩
  | .local _ .vmem, ⟨10, _⟩ => ⟨S1200x128, .f32⟩
  | .local _ .vmem, ⟨11, _⟩ => ⟨S1200x128, .f32⟩
  | .local _ .vmem, ⟨12, _⟩ => ⟨S1200x128, .f32⟩
  | .local _ .vmem, ⟨13, _⟩ => ⟨S1200x128, .f32⟩
  | .local _ .vmem, ⟨14, _⟩ => ⟨S1200x128, .f32⟩
  | .local _ .vmem, ⟨15, _⟩ => ⟨S1200x128, .f32⟩
  | .local _ .vmem, ⟨16, _⟩ => ⟨S1200x128, .f32⟩
  | .local _ .vmem, ⟨17, _⟩ => ⟨S128x128, .bf16⟩
  | .local _ .vmem, ⟨18, _⟩ => ⟨S128x128, .bf16⟩
  | .local _ .vmem, ⟨19, _⟩ => ⟨S128x128, .bf16⟩
  | .local _ .vmem, ⟨20, _⟩ => ⟨S128x128, .bf16⟩
  | .local _ .vmem, ⟨21, _⟩ => ⟨S128x128, .bf16⟩
  | .local _ .vmem, ⟨22, _⟩ => ⟨S1x128, .f32⟩
  | .local _ .vmem, ⟨23, _⟩ => ⟨S128x128, .bf16⟩
  | .local _ .vmem, ⟨24, _⟩ => ⟨S128x128, .bf16⟩
  | .local _ .vmem, ⟨25, _⟩ => ⟨S128x128, .bf16⟩
  | .local _ .vmem, ⟨26, _⟩ => ⟨S1x128, .f32⟩
  | .local _ .vmem, ⟨27, _⟩ => ⟨S1200x128, .f32⟩
  | .local _ .vmem, ⟨28, _⟩ => ⟨S1200x128, .f32⟩
  | .local _ .vmem, ⟨29, _⟩ => ⟨S1200x128, .f32⟩
  | .local _ .vmem, ⟨30, _⟩ => ⟨S1200x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call0_c : Ref sig .tc := ⟨.hbm, 47, rfl⟩
abbrev main_call0_v0 : Ref sig .tc := ⟨.hbm, 48, rfl⟩
abbrev main_call0_v1 : Ref sig .tc := ⟨.hbm, 49, rfl⟩
abbrev main_call0_c_0 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_c_1 : Ref sig .tc := ⟨.hbm, 55, rfl⟩
abbrev main_call0_c_2 : Ref sig .tc := ⟨.hbm, 56, rfl⟩
abbrev main_call0_v6 : Ref sig .tc := ⟨.hbm, 57, rfl⟩
abbrev main_call0_v7 : Ref sig .tc := ⟨.hbm, 58, rfl⟩
abbrev main_call0_v8 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_c_3 : Ref sig .tc := ⟨.hbm, 63, rfl⟩
abbrev main_call0_v12 : Ref sig .tc := ⟨.hbm, 64, rfl⟩
abbrev main_call0_v13 : Ref sig .tc := ⟨.hbm, 65, rfl⟩
abbrev main_call0_v14 : Ref sig .tc := ⟨.hbm, 66, rfl⟩
abbrev main_call0_cst : Ref sig .tc := ⟨.hbm, 67, rfl⟩
abbrev main_call0_v15 : Ref sig .tc := ⟨.hbm, 68, rfl⟩
abbrev main_v33 : Ref sig .tc := ⟨.hbm, 69, rfl⟩
abbrev main_call1_c : Ref sig .tc := ⟨.hbm, 70, rfl⟩
abbrev main_call1_v0 : Ref sig .tc := ⟨.hbm, 71, rfl⟩
abbrev main_call1_v1 : Ref sig .tc := ⟨.hbm, 72, rfl⟩
abbrev main_call1_c_0 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_v5 : Ref sig .tc := ⟨.hbm, 77, rfl⟩
abbrev main_call1_c_1 : Ref sig .tc := ⟨.hbm, 78, rfl⟩
abbrev main_call1_c_2 : Ref sig .tc := ⟨.hbm, 79, rfl⟩
abbrev main_call1_v6 : Ref sig .tc := ⟨.hbm, 80, rfl⟩
abbrev main_call1_v7 : Ref sig .tc := ⟨.hbm, 81, rfl⟩
abbrev main_call1_v8 : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_call1_c_3 : Ref sig .tc := ⟨.hbm, 86, rfl⟩
abbrev main_call1_v12 : Ref sig .tc := ⟨.hbm, 87, rfl⟩
abbrev main_call1_v13 : Ref sig .tc := ⟨.hbm, 88, rfl⟩
abbrev main_call1_v14 : Ref sig .tc := ⟨.hbm, 89, rfl⟩
abbrev main_call1_cst : Ref sig .tc := ⟨.hbm, 90, rfl⟩
abbrev main_call1_v15 : Ref sig .tc := ⟨.hbm, 91, rfl⟩
abbrev main_v34 : Ref sig .tc := ⟨.hbm, 92, rfl⟩
abbrev main_call2_c : Ref sig .tc := ⟨.hbm, 93, rfl⟩
abbrev main_call2_v0 : Ref sig .tc := ⟨.hbm, 94, rfl⟩
abbrev main_call2_v1 : Ref sig .tc := ⟨.hbm, 95, rfl⟩
abbrev main_call2_c_0 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_v5 : Ref sig .tc := ⟨.hbm, 100, rfl⟩
abbrev main_call2_c_1 : Ref sig .tc := ⟨.hbm, 101, rfl⟩
abbrev main_call2_c_2 : Ref sig .tc := ⟨.hbm, 102, rfl⟩
abbrev main_call2_v6 : Ref sig .tc := ⟨.hbm, 103, rfl⟩
abbrev main_call2_v7 : Ref sig .tc := ⟨.hbm, 104, rfl⟩
abbrev main_call2_v8 : Ref sig .tc := ⟨.hbm, 105, rfl⟩
abbrev main_call2_v9 : Ref sig .tc := ⟨.hbm, 106, rfl⟩
abbrev main_call2_v10 : Ref sig .tc := ⟨.hbm, 107, rfl⟩
abbrev main_call2_v11 : Ref sig .tc := ⟨.hbm, 108, rfl⟩
abbrev main_call2_c_3 : Ref sig .tc := ⟨.hbm, 109, rfl⟩
abbrev main_call2_v12 : Ref sig .tc := ⟨.hbm, 110, rfl⟩
abbrev main_call2_v13 : Ref sig .tc := ⟨.hbm, 111, rfl⟩
abbrev main_call2_v14 : Ref sig .tc := ⟨.hbm, 112, rfl⟩
abbrev main_call2_cst : Ref sig .tc := ⟨.hbm, 113, rfl⟩
abbrev main_call2_v15 : Ref sig .tc := ⟨.hbm, 114, rfl⟩
abbrev main_v35 : Ref sig .tc := ⟨.hbm, 115, rfl⟩
abbrev main_call3_c : Ref sig .tc := ⟨.hbm, 116, rfl⟩
abbrev main_call3_v0 : Ref sig .tc := ⟨.hbm, 117, rfl⟩
abbrev main_call3_v1 : Ref sig .tc := ⟨.hbm, 118, rfl⟩
abbrev main_call3_c_0 : Ref sig .tc := ⟨.hbm, 119, rfl⟩
abbrev main_call3_v2 : Ref sig .tc := ⟨.hbm, 120, rfl⟩
abbrev main_call3_v3 : Ref sig .tc := ⟨.hbm, 121, rfl⟩
abbrev main_call3_v4 : Ref sig .tc := ⟨.hbm, 122, rfl⟩
abbrev main_call3_v5 : Ref sig .tc := ⟨.hbm, 123, rfl⟩
abbrev main_call3_c_1 : Ref sig .tc := ⟨.hbm, 124, rfl⟩
abbrev main_call3_c_2 : Ref sig .tc := ⟨.hbm, 125, rfl⟩
abbrev main_call3_v6 : Ref sig .tc := ⟨.hbm, 126, rfl⟩
abbrev main_call3_v7 : Ref sig .tc := ⟨.hbm, 127, rfl⟩
abbrev main_call3_v8 : Ref sig .tc := ⟨.hbm, 128, rfl⟩
abbrev main_call3_v9 : Ref sig .tc := ⟨.hbm, 129, rfl⟩
abbrev main_call3_v10 : Ref sig .tc := ⟨.hbm, 130, rfl⟩
abbrev main_call3_v11 : Ref sig .tc := ⟨.hbm, 131, rfl⟩
abbrev main_call3_c_3 : Ref sig .tc := ⟨.hbm, 132, rfl⟩
abbrev main_call3_v12 : Ref sig .tc := ⟨.hbm, 133, rfl⟩
abbrev main_call3_v13 : Ref sig .tc := ⟨.hbm, 134, rfl⟩
abbrev main_call3_v14 : Ref sig .tc := ⟨.hbm, 135, rfl⟩
abbrev main_call3_cst : Ref sig .tc := ⟨.hbm, 136, rfl⟩
abbrev main_call3_v15 : Ref sig .tc := ⟨.hbm, 137, rfl⟩
abbrev main_v36 : Ref sig .tc := ⟨.hbm, 138, rfl⟩
abbrev main_v37_0 : Ref sig .tc := ⟨.hbm, 139, rfl⟩
abbrev main_v37_1 : Ref sig .tc := ⟨.hbm, 140, rfl⟩
abbrev main_cst : Ref sig .tc := ⟨.hbm, 141, rfl⟩
abbrev main_v38 : Ref sig .tc := ⟨.hbm, 142, rfl⟩
abbrev main_v39 : Ref sig .tc := ⟨.hbm, 143, rfl⟩
abbrev main_v40 : Ref sig .tc := ⟨.hbm, 144, rfl⟩
abbrev main_v41 : Ref sig .tc := ⟨.hbm, 145, rfl⟩
abbrev main_cst_0 : Ref sig .tc := ⟨.hbm, 146, rfl⟩
abbrev main_v42 : Ref sig .tc := ⟨.hbm, 147, rfl⟩
abbrev main_v43 : Ref sig .tc := ⟨.hbm, 148, rfl⟩
abbrev main_v44 : Ref sig .tc := ⟨.hbm, 149, rfl⟩
abbrev main_v45 : Ref sig .tc := ⟨.hbm, 150, rfl⟩
abbrev main_v46 : Ref sig .tc := ⟨.hbm, 151, rfl⟩
abbrev main_cst_1 : Ref sig .tc := ⟨.hbm, 152, rfl⟩
abbrev main_v47 : Ref sig .tc := ⟨.hbm, 153, rfl⟩
abbrev main_v48 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg11_0 : Ref sig .tc := ⟨.vmem, 23, rfl⟩
abbrev cc1_stg12_0 : Ref sig .tc := ⟨.vmem, 24, rfl⟩
abbrev cc1_stg13_0 : Ref sig .tc := ⟨.vmem, 25, rfl⟩
abbrev cc1_stg14_0 : Ref sig .tc := ⟨.vmem, 26, rfl⟩
abbrev cc1_stg15_0 : Ref sig .tc := ⟨.vmem, 27, rfl⟩
abbrev cc1_stg15_1 : Ref sig .tc := ⟨.vmem, 28, rfl⟩
abbrev cc1_stg16_0 : Ref sig .tc := ⟨.vmem, 29, rfl⟩
abbrev cc1_stg16_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem11_0 : DmaSem sig := 23
abbrev cc1_sem12_0 : DmaSem sig := 24
abbrev cc1_sem13_0 : DmaSem sig := 25
abbrev cc1_sem14_0 : DmaSem sig := 26
abbrev cc1_sem15_0 : DmaSem sig := 27
abbrev cc1_sem15_1 : DmaSem sig := 28
abbrev cc1_sem16_0 : DmaSem sig := 29
abbrev cc1_sem16_1 : DmaSem sig := 30

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 250], ![false, false]⟩

def cc1_transform_0 (i : grid1.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc1_transform_16 (i : grid1.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S1200x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1200x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1200x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1200x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1200x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S128x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S128x128 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S128x128 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S128x128 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S128x128 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S128x128 .bf16 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 1 → Memref sig .tc .vmem S128x128 .bf16 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]

abbrev stage1_14 : Fin 1 → Memref sig .tc .vmem S1x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false, false]

abbrev stage1_15 : Fin 2 → Memref sig .tc .vmem S1200x128 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, true]

abbrev stage1_16 : Fin 2 → Memref sig .tc .vmem S1200x128 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, true]

class Facts₀ : Prop where
  transposes_S128x128_S128x128_1_0 : S128x128.Transposes [1, 0] S128x128
  concatenates_S128x128_S128x128_S128x256_d1 : Shape.Concatenates [S128x128, S128x128] S128x256 1
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  slices_S5000x256_o0_0_S5000x128 : S5000x256.Slices ![0, 0] S5000x128
  slices_S5000x256_o0_128_S5000x128 : S5000x256.Slices ![0, 128] S5000x128
  slices_S128x384_S128x128_0_0 : S128x384.Slices ![0, 0] S128x128
  slices_S128x384_S128x128_0_128 : S128x384.Slices ![0, 128] S128x128
  slices_S128x384_S128x128_0_256 : S128x384.Slices ![0, 256] S128x128
  shapeCasts_S128_S1x128 : S128.ShapeCasts S1x128
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  inb_S1200x128_S1200x128_0_0 : ∀ a, (![0, 0] : Fin 2 → Nat) a + S1200x128.size a ≤ S1200x128.size a
  h_S1200x128 : 0 < S1200x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1200x128_S1200x128 : S1200x128.ShapeCasts S1200x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1200x128 : S1x128.Broadcasts S1200x128
  bcast_S_S50000x128 : S_.BroadcastsInDim S50000x128 (![] : Fin 0 → Fin S50000x128.rank)
  dot_S5000x128_S128x256_S5000x256_1_0_0_1_n_n_wf : DotDims.WF S5000x128 S128x256 S5000x256 [1] [0] [0] [1] [] []
  gather_S50000x128_S600000x1_S600000x128_1_0_n_n_0_1_1128_wf : GatherDims.WF S50000x128 S600000x1 S600000x128 [1] [0] [] [0] [] 1 ![1, 128]
  dot_S1200x128_S128x128_S1200x128_1_0_0_1_n_n_wf : DotDims.WF S1200x128 S128x128 S1200x128 [1] [0] [0] [1] [] []
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1200x128.size a ≤ S600000x128.size a
  hwx1_0 : ∀ i : grid1.Coords, EltTy.bits .f32 = 32 ∨ (Rect.block (s := S600000x128) S1200x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1200x128.size a ≤ S600000x128.size a
  hwx1_1 : ∀ i : grid1.Coords, EltTy.bits .f32 = 32 ∨ (Rect.block (s := S600000x128) S1200x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1200x128.size a ≤ S600000x128.size a
  hwx1_2 : ∀ i : grid1.Coords, EltTy.bits .f32 = 32 ∨ (Rect.block (s := S600000x128) S1200x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1200x128.size a ≤ S600000x128.size a
  hwx1_3 : ∀ i : grid1.Coords, EltTy.bits .f32 = 32 ∨ (Rect.block (s := S600000x128) S1200x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1200x128.size a ≤ S600000x128.size a
  hwx1_4 : ∀ i : grid1.Coords, EltTy.bits .f32 = 32 ∨ (Rect.block (s := S600000x128) S1200x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .bf16 = 32 ∨ (Rect.block (s := S128x128) S128x128.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .bf16 = 32 ∨ (Rect.block (s := S128x128) S128x128.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .bf16 = 32 ∨ (Rect.block (s := S128x128) S128x128.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .bf16 = 32 ∨ (Rect.block (s := S128x128) S128x128.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128x128.size a ≤ S128x128.size a
  hwx1_11 : ∀ i : grid1.Coords, EltTy.bits .bf16 = 32 ∨ (Rect.block (s := S128x128) S128x128.size (cc1_transform_11 i) (hinb1_11 i)).WholeWords (EltTy.packing .bf16)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S128x128.size a ≤ S128x128.size a
  hwx1_12 : ∀ i : grid1.Coords, EltTy.bits .bf16 = 32 ∨ (Rect.block (s := S128x128) S128x128.size (cc1_transform_12 i) (hinb1_12 i)).WholeWords (EltTy.packing .bf16)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S128x128.size a ≤ S128x128.size a
  hwx1_13 : ∀ i : grid1.Coords, EltTy.bits .bf16 = 32 ∨ (Rect.block (s := S128x128) S128x128.size (cc1_transform_13 i) (hinb1_13 i)).WholeWords (EltTy.packing .bf16)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x128.size a ≤ S1x128.size a
  hwx1_14 : ∀ i : grid1.Coords, EltTy.bits .f32 = 32 ∨ (Rect.block (s := S1x128) S1x128.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S1200x128.size a ≤ S600000x128.size a
  hwx1_15 : ∀ i : grid1.Coords, EltTy.bits .f32 = 32 ∨ (Rect.block (s := S600000x128) S1200x128.size (cc1_transform_15 i) (hinb1_15 i)).WholeWords (EltTy.packing .f32)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S1200x128.size a ≤ S600000x128.size a
  hwx1_16 : ∀ i : grid1.Coords, EltTy.bits .f32 = 32 ∨ (Rect.block (s := S600000x128) S1200x128.size (cc1_transform_16 i) (hinb1_16 i)).WholeWords (EltTy.packing .f32)

variable [Facts₀]

def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S1200x128_S128x128_S1200x128_1_0_0_1_n_n : DotDims S1200x128 S128x128 S1200x128 where
  lhsContracting := [1]
  rhsContracting := [0]
  lhsNonContracting := [0]
  rhsNonContracting := [1]
  lhsBatch := []
  rhsBatch := []
  wf := dot_S1200x128_S128x128_S1200x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S5000x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S1200x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S1200x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1200x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1200x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1200x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v6) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v11) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v14) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v17) S128x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v27) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v20) S128x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v23) S128x128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v26) S128x128.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v28) S1x128.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v37_0) S1200x128.size cc1_transform_15 reads1_15 true false 2 stage1_15 sem1_15
    hrank1 hreads1_15 hinb1_15 nbuf1_15 (Memref.isWhole_whole _) hwx1_15 hstage1_15

abbrev win1_16 : Pipeline.Window sig grid1 :=
  Pipeline.Window.ofSpec (Memref.whole main_v37_1) S1200x128.size cc1_transform_16 reads1_16 true false 2 stage1_16 sem1_16
    hrank1 hreads1_16 hinb1_16 nbuf1_16 (Memref.isWhole_whole _) hwx1_16 hstage1_16

abbrev win1 : Fin 17 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | ⟨_ + 17, h⟩ => absurd h (Nat.not_lt.2 (Nat.le_add_left _ _))
abbrev spec1 : Fin 17 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000x128 : Shape := ⟨2, ![600000, 128]⟩
abbrev S1 : Shape := ⟨1, ![1]⟩
abbrev S50000 : Shape := ⟨1, ![50000]⟩
abbrev S128x128 : Shape := ⟨2, ![128, 128]⟩
abbrev S128x384 : Shape := ⟨2, ![128, 384]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x384 : Shape := ⟨2, ![600000, 384]⟩
abbrev S384x128 : Shape := ⟨2, ![384, 128]⟩
abbrev S1x128 : Shape := ⟨2, ![1, 128]⟩

abbrev nBuf : Space → Nat
  | .hbm => 87
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x128, .f32⟩
  | .hbm, ⟨3, _⟩ => ⟨S1, .f32⟩
  | .hbm, ⟨4, _⟩ => ⟨S50000, .i32⟩
  | .hbm, ⟨5, _⟩ => ⟨S128x128, .f32⟩
  | .hbm, ⟨6, _⟩ => ⟨S128x128, .f32⟩
  | .hbm, ⟨7, _⟩ => ⟨S128x384, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128x384, .f32⟩
  | .hbm, ⟨12, _⟩ => ⟨S128, .f32⟩
  | .hbm, ⟨13, _⟩ => ⟨S1x600000, .i32⟩
  | .hbm, ⟨14, _⟩ => ⟨S600000, .i32⟩
  | .hbm, ⟨15, _⟩ => ⟨S1x600000, .i32⟩
  | .hbm, ⟨16, _⟩ => ⟨S600000, .i32⟩
  | .hbm, ⟨17, _⟩ => ⟨S128x128, .f32⟩
  | .hbm, ⟨18, _⟩ => ⟨S50000x128, .f32⟩
  | .hbm, ⟨19, _⟩ => ⟨S128x128, .f32⟩
  | .hbm, ⟨20, _⟩ => ⟨S600000x128, .f32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000x128, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000x128, .f32⟩
  | .hbm, ⟨39, _⟩ => ⟨S600000x384, .f32⟩
  | .hbm, ⟨40, _⟩ => ⟨S384x128, .f32⟩
  | .hbm, ⟨41, _⟩ => ⟨S600000x128, .f32⟩
  | .hbm, ⟨42, _⟩ => ⟨S1x128, .f32⟩
  | .hbm, ⟨43, _⟩ => ⟨S600000x128, .f32⟩
  | .hbm, ⟨44, _⟩ => ⟨S600000x128, .f32⟩
  | .hbm, ⟨45, _⟩ => ⟨S_, .f32⟩
  | .hbm, ⟨46, _⟩ => ⟨S50000x128, .f32⟩
  | .hbm, ⟨47, _⟩ => ⟨S600000x1, .i32⟩
  | .hbm, ⟨48, _⟩ => ⟨S50000x128, .f32⟩
  | .hbm, ⟨49, _⟩ => ⟨S50000x128, .f32⟩
  | .hbm, ⟨50, _⟩ => ⟨S128x128, .f32⟩
  | .hbm, ⟨51, _⟩ => ⟨S50000x128, .f32⟩
  | .hbm, ⟨52, _⟩ => ⟨S128x128, .f32⟩
  | .hbm, ⟨53, _⟩ => ⟨S600000x128, .f32⟩
  | .hbm, ⟨54, _⟩ => ⟨S_, .i32⟩
  | .hbm, ⟨55, _⟩ => ⟨S600000, .i32⟩
  | .hbm, ⟨56, _⟩ => ⟨S600000, .i1⟩
  | .hbm, ⟨57, _⟩ => ⟨S_, .i32⟩
  | .hbm, ⟨58, _⟩ => ⟨S600000, .i32⟩
  | .hbm, ⟨59, _⟩ => ⟨S600000, .i32⟩
  | .hbm, ⟨60, _⟩ => ⟨S600000, .i32⟩
  | .hbm, ⟨61, _⟩ => ⟨S600000x1, .i32⟩
  | .hbm, ⟨62, _⟩ => ⟨S600000x128, .f32⟩
  | .hbm, ⟨63, _⟩ => ⟨S_, .i32⟩
  | .hbm, ⟨64, _⟩ => ⟨S600000, .i32⟩
  | .hbm, ⟨65, _⟩ => ⟨S600000, .i1⟩
  | .hbm, ⟨66, _⟩ => ⟨S_, .i32⟩
  | .hbm, ⟨67, _⟩ => ⟨S600000, .i32⟩
  | .hbm, ⟨68, _⟩ => ⟨S600000, .i32⟩
  | .hbm, ⟨69, _⟩ => ⟨S600000, .i32⟩
  | .hbm, ⟨70, _⟩ => ⟨S600000x1, .i32⟩
  | .hbm, ⟨71, _⟩ => ⟨S600000x128, .f32⟩
  | .hbm, ⟨72, _⟩ => ⟨S600000x384, .f32⟩
  | .hbm, ⟨73, _⟩ => ⟨S384x128, .f32⟩
  | .hbm, ⟨74, _⟩ => ⟨S600000x128, .f32⟩
  | .hbm, ⟨75, _⟩ => ⟨S1x128, .f32⟩
  | .hbm, ⟨76, _⟩ => ⟨S600000x128, .f32⟩
  | .hbm, ⟨77, _⟩ => ⟨S600000x128, .f32⟩
  | .hbm, ⟨78, _⟩ => ⟨S_, .f32⟩
  | .hbm, ⟨79, _⟩ => ⟨S50000x128, .f32⟩
  | .hbm, ⟨80, _⟩ => ⟨S600000x1, .i32⟩
  | .hbm, ⟨81, _⟩ => ⟨S50000x128, .f32⟩
  | .hbm, ⟨82, _⟩ => ⟨S50000x128, .f32⟩
  | .hbm, ⟨83, _⟩ => ⟨S50000x128, .f32⟩
  | .hbm, ⟨84, _⟩ => ⟨S_, .f32⟩
  | .hbm, ⟨85, _⟩ => ⟨S50000x128, .f32⟩
  | .hbm, ⟨86, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_1 : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_3 : Ref sig .tc := ⟨.hbm, 54, rfl⟩
abbrev main_v36 : Ref sig .tc := ⟨.hbm, 55, rfl⟩
abbrev main_v37 : Ref sig .tc := ⟨.hbm, 56, rfl⟩
abbrev main_c_4 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_5 : Ref sig .tc := ⟨.hbm, 63, rfl⟩
abbrev main_v43 : Ref sig .tc := ⟨.hbm, 64, rfl⟩
abbrev main_v44 : Ref sig .tc := ⟨.hbm, 65, rfl⟩
abbrev main_c_6 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_7 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_8 : Ref sig .tc := ⟨.hbm, 84, rfl⟩
abbrev main_v61 : Ref sig .tc := ⟨.hbm, 85, rfl⟩
abbrev main_v62 : Ref sig .tc := ⟨.hbm, 86, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  transposes_S128x128_S128x128_1_0 : S128x128.Transposes [1, 0] S128x128
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x128_S600000x384_d1 : Shape.Concatenates [S600000x128, S600000x128, S600000x128] S600000x384 1
  transposes_S128x384_S384x128_1_0 : S128x384.Transposes [1, 0] S384x128
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S50000x128 : S_.BroadcastsInDim S50000x128 (![] : Fin 0 → Fin S50000x128.rank)
  dot_S50000x128_S128x128_S50000x128_1_0_0_1_n_n_wf : DotDims.WF S50000x128 S128x128 S50000x128 [1] [0] [0] [1] [] []
  dot_S600000x128_S128x128_S600000x128_1_0_0_1_n_n_wf : DotDims.WF S600000x128 S128x128 S600000x128 [1] [0] [0] [1] [] []
  gather_S50000x128_S600000x1_S600000x128_1_0_n_n_0_1_1128_wf : GatherDims.WF S50000x128 S600000x1 S600000x128 [1] [0] [] [0] [] 1 ![1, 128]
  dot_S600000x384_S384x128_S600000x128_1_0_0_1_n_n_wf : DotDims.WF S600000x384 S384x128 S600000x128 [1] [0] [0] [1] [] []
  scatter_S50000x128_S600000x1_S600000x128_1_0_0_1_wf : ScatterDims.WF S50000x128 S600000x1 S600000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x384_S384x128_S600000x128_1_0_0_1_n_n : DotDims S600000x384 S384x128 S600000x128 where
  lhsContracting := [1]
  rhsContracting := [0]
  lhsNonContracting := [0]
  rhsNonContracting := [1]
  lhsBatch := []
  rhsBatch := []
  wf := dot_S600000x384_S384x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.GlueDefs.lean ====
/-
  Names shared by the modules that read the host operations of the kernel's program: the two rows of the edge index
  array as index vectors (sources, targets), and the condition that every edge index is a node number.
-/
import proofs.«417207_j36507222016271_4_alg».proof.Proof.Gen.KernelIdeal.Frame
import Idealize.ShloMosaic.PureOps.Ideal

noncomputable section

open Idealize.ShloMosaic Idealize.ShloMosaic.TcCoe Idealize.SL.Sem
open Idealize.ShloMosaic.Pipeline (Dat)

namespace Cert.KernelIdeal.Glue

open Cert.KernelIdeal Cert.KernelIdeal.Gen

variable (m : (ℓ : Loc nD τ sig) → Buf (Elt Ideal) ℓ)

/-- Row 0 of the edge index array: the source node of every edge. -/
abbrev srcK (c : Dev nD) : IVec S600000 32 :=
  shapeCast S600000 (extractStridedSlice S1x600000 ![0, 0] (m ((c : Thread nD τ).loc main_arg1)) slices_S2x600000_S1x600000_0_0) shapeCasts_S1x600000_S600000

/-- Row 1 of the edge index array: the target node of every edge. -/
abbrev dstK (c : Dev nD) : IVec S600000 32 :=
  shapeCast S600000 (extractStridedSlice S1x600000 ![1, 0] (m ((c : Thread nD τ).loc main_arg1)) slices_S2x600000_S1x600000_1_0) shapeCasts_S1x600000_S600000

/-- Every edge index, read as a signed word, is a node number: at least 0 and below 50000. -/
def InRange (c : Dev nD) : Prop :=
  ∀ i : S2x600000.Idx, 0 ≤ ((m ((c : Thread nD τ).loc main_arg1) : S2x600000.Idx → BitVec 32) i).toInt
    ∧ ((m ((c : Thread nD τ).loc main_arg1) : S2x600000.Idx → BitVec 32) i).toInt < 50000

end Cert.KernelIdeal.Glue

end
-- ==== Proof.PreDecode.lean ====
/-
  The precondition read: its last two conjuncts say that every entry of the edge index array, as a signed word, is at
  least 0 and below 50000.
-/
import proofs.«417207_j36507222016271_4_alg».proof.Defs
import proofs.«417207_j36507222016271_4_alg».proof.Proof.Gen.Pre_finite_inputs
import proofs.«417207_j36507222016271_4_alg».proof.Proof.GlueDefs
import Idealize.ShloMosaic.Lib.ReduceAll
import Idealize.ShloMosaic.Lib.StableHlo.Predicate

noncomputable section

open Idealize.ShloMosaic Idealize.ShloMosaic.TcCoe Idealize.SL.Sem
open Idealize.ShloMosaic.Pipeline (Dat)

namespace Cert.KernelIdeal.Glue

open Cert.KernelIdeal Cert.KernelIdeal.Gen

/-- The tail of the printed predicate, read back: if it is 1 then every entry of the index array, read signed, is at
    least 0 and below 50000. Only its last two conjuncts are used; the conjuncts before them are dropped. -/
theorem part3_decode (a1 : IVec Cert.Pre_finite_inputs.S2x600000 32) (v48 : IVec Cert.Pre_finite_inputs.S_ 1)
    (v49 v50 : FVec Ideal Cert.Pre_finite_inputs.S128 .f32) (j : Cert.Pre_finite_inputs.S_.Idx)
    (h : Cert.Pre_finite_inputs.fn_part3 (F := Ideal) a1 v48 v49 v50 j = 1#1)
    (i : Cert.Pre_finite_inputs.S2x600000.Idx) :
    0 ≤ (a1 i).toInt ∧ (a1 i).toInt < 50000 := by
  unfold Cert.Pre_finite_inputs.fn_part3 at h
  dsimp only at h
  -- the two outer conjunctions, split at the one index of the result
  obtain ⟨h57, h60⟩ := IntOp.andi_eq_one.1 h
  obtain ⟨-, h56⟩ := IntOp.andi_eq_one.1 h57
  -- the scalar shape has one index
  haveI : Subsingleton Cert.Pre_finite_inputs.S_.Idx := ⟨fun a b => funext fun d => d.elim0⟩
  -- each reduction by and over both axes that is 1 had a 1 at every index
  have hge := Host.reduce_andi_all _ _ _ _ _ h56 i
  have hlt := Host.reduce_andi_all _ _ _ _ _ h60 i
  -- a comparison word that is 1 says the signed comparison holds; a broadcast scalar reads the scalar everywhere
  have hge' : (0#32 : BitVec 32).toInt ≤ (a1 i).toInt := by
    have := IntOp.cmpi_sge.1 hge
    rwa [StableHlo.Predicate.bcast_scalar _ Cert.Pre_finite_inputs.Facts.h_S_] at this
  have hlt' : (a1 i).toInt < (50000#32 : BitVec 32).toInt := by
    have := IntOp.cmpi_slt.1 hlt
    rwa [StableHlo.Predicate.bcast_scalar _ Cert.Pre_finite_inputs.Facts.h_S_] at this
  have e0 : (0#32 : BitVec 32).toInt = 0 := by decide
  have e1 : (50000#32 : BitVec 32).toInt = 50000 := by decide
  rw [e0] at hge'
  rw [e1] at hlt'
  exact ⟨hge', hlt'⟩

theorem inRange_of_pre (m : (ℓ : Loc nD τ sig) → Buf (Elt Ideal) ℓ) (h : Cert.Pre_KernelIdeal m) (c : Dev nD) :
    InRange m c := by
  intro i
  exact part3_decode _ _ _ _ _ (congrFun (h c) (fun a => a.elim0)) i

end Cert.KernelIdeal.Glue

end
-- ==== Proof.LibMatProduct.lean ====
/-
  The row-by-column product of two matrices over the extended reals, as one function of the two arrays index by index,
  and the three places it is met: the host's dot_general at the plain dimension numbers (rows by contraction, times
  contraction by columns); a matrix unit's product accumulated into a zero splat; and a product of two BLOCKS (a band of
  rows of the left matrix, a band of columns of the right one), which is the corresponding block of the whole product
  because the contracted axis is not cut. Also: multiplying by a transposed matrix is contracting with its columns.
-/
import Idealize.ShloMosaic.Lib.StackMember
import Idealize.ShloMosaic.Lib.ValueLayout

noncomputable section

namespace Cert.Lib.MatProduct

open Idealize.ShloMosaic Idealize.ShloMosaic.ValueIdx

variable {M K N : Nat}

/-- (l r)[a, b] is the sum over k of l[a, k] r[k, b]. -/
def matProd (l : (⟨2, ![M, K]⟩ : Shape).Idx → EReal) (r : (⟨2, ![K, N]⟩ : Shape).Idx → EReal) :
    (⟨2, ![M, N]⟩ : Shape).Idx → EReal :=
  fun i => ∑ k : Fin K, l (ix2 ⟨(i 0).val, idx2_lt0 i⟩ k) * r (ix2 k ⟨(i 1).val, idx2_lt1 i⟩)

theorem matProd_ix2 (l : (⟨2, ![M, K]⟩ : Shape).Idx → EReal) (r : (⟨2, ![K, N]⟩ : Shape).Idx → EReal) (a : Fin M) (b : Fin N) :
    matProd l r (ix2 a b) = ∑ k : Fin K, l (ix2 a k) * r (ix2 k b) := rfl

/-- The host's plain dot_general, at the ideal values, is the product. -/
theorem dotGeneral_plain_eq {φ₁ φ₂ : FTy} (prec : Option ContractPrecision) (A : FVec Ideal ⟨2, ![M, K]⟩ φ₁)
    (B : FVec Ideal ⟨2, ![K, N]⟩ φ₂) : Host.dotGeneral (DotDims.plain M K N) prec A B = matProd A B := by
  funext i
  obtain ⟨a, b, rfl⟩ : ∃ (a : Fin M) (b : Fin N), i = ix2 a b := ⟨i 0, i 1, eq_ix2 i⟩
  rw [StackMember.dotGeneral_plain_apply, matProd_ix2]

/-- A matrix unit's plain product into the zero splat, at the ideal values, is the product. -/
theorem matmul_plain_zero_eq {φ₁ φ₂ : FTy} (prec : Option ContractPrecision) (A : FVec Ideal ⟨2, ![M, K]⟩ φ₁)
    (B : FVec Ideal ⟨2, ![K, N]⟩ φ₂) :
    matmul (DotDims.plain M K N) prec A B (constant ⟨2, ![M, N]⟩ .f32 0x00000000#32) = matProd A B := by
  rw [matmul_zero_eq_dotGeneral, dotGeneral_plain_eq]

/-- A band of rows times a band of columns is the block of the whole product: if the left block's row p is row a of l and
    the right block's column q is column b of r, entry (p, q) of the blocks' product is entry (a, b) of l r. -/
theorem matProd_block {M' N' : Nat} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (p : Fin M') (q : Fin N') (a : Fin M) (b : Fin N)
    (hl : ∀ k : Fin K, l' (ix2 p k) = l (ix2 a k)) (hr : ∀ k : Fin K, r' (ix2 k q) = r (ix2 k b)) :
    matProd l' r' (ix2 p q) = matProd l r (ix2 a b) := by
  rw [matProd_ix2, matProd_ix2]
  exact Finset.sum_congr rfl fun k _ => by rw [hl k, hr k]

/-- The same at any two indices: the blocks' product at j is the whole product at i as soon as row (j 0) of the left
    block is row (i 0) of l and column (j 1) of the right block is column (i 1) of r. -/
theorem matProd_block_idx {M' N' : Nat} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j : (⟨2, ![M', N']⟩ : Shape).Idx) (i : (⟨2, ![M, N]⟩ : Shape).Idx)
    (hl : ∀ k : Fin K, l' (ix2 ⟨(j 0).val, idx2_lt0 j⟩ k) = l (ix2 ⟨(i 0).val, idx2_lt0 i⟩ k))
    (hr : ∀ k : Fin K, r' (ix2 k ⟨(j 1).val, idx2_lt1 j⟩) = r (ix2 k ⟨(i 1).val, idx2_lt1 i⟩)) :
    matProd l' r' j = matProd l r i := by
  unfold matProd
  exact Finset.sum_congr rfl fun k _ => by rw [hl k, hr k]

/-- Two right factors that are each other's transposes entry by entry give the same product. -/
theorem matProd_congr_right (l : (⟨2, ![M, K]⟩ : Shape).Idx → EReal) (r r' : (⟨2, ![K, N]⟩ : Shape).Idx → EReal)
    (h : ∀ (k : Fin K) (b : Fin N), r (ix2 k b) = r' (ix2 k b)) : matProd l r = matProd l r' := by
  funext i
  obtain ⟨a, b, rfl⟩ : ∃ (a : Fin M) (b : Fin N), i = ix2 a b := ⟨i 0, i 1, eq_ix2 i⟩
  rw [matProd_ix2, matProd_ix2]
  exact Finset.sum_congr rfl fun k _ => by rw [h k b]

end Cert.Lib.MatProduct

end
-- ==== Proof.Spec.lean ====
/-
  The two array functions the kernel's regions compute, written once over literal extents, and the index column a row
  lookup is made with.

  projCols: columns o .. o+127 of the product of a matrix x : [M, 128] with a matrix w : [128, 256]; entry (r, j) is the
  sum over k of x[r, k] * w[k, o + j].

  msgBlk: for E edges, with ea, xj, xi : [E, 128], four square matrices we, wmj, wmi, wme : [128, 128] and a row
  b : [1, 128], the array (xj wmj + xi wmi) + (ea we) wme + b, the row b added to every row.

  wrapCol: an index vector of E signed words, each negative word moved up by 50000 once, laid out as a column [E, 1].
-/
import Idealize.ShloMosaic.PureOps.Ideal
import Idealize.ShloMosaic.Lib.ValueIdx
import proofs.«417207_j36507222016271_4_alg».proof.Proof.LibMatProduct

noncomputable section

namespace Cert.Msg

open Idealize.ShloMosaic Idealize.ShloMosaic.ValueIdx Cert.Lib.MatProduct

/-- Columns o .. o+127 of x w, for w of 256 columns. -/
def projCols {M : Nat} (o : Nat) (ho : o + 128 ≤ 256) (x : (⟨2, ![M, 128]⟩ : Shape).Idx → EReal)
    (w : (⟨2, ![128, 256]⟩ : Shape).Idx → EReal) : (⟨2, ![M, 128]⟩ : Shape).Idx → EReal :=
  fun i => ∑ k : Fin 128, x (ix2 ⟨(i 0).val, idx2_lt0 i⟩ k) * w (ix2 k ⟨o + (i 1).val, by have := idx2_lt1 i; omega⟩)

theorem projCols_ix2 {M : Nat} (o : Nat) (ho : o + 128 ≤ 256) (x : (⟨2, ![M, 128]⟩ : Shape).Idx → EReal)
    (w : (⟨2, ![128, 256]⟩ : Shape).Idx → EReal) (r : Fin M) (j : Fin 128) :
    projCols o ho x w (ix2 r j) = ∑ k : Fin 128, x (ix2 r k) * w (ix2 k ⟨o + j.val, by have := j.isLt; omega⟩) := rfl

/-- (xj wmj + xi wmi) + (ea we) wme + b, the row b added to every row. -/
def msgBlk {E : Nat} (ea xj xi : (⟨2, ![E, 128]⟩ : Shape).Idx → EReal)
    (we wmj wmi wme : (⟨2, ![128, 128]⟩ : Shape).Idx → EReal) (b : (⟨2, ![1, 128]⟩ : Shape).Idx → EReal) :
    (⟨2, ![E, 128]⟩ : Shape).Idx → EReal :=
  fun i => (matProd xj wmj i + matProd xi wmi i) + matProd (matProd ea we) wme i
    + b (ix2 ⟨0, Nat.one_pos⟩ ⟨(i 1).val, idx2_lt1 i⟩)

theorem msgBlk_ix2 {E : Nat} (ea xj xi : (⟨2, ![E, 128]⟩ : Shape).Idx → EReal)
    (we wmj wmi wme : (⟨2, ![128, 128]⟩ : Shape).Idx → EReal) (b : (⟨2, ![1, 128]⟩ : Shape).Idx → EReal)
    (e : Fin E) (j : Fin 128) :
    msgBlk ea xj xi we wmj wmi wme b (ix2 e j)
      = (matProd xj wmj (ix2 e j) + matProd xi wmi (ix2 e j)) + matProd (matProd ea we) wme (ix2 e j)
        + b (ix2 ⟨0, Nat.one_pos⟩ j) := rfl

/-- The index column of a row lookup: a negative word is moved up by 50000 once, then the vector is laid out as [E, 1]. -/
def wrapCol {E : Nat} (hb0 : (⟨0, ![]⟩ : Shape).BroadcastsInDim ⟨1, ![E]⟩ (![] : Fin 0 → Fin 1))
    (hbc : (⟨1, ![E]⟩ : Shape).BroadcastsInDim ⟨2, ![E, 1]⟩ (![0] : Fin 1 → Fin 2)) (idx : IVec ⟨1, ![E]⟩ 32) :
    IVec ⟨2, ![E, 1]⟩ 32 :=
  broadcastInDim ⟨2, ![E, 1]⟩ ![0] hbc
    (select (cmpi .slt idx (broadcastInDim ⟨1, ![E]⟩ ![] hb0 (constantI ⟨0, ![]⟩ 32 0#32)))
      (addi idx (broadcastInDim ⟨1, ![E]⟩ ![] hb0 (constantI ⟨0, ![]⟩ 32 50000#32))) idx)

end Cert.Msg

end
-- ==== Proof.Tail.lean ====
/-
  What both programs do with the two message arrays: each direction's messages are added up at their receiving nodes (a
  scatter-add into zeros, at the targets for the source-to-target messages and at the sources for the other direction),
  the node array x is added to each sum, and the result is half the sum of the two. Written once, with the side
  conditions of its operations as parameters, so that the two programs' tails are one term. Also two small readings of
  layout operations at an index: a transposed matrix, and a bias vector repeated on every row.
-/
import Idealize.ShloMosaic.PureOps.Ideal
import Idealize.ShloMosaic.Lib.ValueIdx
import Idealize.ShloMosaic.Lib.Pipeline.Value

noncomputable section

namespace Cert.Msg

open Idealize.ShloMosaic Idealize.ShloMosaic.ValueIdx

/-- ((scatter-add of ms at dst) + x + ((scatter-add of mt at src) + x)) / 2. -/
def aggTail {N E : Nat} (sd : ScatterDims ⟨2, ![N, 128]⟩ ⟨2, ![E, 1]⟩ ⟨2, ![E, 128]⟩)
    (hz : (⟨0, ![]⟩ : Shape).BroadcastsInDim ⟨2, ![N, 128]⟩ (![] : Fin 0 → Fin 2))
    (hc : (⟨1, ![E]⟩ : Shape).BroadcastsInDim ⟨2, ![E, 1]⟩ (![0] : Fin 1 → Fin 2))
    (x : FVec Ideal ⟨2, ![N, 128]⟩ .f32) (src dst : IVec ⟨1, ![E]⟩ 32) (ms mt : FVec Ideal ⟨2, ![E, 128]⟩ .f32) :
    FVec Ideal ⟨2, ![N, 128]⟩ .f32 :=
  Host.divf
    (addf
      (addf (Host.scatterAdd sd (broadcastInDim ⟨2, ![N, 128]⟩ ![] hz (constant (F := Ideal) ⟨0, ![]⟩ .f32 0x00000000#32))
        (broadcastInDim ⟨2, ![E, 1]⟩ ![0] hc dst) ms) x)
      (addf (Host.scatterAdd sd (broadcastInDim ⟨2, ![N, 128]⟩ ![] hz (constant (F := Ideal) ⟨0, ![]⟩ .f32 0x00000000#32))
        (broadcastInDim ⟨2, ![E, 1]⟩ ![0] hc src) mt) x))
    (broadcastInDim ⟨2, ![N, 128]⟩ ![] hz (constant (F := Ideal) ⟨0, ![]⟩ .f32 0x40000000#32))

/-- A transposed matrix read at (a, b) is the matrix at (b, a). -/
theorem transpose_swap {α : Type} {A B : Nat} (x : (⟨2, ![A, B]⟩ : Shape).Idx → α)
    (h : (⟨2, ![A, B]⟩ : Shape).Transposes [1, 0] ⟨2, ![B, A]⟩) (a : Fin B) (b : Fin A) :
    transpose ⟨2, ![B, A]⟩ [1, 0] x h (ix2 a b) = x (ix2 b a) :=
  transpose_apply [1, 0] x h (ix2 a b) (ix2 b a) fun d => by
    match d with
    | ⟨0, _⟩ => rfl
    | ⟨1, _⟩ => rfl

/-- A vector laid out as one row and then repeated on E rows reads, at (e, j), the vector at j. -/
theorem bias_rows_apply {α : Type} {E n : Nat} (v : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![E, n]⟩ (![0, 1] : Fin 2 → Fin 2)) (e : Fin E) (j : Fin n) :
    broadcastInDim ⟨2, ![E, n]⟩ ![0, 1] h2 (broadcastInDim ⟨2, ![1, n]⟩ ![1] h1 v) (ix2 e j) = v (ix1 j) := by
  have hj : j.val < n := j.isLt
  rw [broadcastInDim_apply ![0, 1] h2 _ (ix2 e j) (ix2 (⟨0, Nat.one_pos⟩ : Fin 1) j) (fun a => by
    match a with
    | ⟨0, _⟩ => rfl
    | ⟨1, _⟩ =>
      show j.val = if n = 1 then 0 else j.val
      split
      · omega
      · rfl)]
  exact broadcastInDim_apply ![1] h1 v (ix2 (⟨0, Nat.one_pos⟩ : Fin 1) j) (ix1 j) (fun a => by
    match a with
    | ⟨0, _⟩ =>
      show j.val = if n = 1 then 0 else j.val
      split
      · omega
      · rfl)

end Cert.Msg

end
-- ==== Proof.Region0Value.lean ====
/-
  What the first region (the node projection) leaves in its two output arrays, as functions of the arrays the region
  finds on entry: output 0 is columns 0 .. 127 and output 1 columns 128 .. 255 of x w, where x : [50000, 128] is the
  node array and w : [128, 256] the joined weight, the grid cutting x into ten bands of 5000 rows.
-/
import proofs.«417207_j36507222016271_4_alg».proof.Proof.Gen.KernelIdeal.Frame
import proofs.«417207_j36507222016271_4_alg».proof.Proof.Spec
import Idealize.ShloMosaic.Lib.Pipeline.Value
import Idealize.ShloMosaic.PureOps.Ideal.Laws

noncomputable section

open Idealize.ShloMosaic Idealize.ShloMosaic.TcCoe Idealize.SL.Sem
open Idealize.ShloMosaic.Pipeline (Dat)

namespace Cert.KernelIdeal.Region0

open Cert.KernelIdeal Cert.KernelIdeal.Gen

open Idealize.ShloMosaic.ValueIdx Cert.Lib.MatProduct

/-- The offsets of an access of a whole buffer are zero on both axes. -/
theorem off_zero : (![0, 0] : Fin 2 → Nat) = fun _ => 0 := funext fun a => by fin_cases a <;> rfl

/-- The body's product: the band of rows, narrowed to the weight's format (the identity on extended reals), times the
    weight, accumulated into zeros, is the row-by-column product. -/
theorem prod_eq (x0 : Vec Ideal S5000x128 .f32) (x1 : Vec Ideal S128x256 .bf16) :
    k0_pay1 x0 x1 = matProd (M := 5000) (K := 128) (N := 256) (x0 : S5000x128.Idx → EReal) (x1 : S128x256.Idx → EReal) := by
  unfold k0_pay1
  rw [shapeCast_self]
  exact matmul_plain_zero_eq none _ _

/-- Entry (p, q) of the left half of the product. -/
theorem left_apply (x0 : Vec Ideal S5000x128 .f32) (x1 : Vec Ideal S128x256 .bf16) (p : Fin 5000) (q : Fin 128) :
    k0_pay2 x0 x1 (ix2 p q)
      = ∑ k : Fin 128, (x0 : S5000x128.Idx → EReal) (ix2 p k) * (x1 : S128x256.Idx → EReal) (ix2 k ⟨0 + q.val, by have := q.isLt; omega⟩) := by
  unfold k0_pay2
  refine (extractStridedSlice_apply ![0, 0] (k0_pay1 x0 x1) slices_S5000x256_o0_0_S5000x128 (ix2 p q)
    (ix2 p ⟨0 + q.val, by have := q.isLt; omega⟩) (fun a => ?_)).trans ?_
  · match a with
    | ⟨0, _⟩ => show p.val = 0 + p.val; omega
    | ⟨1, _⟩ => show 0 + q.val = 0 + q.val; rfl
  · rw [prod_eq, matProd_ix2]

/-- Entry (p, q) of the right half of the product. -/
theorem right_apply (x0 : Vec Ideal S5000x128 .f32) (x1 : Vec Ideal S128x256 .bf16) (p : Fin 5000) (q : Fin 128) :
    k0_pay3 x0 x1 (ix2 p q)
      = ∑ k : Fin 128, (x0 : S5000x128.Idx → EReal) (ix2 p k) * (x1 : S128x256.Idx → EReal) (ix2 k ⟨128 + q.val, by have := q.isLt; omega⟩) := by
  unfold k0_pay3
  refine (extractStridedSlice_apply ![0, 128] (k0_pay1 x0 x1) slices_S5000x256_o0_128_S5000x128 (ix2 p q)
    (ix2 p ⟨128 + q.val, by have := q.isLt; omega⟩) (fun a => ?_)).trans ?_
  · match a with
    | ⟨0, _⟩ => show p.val = 0 + p.val; omega
    | ⟨1, _⟩ => show 128 + q.val = 128 + q.val; rfl
  · rw [prod_eq, matProd_ix2]

/-- The printed index maps over the grid: the node band and both output bands sit at the point's own number on the row
    axis; every other block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Each of the ten bands is some point's. -/
theorem point_of_band : ∀ b : Fin 10, ∃ t : Fin cfg0.N, t.val = b.val :=
  (by decide +kernel : ∀ b : Fin 10, ∃ t : Fin grid0.N, t.val = b.val)

/-- A sum of products over a band of rows and the weight's column o + q is an entry of columns o .. o + 127 of the whole
    product, as soon as the band's row p is row (i 0) of x and the weight block's column is column o + (i 1) of w. -/
theorem cols_entry (o : Nat) (ho : o + 128 ≤ 256) (x0 : S5000x128.Idx → EReal) (x1 : S128x256.Idx → EReal)
    (X : S50000x128.Idx → EReal) (W : S128x256.Idx → EReal) (p : Fin 5000) (q : Fin 128) (i : S50000x128.Idx)
    (h0 : ∀ k : Fin 128, x0 (ix2 p k) = X (ix2 ⟨(i 0).val, idx2_lt0 i⟩ k))
    (h1 : ∀ k : Fin 128, x1 (ix2 k ⟨o + q.val, by have := q.isLt; omega⟩)
      = W (ix2 k ⟨o + (i 1).val, by have := idx2_lt1 i; omega⟩)) :
    ∑ k : Fin 128, x0 (ix2 p k) * x1 (ix2 k ⟨o + q.val, by have := q.isLt; omega⟩) = Cert.Msg.projCols o ho X W i := by
  unfold Cert.Msg.projCols
  exact Finset.sum_congr rfl fun k _ => by rw [h0 k, h1 k]

/-- The left half of a band's product, entry by entry, against the whole arrays. -/
theorem left_entry (x0 : Vec Ideal S5000x128 .f32) (x1 : Vec Ideal S128x256 .bf16)
    (X : S50000x128.Idx → EReal) (W : S128x256.Idx → EReal) (p : Fin 5000) (q : Fin 128) (i : S50000x128.Idx)
    (h0 : ∀ k : Fin 128, (x0 : S5000x128.Idx → EReal) (ix2 p k) = X (ix2 ⟨(i 0).val, idx2_lt0 i⟩ k))
    (h1 : ∀ k : Fin 128, (x1 : S128x256.Idx → EReal) (ix2 k ⟨0 + q.val, by have := q.isLt; omega⟩)
      = W (ix2 k ⟨0 + (i 1).val, by have := idx2_lt1 i; omega⟩)) :
    k0_pay2 x0 x1 (ix2 p q) = Cert.Msg.projCols 0 (by decide) X W i :=
  (left_apply x0 x1 p q).trans (cols_entry 0 (by decide) x0 x1 X W p q i h0 h1)

/-- The right half of a band's product, entry by entry, against the whole arrays. -/
theorem right_entry (x0 : Vec Ideal S5000x128 .f32) (x1 : Vec Ideal S128x256 .bf16)
    (X : S50000x128.Idx → EReal) (W : S128x256.Idx → EReal) (p : Fin 5000) (q : Fin 128) (i : S50000x128.Idx)
    (h0 : ∀ k : Fin 128, (x0 : S5000x128.Idx → EReal) (ix2 p k) = X (ix2 ⟨(i 0).val, idx2_lt0 i⟩ k))
    (h1 : ∀ k : Fin 128, (x1 : S128x256.Idx → EReal) (ix2 k ⟨128 + q.val, by have := q.isLt; omega⟩)
      = W (ix2 k ⟨128 + (i 1).val, by have := idx2_lt1 i; omega⟩)) :
    k0_pay3 x0 x1 (ix2 p q) = Cert.Msg.projCols 128 (by decide) X W i :=
  (right_apply x0 x1 p q).trans (cols_entry 128 (by decide) x0 x1 X W p q i h0 h1)

variable (V : (c : Dev nD) → (b : Ref sig .tc) → Buf (Elt Ideal) ((c : Thread nD τ).loc b))

/-- What point t writes back to output 0 is band t of columns 0 .. 127 of x w. -/
theorem flushed2_eq (c : Dev nD) (t : Fin cfg0.N) :
    (dat0 (F := Ideal) V c).flushed 2 t = ((cfg0.win 2).blk t).view.read (Elt Ideal)
      (Cert.Msg.projCols 0 (by decide) (V c main_arg0 : S50000x128.Idx → EReal) (V c main_v3 : S128x256.Idx → EReal)) := by
  show (cfg0.win 2).cut (grid0.coords t) ((dat0 V c).after 2 t) = _
  rw [after0_2]
  unfold out0_2
  rw [View.canon_unit_zero off_zero]
  simp only [View.ld_unit_zero (S := S5000x128) off_zero, View.ld_unit_zero (S := S128x256) off_zero]
  obtain ⟨e00, e01, e10, e11, e20, e21, e30, e31⟩ := idx_facts t
  refine funext fun (j : S5000x128.Idx) => ?_
  obtain ⟨p, q, rfl⟩ : ∃ (p : Fin 5000) (q : Fin 128), j = ix2 p q := ⟨j 0, j 1, eq_ix2 j⟩
  show k0_pay2 (iblk0 V c 0 t) (iblk0 V c 1 t) (ix2 p q)
    = Cert.Msg.projCols 0 (by decide) (V c main_arg0 : S50000x128.Idx → EReal) (V c main_v3 : S128x256.Idx → EReal)
        (((cfg0.win 2).blk t).view.emb (ix2 p q))
  refine left_entry (iblk0 V c 0 t) (iblk0 V c 1 t) _ _ p q _ (fun k => ?_) (fun k => ?_)
  · show V c main_arg0 (((cfg0.win 0).blk t).view.emb (ix2 p k)) = V c main_arg0 _
    refine congrArg _ (funext fun a => Fin.ext ?_)
    match a with
    | ⟨0, _⟩ =>
      show win0_0.index t (0 : Fin 2) * 5000 + 1 * p.val = win0_2.index t (0 : Fin 2) * 5000 + 1 * p.val
      omega
    | ⟨1, _⟩ =>
      show win0_0.index t (1 : Fin 2) * 128 + 1 * k.val = k.val
      omega
  · show V c main_v3 (((cfg0.win 1).blk t).view.emb (ix2 k ⟨0 + q.val, by have := q.isLt; omega⟩)) = V c main_v3 _
    refine congrArg _ (funext fun a => Fin.ext ?_)
    match a with
    | ⟨0, _⟩ =>
      show win0_1.index t (0 : Fin 2) * 128 + 1 * k.val = k.val
      omega
    | ⟨1, _⟩ =>
      show win0_1.index t (1 : Fin 2) * 256 + 1 * (0 + q.val) = 0 + (win0_2.index t (1 : Fin 2) * 128 + 1 * q.val)
      omega

/-- A row and column of output 0's array lie in point t's block iff they lie in its ranges on the two axes. -/
theorem mem_blk2 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v4_0).slice (win0_2.rect t)).set ↔ _
  rw [View.set_slice_whole, Rect.mem_set_unit]
  exact Iff.rfl

/-- Row r of output 0's array is in the block of point r / 5000: the ten bands cover the array. -/
theorem cover2 (i : S50000x128.Idx) :
    ∃ t : Fin cfg0.N, (cfg0.win 2).flush t = true ∧ i ∈ ((cfg0.win 2).blk t).view.set := by
  have hi0 : (i 0).val < 50000 := idx2_lt0 i
  have hi1 : (i 1).val < 128 := idx2_lt1 i
  obtain ⟨t, ht⟩ := point_of_band ⟨(i 0).val / 5000, by omega⟩
  have ht' : t.val = (i 0).val / 5000 := ht
  obtain ⟨e00, e01, e10, e11, e20, e21, e30, e31⟩ := idx_facts t
  refine ⟨t, flush0_2 t, ?_⟩
  rw [mem_blk2]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- What point t writes back to output 1 is band t of columns 128 .. 255 of x w. -/
theorem flushed3_eq (c : Dev nD) (t : Fin cfg0.N) :
    (dat0 (F := Ideal) V c).flushed 3 t = ((cfg0.win 3).blk t).view.read (Elt Ideal)
      (Cert.Msg.projCols 128 (by decide) (V c main_arg0 : S50000x128.Idx → EReal) (V c main_v3 : S128x256.Idx → EReal)) := by
  show (cfg0.win 3).cut (grid0.coords t) ((dat0 V c).after 3 t) = _
  rw [after0_3]
  unfold out0_3
  rw [View.canon_unit_zero off_zero]
  simp only [View.ld_unit_zero (S := S5000x128) off_zero, View.ld_unit_zero (S := S128x256) off_zero]
  obtain ⟨e00, e01, e10, e11, e20, e21, e30, e31⟩ := idx_facts t
  refine funext fun (j : S5000x128.Idx) => ?_
  obtain ⟨p, q, rfl⟩ : ∃ (p : Fin 5000) (q : Fin 128), j = ix2 p q := ⟨j 0, j 1, eq_ix2 j⟩
  show k0_pay3 (iblk0 V c 0 t) (iblk0 V c 1 t) (ix2 p q)
    = Cert.Msg.projCols 128 (by decide) (V c main_arg0 : S50000x128.Idx → EReal) (V c main_v3 : S128x256.Idx → EReal)
        (((cfg0.win 3).blk t).view.emb (ix2 p q))
  refine right_entry (iblk0 V c 0 t) (iblk0 V c 1 t) _ _ p q _ (fun k => ?_) (fun k => ?_)
  · show V c main_arg0 (((cfg0.win 0).blk t).view.emb (ix2 p k)) = V c main_arg0 _
    refine congrArg _ (funext fun a => Fin.ext ?_)
    match a with
    | ⟨0, _⟩ =>
      show win0_0.index t (0 : Fin 2) * 5000 + 1 * p.val = win0_3.index t (0 : Fin 2) * 5000 + 1 * p.val
      omega
    | ⟨1, _⟩ =>
      show win0_0.index t (1 : Fin 2) * 128 + 1 * k.val = k.val
      omega
  · show V c main_v3 (((cfg0.win 1).blk t).view.emb (ix2 k ⟨128 + q.val, by have := q.isLt; omega⟩)) = V c main_v3 _
    refine congrArg _ (funext fun a => Fin.ext ?_)
    match a with
    | ⟨0, _⟩ =>
      show win0_1.index t (0 : Fin 2) * 128 + 1 * k.val = k.val
      omega
    | ⟨1, _⟩ =>
      show win0_1.index t (1 : Fin 2) * 256 + 1 * (128 + q.val) = 128 + (win0_3.index t (1 : Fin 2) * 128 + 1 * q.val)
      omega

/-- A row and column of output 1's array lie in point t's block iff they lie in its ranges on the two axes. -/
theorem mem_blk3 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v4_1).slice (win0_3.rect t)).set ↔ _
  rw [View.set_slice_whole, Rect.mem_set_unit]
  exact Iff.rfl

/-- Row r of output 1's array is in the block of point r / 5000: the ten bands cover the array. -/
theorem cover3 (i : S50000x128.Idx) :
    ∃ t : Fin cfg0.N, (cfg0.win 3).flush t = true ∧ i ∈ ((cfg0.win 3).blk t).view.set := by
  have hi0 : (i 0).val < 50000 := idx2_lt0 i
  have hi1 : (i 1).val < 128 := idx2_lt1 i
  obtain ⟨t, ht⟩ := point_of_band ⟨(i 0).val / 5000, by omega⟩
  have ht' : t.val = (i 0).val / 5000 := ht
  obtain ⟨e00, e01, e10, e11, e20, e21, e30, e31⟩ := idx_facts t
  refine ⟨t, flush0_3 t, ?_⟩
  rw [mem_blk3]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- Output window 2's array after the region: columns 0 .. 127 of x w. -/
theorem final2 (c : Dev nD) : (dat0 (F := Ideal) V c).arrAt 2 cfg0.N
    = Cert.Msg.projCols 0 (by decide) (V c main_arg0 : S50000x128.Idx → EReal) (V c main_v3 : S128x256.Idx → EReal) := by
  exact (dat0 (F := Ideal) V c).arrAt_eq_of_cover 2 _ (fun t _ => flushed2_eq V c t) cover2

/-- Output window 3's array after the region: columns 128 .. 255 of x w. -/
theorem final3 (c : Dev nD) : (dat0 (F := Ideal) V c).arrAt 3 cfg0.N
    = Cert.Msg.projCols 128 (by decide) (V c main_arg0 : S50000x128.Idx → EReal) (V c main_v3 : S128x256.Idx → EReal) := by
  exact (dat0 (F := Ideal) V c).arrAt_eq_of_cover 3 _ (fun t _ => flushed3_eq V c t) cover3

end Cert.KernelIdeal.Region0

end
-- ==== Proof.Region1Value.lean ====
/-
  What the second region (the per-edge message) leaves in its two output arrays, as functions of the arrays the region
  finds on entry: each is (xj wmj + xi wmi) + (ea we) wme + b over all 600000 edges, the grid cutting the edge arrays
  into 500 bands of 1200 rows while the weights and the bias row are read whole at every point.
-/
import proofs.«417207_j36507222016271_4_alg».proof.Proof.Gen.KernelIdeal.Frame
import proofs.«417207_j36507222016271_4_alg».proof.Proof.Spec
import Idealize.ShloMosaic.Lib.Pipeline.Value
import Idealize.ShloMosaic.PureOps.Ideal.Laws

noncomputable section

open Idealize.ShloMosaic Idealize.ShloMosaic.TcCoe Idealize.SL.Sem
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

section BlocksToArray

open Cert.Lib.MatProduct Cert.Msg Idealize.ShloMosaic.ValueIdx

theorem dot_plain : dot_S1200x128_S128x128_S1200x128_1_0_0_1_n_n = DotDims.plain 1200 128 128 := rfl

/-- A product accumulated into the zero splat is the row-by-column product. -/
theorem mm_eq {φ₁ φ₂ : FTy} (A : FVec Ideal S1200x128 φ₁) (B : FVec Ideal S128x128 φ₂) :
    matmul dot_S1200x128_S128x128_S1200x128_1_0_0_1_n_n none A B (constant S1200x128 .f32 0x00000000#32) = matProd A B := by
  rw [dot_plain]; exact matmul_plain_zero_eq none A B

/-- The bias row broadcast over the rows, read at (r, j), is the row's entry j. -/
theorem bias_apply (b : FVec Ideal S1x128 .f32) (r : Fin 1200) (j : Fin 128) :
    broadcastTo S1200x128 b broadcasts_S1x128_S1200x128 (ix2 r j) = b (ix2 ⟨0, Nat.one_pos⟩ j) :=
  broadcastTo_apply b broadcasts_S1x128_S1200x128 (ix2 r j) (ix2 ⟨0, Nat.one_pos⟩ j) (fun a => by
    match a with
    | ⟨0, _⟩ => rfl
    | ⟨1, _⟩ => rfl)

theorem pay15_eq (x0 x1 x2 : FVec Ideal S1200x128 .f32) (w5 w7 w8 w9 : FVec Ideal S128x128 .bf16) (b : FVec Ideal S1x128 .f32) :
    k1_pay1 (F := Ideal) (k1_pay7 (F := Ideal) x0 w5 x1 x2 w7 w8 w9) b = msgBlk (E := 1200) x0 x1 x2 w5 w7 w8 w9 b := by
  unfold k1_pay1 k1_pay7 k1_pay3
  dsimp only
  simp only [shapeCast_self]
  show addf (addf (addf (matmul dot_S1200x128_S128x128_S1200x128_1_0_0_1_n_n none x1 w7 (constant S1200x128 .f32 0x00000000#32))
        (matmul dot_S1200x128_S128x128_S1200x128_1_0_0_1_n_n none x2 w8 (constant S1200x128 .f32 0x00000000#32)))
      (matmul dot_S1200x128_S128x128_S1200x128_1_0_0_1_n_n none
        (matmul dot_S1200x128_S128x128_S1200x128_1_0_0_1_n_n none x0 w5 (constant S1200x128 .f32 0x00000000#32)) w9
        (constant S1200x128 .f32 0x00000000#32)))
    (broadcastTo S1200x128 b broadcasts_S1x128_S1200x128) = _
  rw [mm_eq x1 w7, mm_eq x2 w8, mm_eq x0 w5, mm_eq (matProd x0 w5) w9]
  funext i
  obtain ⟨r, j, rfl⟩ : ∃ (r : Fin 1200) (j : Fin 128), i = ix2 r j := ⟨i 0, i 1, eq_ix2 i⟩
  rw [msgBlk_ix2]
  show (matProd x1 w7 (ix2 r j) + matProd x2 w8 (ix2 r j)) + matProd (matProd x0 w5) w9 (ix2 r j)
      + broadcastTo S1200x128 b broadcasts_S1x128_S1200x128 (ix2 r j) = _
  rw [bias_apply]

theorem pay16_eq (x0 x3 x4 : FVec Ideal S1200x128 .f32) (w6 w11 w12 w13 : FVec Ideal S128x128 .bf16) (b : FVec Ideal S1x128 .f32) :
    k1_pay2 (F := Ideal) (k1_pay4 (F := Ideal) x0 w6) (k1_pay5 (F := Ideal) x3) (k1_pay6 (F := Ideal) x4) w11 w12 w13 b = msgBlk (E := 1200) x0 x3 x4 w6 w11 w12 w13 b := by
  unfold k1_pay2 k1_pay4 k1_pay5 k1_pay6 k1_pay3
  dsimp only
  simp only [shapeCast_self]
  show addf (addf (addf (matmul dot_S1200x128_S128x128_S1200x128_1_0_0_1_n_n none x3 w11 (constant S1200x128 .f32 0x00000000#32))
        (matmul dot_S1200x128_S128x128_S1200x128_1_0_0_1_n_n none x4 w12 (constant S1200x128 .f32 0x00000000#32)))
      (matmul dot_S1200x128_S128x128_S1200x128_1_0_0_1_n_n none
        (matmul dot_S1200x128_S128x128_S1200x128_1_0_0_1_n_n none x0 w6 (constant S1200x128 .f32 0x00000000#32)) w13
        (constant S1200x128 .f32 0x00000000#32)))
    (broadcastTo S1200x128 b broadcasts_S1x128_S1200x128) = _
  rw [mm_eq x3 w11, mm_eq x4 w12, mm_eq x0 w6, mm_eq (matProd x0 w6) w13]
  funext i
  obtain ⟨r, j, rfl⟩ : ∃ (r : Fin 1200) (j : Fin 128), i = ix2 r j := ⟨i 0, i 1, eq_ix2 i⟩
  rw [msgBlk_ix2]
  show (matProd x3 w11 (ix2 r j) + matProd x4 w12 (ix2 r j)) + matProd (matProd x0 w6) w13 (ix2 r j)
      + broadcastTo S1200x128 b broadcasts_S1x128_S1200x128 (ix2 r j) = _
  rw [bias_apply]

theorem hz : (![0, 0] : Fin 2 → Nat) = fun _ => 0 := funext fun a => by fin_cases a <;> rfl

/-- The block indices at point t, decided over the grid: the five edge windows and the two outputs are at block (t, 0),
    the weights and the bias rows at block (0, 0). -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = 0 ∧ win1_11.index t (1 : Fin 2) = 0)
    ∧ (win1_12.index t (0 : Fin 2) = 0 ∧ win1_12.index t (1 : Fin 2) = 0)
    ∧ (win1_13.index t (0 : Fin 2) = 0 ∧ win1_13.index t (1 : Fin 2) = 0)
    ∧ (win1_14.index t (0 : Fin 2) = 0 ∧ win1_14.index t (1 : Fin 2) = 0)
    ∧ (win1_15.index t (0 : Fin 2) = t.val ∧ win1_15.index t (1 : Fin 2) = 0)
    ∧ (win1_16.index t (0 : Fin 2) = t.val ∧ win1_16.index t (1 : Fin 2) = 0) :=
  (by decide +kernel : ∀ t : Fin grid1.N, _)

/-- A block of edge window 0 at point t is the band of 1200 rows of its array starting at row 1200 t. -/
theorem blk0_apply (c : Dev nD) (t : Fin cfg1.N) (r : Fin 1200) (k : Fin 128) (R : Fin 600000) (hR : R.val = t.val * 1200 + r.val) :
    (iblk1 (F := Ideal) V c 0 t : S1200x128.Idx → EReal) (ix2 r k) = (V c main_arg2 : S600000x128.Idx → EReal) (ix2 R k) := by
  obtain ⟨f0, f1, f2, f3, f4, f5, f6, f7, f8, f9, f10, f11, f12, f13, f14, f15, f16⟩ := idx_facts t
  show (V c main_arg2 : S600000x128.Idx → EReal) (((cfg1.win 0).blk t).view.emb (ix2 r k)) = _
  refine congrArg _ (funext fun a => Fin.ext ?_)
  match a with
  | ⟨0, _⟩ => show win1_0.index t (0 : Fin 2) * 1200 + 1 * r.val = R.val; rw [f0.1, hR]; omega
  | ⟨1, _⟩ => show win1_0.index t (1 : Fin 2) * 128 + 1 * k.val = k.val; rw [f0.2]; omega

/-- A block of edge window 1 at point t is the band of 1200 rows of its array starting at row 1200 t. -/
theorem blk1_apply (c : Dev nD) (t : Fin cfg1.N) (r : Fin 1200) (k : Fin 128) (R : Fin 600000) (hR : R.val = t.val * 1200 + r.val) :
    (iblk1 (F := Ideal) V c 1 t : S1200x128.Idx → EReal) (ix2 r k) = (V c main_v33 : S600000x128.Idx → EReal) (ix2 R k) := by
  obtain ⟨f0, f1, f2, f3, f4, f5, f6, f7, f8, f9, f10, f11, f12, f13, f14, f15, f16⟩ := idx_facts t
  show (V c main_v33 : S600000x128.Idx → EReal) (((cfg1.win 1).blk t).view.emb (ix2 r k)) = _
  refine congrArg _ (funext fun a => Fin.ext ?_)
  match a with
  | ⟨0, _⟩ => show win1_1.index t (0 : Fin 2) * 1200 + 1 * r.val = R.val; rw [f1.1, hR]; omega
  | ⟨1, _⟩ => show win1_1.index t (1 : Fin 2) * 128 + 1 * k.val = k.val; rw [f1.2]; omega

/-- A block of edge window 2 at point t is the band of 1200 rows of its array starting at row 1200 t. -/
theorem blk2_apply (c : Dev nD) (t : Fin cfg1.N) (r : Fin 1200) (k : Fin 128) (R : Fin 600000) (hR : R.val = t.val * 1200 + r.val) :
    (iblk1 (F := Ideal) V c 2 t : S1200x128.Idx → EReal) (ix2 r k) = (V c main_v34 : S600000x128.Idx → EReal) (ix2 R k) := by
  obtain ⟨f0, f1, f2, f3, f4, f5, f6, f7, f8, f9, f10, f11, f12, f13, f14, f15, f16⟩ := idx_facts t
  show (V c main_v34 : S600000x128.Idx → EReal) (((cfg1.win 2).blk t).view.emb (ix2 r k)) = _
  refine congrArg _ (funext fun a => Fin.ext ?_)
  match a with
  | ⟨0, _⟩ => show win1_2.index t (0 : Fin 2) * 1200 + 1 * r.val = R.val; rw [f2.1, hR]; omega
  | ⟨1, _⟩ => show win1_2.index t (1 : Fin 2) * 128 + 1 * k.val = k.val; rw [f2.2]; omega

/-- A block of edge window 3 at point t is the band of 1200 rows of its array starting at row 1200 t. -/
theorem blk3_apply (c : Dev nD) (t : Fin cfg1.N) (r : Fin 1200) (k : Fin 128) (R : Fin 600000) (hR : R.val = t.val * 1200 + r.val) :
    (iblk1 (F := Ideal) V c 3 t : S1200x128.Idx → EReal) (ix2 r k) = (V c main_v35 : S600000x128.Idx → EReal) (ix2 R k) := by
  obtain ⟨f0, f1, f2, f3, f4, f5, f6, f7, f8, f9, f10, f11, f12, f13, f14, f15, f16⟩ := idx_facts t
  show (V c main_v35 : S600000x128.Idx → EReal) (((cfg1.win 3).blk t).view.emb (ix2 r k)) = _
  refine congrArg _ (funext fun a => Fin.ext ?_)
  match a with
  | ⟨0, _⟩ => show win1_3.index t (0 : Fin 2) * 1200 + 1 * r.val = R.val; rw [f3.1, hR]; omega
  | ⟨1, _⟩ => show win1_3.index t (1 : Fin 2) * 128 + 1 * k.val = k.val; rw [f3.2]; omega

/-- A block of edge window 4 at point t is the band of 1200 rows of its array starting at row 1200 t. -/
theorem blk4_apply (c : Dev nD) (t : Fin cfg1.N) (r : Fin 1200) (k : Fin 128) (R : Fin 600000) (hR : R.val = t.val * 1200 + r.val) :
    (iblk1 (F := Ideal) V c 4 t : S1200x128.Idx → EReal) (ix2 r k) = (V c main_v36 : S600000x128.Idx → EReal) (ix2 R k) := by
  obtain ⟨f0, f1, f2, f3, f4, f5, f6, f7, f8, f9, f10, f11, f12, f13, f14, f15, f16⟩ := idx_facts t
  show (V c main_v36 : S600000x128.Idx → EReal) (((cfg1.win 4).blk t).view.emb (ix2 r k)) = _
  refine congrArg _ (funext fun a => Fin.ext ?_)
  match a with
  | ⟨0, _⟩ => show win1_4.index t (0 : Fin 2) * 1200 + 1 * r.val = R.val; rw [f4.1, hR]; omega
  | ⟨1, _⟩ => show win1_4.index t (1 : Fin 2) * 128 + 1 * k.val = k.val; rw [f4.2]; omega

/-- The block of window 5 at every point is its whole array. -/
theorem blk5_eq (c : Dev nD) (t : Fin cfg1.N) :
    (iblk1 (F := Ideal) V c 5 t : S128x128.Idx → EReal) = (V c main_v6 : S128x128.Idx → EReal) := by
  obtain ⟨f0, f1, f2, f3, f4, f5, f6, f7, f8, f9, f10, f11, f12, f13, f14, f15, f16⟩ := idx_facts t
  funext y
  show (V c main_v6 : S128x128.Idx → EReal) (((cfg1.win 5).blk t).view.emb y) = _
  refine congrArg _ (funext fun a => Fin.ext ?_)
  match a with
  | ⟨0, _⟩ => show win1_5.index t (0 : Fin 2) * 128 + 1 * (y 0).val = (y 0).val; rw [f5.1]; omega
  | ⟨1, _⟩ => show win1_5.index t (1 : Fin 2) * 128 + 1 * (y 1).val = (y 1).val; rw [f5.2]; omega

/-- The block of window 6 at every point is its whole array. -/
theorem blk6_eq (c : Dev nD) (t : Fin cfg1.N) :
    (iblk1 (F := Ideal) V c 6 t : S128x128.Idx → EReal) = (V c main_v8 : S128x128.Idx → EReal) := by
  obtain ⟨f0, f1, f2, f3, f4, f5, f6, f7, f8, f9, f10, f11, f12, f13, f14, f15, f16⟩ := idx_facts t
  funext y
  show (V c main_v8 : S128x128.Idx → EReal) (((cfg1.win 6).blk t).view.emb y) = _
  refine congrArg _ (funext fun a => Fin.ext ?_)
  match a with
  | ⟨0, _⟩ => show win1_6.index t (0 : Fin 2) * 128 + 1 * (y 0).val = (y 0).val; rw [f6.1]; omega
  | ⟨1, _⟩ => show win1_6.index t (1 : Fin 2) * 128 + 1 * (y 1).val = (y 1).val; rw [f6.2]; omega

/-- The block of window 7 at every point is its whole array. -/
theorem blk7_eq (c : Dev nD) (t : Fin cfg1.N) :
    (iblk1 (F := Ideal) V c 7 t : S128x128.Idx → EReal) = (V c main_v11 : S128x128.Idx → EReal) := by
  obtain ⟨f0, f1, f2, f3, f4, f5, f6, f7, f8, f9, f10, f11, f12, f13, f14, f15, f16⟩ := idx_facts t
  funext y
  show (V c main_v11 : S128x128.Idx → EReal) (((cfg1.win 7).blk t).view.emb y) = _
  refine congrArg _ (funext fun a => Fin.ext ?_)
  match a with
  | ⟨0, _⟩ => show win1_7.index t (0 : Fin 2) * 128 + 1 * (y 0).val = (y 0).val; rw [f7.1]; omega
  | ⟨1, _⟩ => show win1_7.index t (1 : Fin 2) * 128 + 1 * (y 1).val = (y 1).val; rw [f7.2]; omega

/-- The block of window 8 at every point is its whole array. -/
theorem blk8_eq (c : Dev nD) (t : Fin cfg1.N) :
    (iblk1 (F := Ideal) V c 8 t : S128x128.Idx → EReal) = (V c main_v14 : S128x128.Idx → EReal) := by
  obtain ⟨f0, f1, f2, f3, f4, f5, f6, f7, f8, f9, f10, f11, f12, f13, f14, f15, f16⟩ := idx_facts t
  funext y
  show (V c main_v14 : S128x128.Idx → EReal) (((cfg1.win 8).blk t).view.emb y) = _
  refine congrArg _ (funext fun a => Fin.ext ?_)
  match a with
  | ⟨0, _⟩ => show win1_8.index t (0 : Fin 2) * 128 + 1 * (y 0).val = (y 0).val; rw [f8.1]; omega
  | ⟨1, _⟩ => show win1_8.index t (1 : Fin 2) * 128 + 1 * (y 1).val = (y 1).val; rw [f8.2]; omega

/-- The block of window 9 at every point is its whole array. -/
theorem blk9_eq (c : Dev nD) (t : Fin cfg1.N) :
    (iblk1 (F := Ideal) V c 9 t : S128x128.Idx → EReal) = (V c main_v17 : S128x128.Idx → EReal) := by
  obtain ⟨f0, f1, f2, f3, f4, f5, f6, f7, f8, f9, f10, f11, f12, f13, f14, f15, f16⟩ := idx_facts t
  funext y
  show (V c main_v17 : S128x128.Idx → EReal) (((cfg1.win 9).blk t).view.emb y) = _
  refine congrArg _ (funext fun a => Fin.ext ?_)
  match a with
  | ⟨0, _⟩ => show win1_9.index t (0 : Fin 2) * 128 + 1 * (y 0).val = (y 0).val; rw [f9.1]; omega
  | ⟨1, _⟩ => show win1_9.index t (1 : Fin 2) * 128 + 1 * (y 1).val = (y 1).val; rw [f9.2]; omega

/-- The block of window 10 at every point is its whole array. -/
theorem blk10_eq (c : Dev nD) (t : Fin cfg1.N) :
    (iblk1 (F := Ideal) V c 10 t : S1x128.Idx → EReal) = (V c main_v27 : S1x128.Idx → EReal) := by
  obtain ⟨f0, f1, f2, f3, f4, f5, f6, f7, f8, f9, f10, f11, f12, f13, f14, f15, f16⟩ := idx_facts t
  funext y
  show (V c main_v27 : S1x128.Idx → EReal) (((cfg1.win 10).blk t).view.emb y) = _
  refine congrArg _ (funext fun a => Fin.ext ?_)
  match a with
  | ⟨0, _⟩ => show win1_10.index t (0 : Fin 2) * 1 + 1 * (y 0).val = (y 0).val; rw [f10.1]; omega
  | ⟨1, _⟩ => show win1_10.index t (1 : Fin 2) * 128 + 1 * (y 1).val = (y 1).val; rw [f10.2]; omega

/-- The block of window 11 at every point is its whole array. -/
theorem blk11_eq (c : Dev nD) (t : Fin cfg1.N) :
    (iblk1 (F := Ideal) V c 11 t : S128x128.Idx → EReal) = (V c main_v20 : S128x128.Idx → EReal) := by
  obtain ⟨f0, f1, f2, f3, f4, f5, f6, f7, f8, f9, f10, f11, f12, f13, f14, f15, f16⟩ := idx_facts t
  funext y
  show (V c main_v20 : S128x128.Idx → EReal) (((cfg1.win 11).blk t).view.emb y) = _
  refine congrArg _ (funext fun a => Fin.ext ?_)
  match a with
  | ⟨0, _⟩ => show win1_11.index t (0 : Fin 2) * 128 + 1 * (y 0).val = (y 0).val; rw [f11.1]; omega
  | ⟨1, _⟩ => show win1_11.index t (1 : Fin 2) * 128 + 1 * (y 1).val = (y 1).val; rw [f11.2]; omega

/-- The block of window 12 at every point is its whole array. -/
theorem blk12_eq (c : Dev nD) (t : Fin cfg1.N) :
    (iblk1 (F := Ideal) V c 12 t : S128x128.Idx → EReal) = (V c main_v23 : S128x128.Idx → EReal) := by
  obtain ⟨f0, f1, f2, f3, f4, f5, f6, f7, f8, f9, f10, f11, f12, f13, f14, f15, f16⟩ := idx_facts t
  funext y
  show (V c main_v23 : S128x128.Idx → EReal) (((cfg1.win 12).blk t).view.emb y) = _
  refine congrArg _ (funext fun a => Fin.ext ?_)
  match a with
  | ⟨0, _⟩ => show win1_12.index t (0 : Fin 2) * 128 + 1 * (y 0).val = (y 0).val; rw [f12.1]; omega
  | ⟨1, _⟩ => show win1_12.index t (1 : Fin 2) * 128 + 1 * (y 1).val = (y 1).val; rw [f12.2]; omega

/-- The block of window 13 at every point is its whole array. -/
theorem blk13_eq (c : Dev nD) (t : Fin cfg1.N) :
    (iblk1 (F := Ideal) V c 13 t : S128x128.Idx → EReal) = (V c main_v26 : S128x128.Idx → EReal) := by
  obtain ⟨f0, f1, f2, f3, f4, f5, f6, f7, f8, f9, f10, f11, f12, f13, f14, f15, f16⟩ := idx_facts t
  funext y
  show (V c main_v26 : S128x128.Idx → EReal) (((cfg1.win 13).blk t).view.emb y) = _
  refine congrArg _ (funext fun a => Fin.ext ?_)
  match a with
  | ⟨0, _⟩ => show win1_13.index t (0 : Fin 2) * 128 + 1 * (y 0).val = (y 0).val; rw [f13.1]; omega
  | ⟨1, _⟩ => show win1_13.index t (1 : Fin 2) * 128 + 1 * (y 1).val = (y 1).val; rw [f13.2]; omega

/-- The block of window 14 at every point is its whole array. -/
theorem blk14_eq (c : Dev nD) (t : Fin cfg1.N) :
    (iblk1 (F := Ideal) V c 14 t : S1x128.Idx → EReal) = (V c main_v28 : S1x128.Idx → EReal) := by
  obtain ⟨f0, f1, f2, f3, f4, f5, f6, f7, f8, f9, f10, f11, f12, f13, f14, f15, f16⟩ := idx_facts t
  funext y
  show (V c main_v28 : S1x128.Idx → EReal) (((cfg1.win 14).blk t).view.emb y) = _
  refine congrArg _ (funext fun a => Fin.ext ?_)
  match a with
  | ⟨0, _⟩ => show win1_14.index t (0 : Fin 2) * 1 + 1 * (y 0).val = (y 0).val; rw [f14.1]; omega
  | ⟨1, _⟩ => show win1_14.index t (1 : Fin 2) * 128 + 1 * (y 1).val = (y 1).val; rw [f14.2]; omega

/-- The message of a band of rows is the band of the message: no product cuts the contracted axis, and the weights and
    the bias row are whole. -/
theorem msgBlk_band (ea xj xi : S600000x128.Idx → EReal) (we wmj wmi wme : S128x128.Idx → EReal) (b : S1x128.Idx → EReal)
    (x0 x1 x2 : S1200x128.Idx → EReal) (w5 w7 w8 w9 : S128x128.Idx → EReal) (b' : S1x128.Idx → EReal)
    (r : Fin 1200) (j : Fin 128) (R : Fin 600000)
    (h0 : ∀ k : Fin 128, x0 (ix2 r k) = ea (ix2 R k)) (h1 : ∀ k : Fin 128, x1 (ix2 r k) = xj (ix2 R k))
    (h2 : ∀ k : Fin 128, x2 (ix2 r k) = xi (ix2 R k))
    (h5 : w5 = we) (h7 : w7 = wmj) (h8 : w8 = wmi) (h9 : w9 = wme) (hb : b' = b) :
    msgBlk x0 x1 x2 w5 w7 w8 w9 b' (ix2 r j) = msgBlk ea xj xi we wmj wmi wme b (ix2 R j) := by
  subst h5 h7 h8 h9 hb
  rw [msgBlk_ix2, msgBlk_ix2,
    matProd_block xj w7 x1 w7 r j R j h1 (fun _ => rfl),
    matProd_block xi w8 x2 w8 r j R j h2 (fun _ => rfl),
    matProd_block (matProd ea w5) w9 (matProd x0 w5) w9 r j R j
      (fun k => matProd_block ea w5 x0 w5 r k R k h0 (fun _ => rfl)) (fun _ => rfl)]

/-- Where a block's element sits in output array 15: row 1200 t + r, the same column. -/
theorem emb15 (t : Fin cfg1.N) (r : Fin 1200) (j : Fin 128) (R : Fin 600000) (hR : R.val = t.val * 1200 + r.val) :
    ((cfg1.win 15).blk t).view.emb (ix2 r j) = (ix2 R j : S600000x128.Idx) := by
  obtain ⟨f0, f1, f2, f3, f4, f5, f6, f7, f8, f9, f10, f11, f12, f13, f14, f15, f16⟩ := idx_facts t
  refine funext fun a => Fin.ext ?_
  match a with
  | ⟨0, _⟩ => show win1_15.index t (0 : Fin 2) * 1200 + 1 * r.val = R.val; rw [f15.1, hR]; omega
  | ⟨1, _⟩ => show win1_15.index t (1 : Fin 2) * 128 + 1 * j.val = j.val; rw [f15.2]; omega

/-- What point t writes back through window 15 is block t of the source-to-target message of the whole arrays. -/
theorem flushed15_eq (c : Dev nD) (t : Fin cfg1.N) :
    (dat1 (F := Ideal) V c).flushed 15 t = ((cfg1.win 15).blk t).view.read (Elt Ideal)
      (msgBlk (V c main_arg2 : S600000x128.Idx → EReal) (V c main_v33 : S600000x128.Idx → EReal)
        (V c main_v34 : S600000x128.Idx → EReal) (V c main_v6 : S128x128.Idx → EReal) (V c main_v11 : S128x128.Idx → EReal)
        (V c main_v14 : S128x128.Idx → EReal) (V c main_v17 : S128x128.Idx → EReal) (V c main_v27 : S1x128.Idx → EReal)) := by
  show (cfg1.win 15).cut (grid1.coords t) ((dat1 V c).after 15 t) = _
  rw [after1_15]
  unfold out1_15
  rw [View.canon_unit_zero hz]
  simp only [View.ld_unit_zero (S := S1200x128) hz, View.ld_unit_zero (S := S128x128) hz, View.ld_unit_zero (S := S1x128) hz]
  funext y
  obtain ⟨r, j, rfl⟩ : ∃ (r : Fin 1200) (j : Fin 128), y = ix2 r j := ⟨y 0, y 1, eq_ix2 y⟩
  have hR : t.val * 1200 + r.val < 600000 := by
    have h1 : t.val < 500 := t.isLt
    have h2 : r.val < 1200 := r.isLt
    omega
  show (k1_pay1 (F := Ideal) (k1_pay7 (F := Ideal) (iblk1 V c 0 t) (iblk1 V c 5 t) (iblk1 V c 1 t) (iblk1 V c 2 t) (iblk1 V c 7 t) (iblk1 V c 8 t) (iblk1 V c 9 t)) (iblk1 V c 10 t)) (ix2 r j)
    = (msgBlk (V c main_arg2 : S600000x128.Idx → EReal) (V c main_v33 : S600000x128.Idx → EReal)
        (V c main_v34 : S600000x128.Idx → EReal) (V c main_v6 : S128x128.Idx → EReal) (V c main_v11 : S128x128.Idx → EReal)
        (V c main_v14 : S128x128.Idx → EReal) (V c main_v17 : S128x128.Idx → EReal) (V c main_v27 : S1x128.Idx → EReal)) (((cfg1.win 15).blk t).view.emb (ix2 r j))
  rw [emb15 t r j ⟨t.val * 1200 + r.val, hR⟩ rfl]
  refine (congrFun (pay15_eq (iblk1 V c 0 t) (iblk1 V c 1 t) (iblk1 V c 2 t) (iblk1 V c 5 t) (iblk1 V c 7 t) (iblk1 V c 8 t) (iblk1 V c 9 t) (iblk1 V c 10 t)) (ix2 r j)).trans ?_
  exact msgBlk_band (V c main_arg2) (V c main_v33) (V c main_v34) (V c main_v6) (V c main_v11) (V c main_v14) (V c main_v17) (V c main_v27)
    (iblk1 V c 0 t) (iblk1 V c 1 t) (iblk1 V c 2 t) (iblk1 V c 5 t) (iblk1 V c 7 t) (iblk1 V c 8 t) (iblk1 V c 9 t) (iblk1 V c 10 t)
    r j ⟨t.val * 1200 + r.val, hR⟩
    (fun k => blk0_apply V c t r k ⟨t.val * 1200 + r.val, hR⟩ rfl) (fun k => blk1_apply V c t r k ⟨t.val * 1200 + r.val, hR⟩ rfl)
    (fun k => blk2_apply V c t r k ⟨t.val * 1200 + r.val, hR⟩ rfl)
    (blk5_eq V c t) (blk7_eq V c t) (blk8_eq V c t) (blk9_eq V c t) (blk10_eq V c t)

/-- An index of the array is in point t's block of window 15 iff each coordinate is in the block's range on its axis. -/
theorem mem_blk15 (t : Fin cfg1.N) (i : S600000x128.Idx) :
    i ∈ ((cfg1.win 15).blk t).view.set ↔ ∀ a : Fin 2, win1_15.index t a * S1200x128.size a ≤ (i a).val ∧ (i a).val < win1_15.index t a * S1200x128.size a + S1200x128.size a := by
  show i ∈ ((View.whole main_v37_0).slice (win1_15.rect t)).set ↔ _
  rw [View.set_slice_whole, Rect.mem_set_unit]
  exact Iff.rfl

/-- Every row is in the block of the point whose number is the row divided by 1200. -/
theorem cover15 (i : S600000x128.Idx) :
    ∃ t : Fin cfg1.N, (cfg1.win 15).flush t = true ∧ i ∈ ((cfg1.win 15).blk t).view.set := by
  have hi0 : (i 0).val < 600000 := (i 0).isLt
  have hi1 : (i 1).val < 128 := (i 1).isLt
  have ht : (i 0).val / 1200 < 500 := by omega
  refine ⟨⟨(i 0).val / 1200, ht⟩, flush1_15 _, ?_⟩
  obtain ⟨f0, f1, f2, f3, f4, f5, f6, f7, f8, f9, f10, f11, f12, f13, f14, f15, f16⟩ := idx_facts ⟨(i 0).val / 1200, ht⟩
  rw [mem_blk15]
  intro a
  match a with
  | ⟨0, _⟩ =>
    show win1_15.index ⟨(i 0).val / 1200, ht⟩ (0 : Fin 2) * 1200 ≤ (i 0).val ∧ (i 0).val < win1_15.index ⟨(i 0).val / 1200, ht⟩ (0 : Fin 2) * 1200 + 1200
    rw [f15.1]
    show (i 0).val / 1200 * 1200 ≤ (i 0).val ∧ (i 0).val < (i 0).val / 1200 * 1200 + 1200
    omega
  | ⟨1, _⟩ =>
    show win1_15.index ⟨(i 0).val / 1200, ht⟩ (1 : Fin 2) * 128 ≤ (i 1).val ∧ (i 1).val < win1_15.index ⟨(i 0).val / 1200, ht⟩ (1 : Fin 2) * 128 + 128
    rw [f15.2]
    omega

/-- Where a block's element sits in output array 16: row 1200 t + r, the same column. -/
theorem emb16 (t : Fin cfg1.N) (r : Fin 1200) (j : Fin 128) (R : Fin 600000) (hR : R.val = t.val * 1200 + r.val) :
    ((cfg1.win 16).blk t).view.emb (ix2 r j) = (ix2 R j : S600000x128.Idx) := by
  obtain ⟨f0, f1, f2, f3, f4, f5, f6, f7, f8, f9, f10, f11, f12, f13, f14, f15, f16⟩ := idx_facts t
  refine funext fun a => Fin.ext ?_
  match a with
  | ⟨0, _⟩ => show win1_16.index t (0 : Fin 2) * 1200 + 1 * r.val = R.val; rw [f16.1, hR]; omega
  | ⟨1, _⟩ => show win1_16.index t (1 : Fin 2) * 128 + 1 * j.val = j.val; rw [f16.2]; omega

/-- What point t writes back through window 16 is block t of the target-to-source message of the whole arrays. -/
theorem flushed16_eq (c : Dev nD) (t : Fin cfg1.N) :
    (dat1 (F := Ideal) V c).flushed 16 t = ((cfg1.win 16).blk t).view.read (Elt Ideal)
      (msgBlk (V c main_arg2 : S600000x128.Idx → EReal) (V c main_v35 : S600000x128.Idx → EReal)
        (V c main_v36 : S600000x128.Idx → EReal) (V c main_v8 : S128x128.Idx → EReal) (V c main_v20 : S128x128.Idx → EReal)
        (V c main_v23 : S128x128.Idx → EReal) (V c main_v26 : S128x128.Idx → EReal) (V c main_v28 : S1x128.Idx → EReal)) := by
  show (cfg1.win 16).cut (grid1.coords t) ((dat1 V c).after 16 t) = _
  rw [after1_16]
  unfold out1_16
  rw [View.canon_unit_zero hz]
  simp only [View.ld_unit_zero (S := S1200x128) hz, View.ld_unit_zero (S := S128x128) hz, View.ld_unit_zero (S := S1x128) hz]
  funext y
  obtain ⟨r, j, rfl⟩ : ∃ (r : Fin 1200) (j : Fin 128), y = ix2 r j := ⟨y 0, y 1, eq_ix2 y⟩
  have hR : t.val * 1200 + r.val < 600000 := by
    have h1 : t.val < 500 := t.isLt
    have h2 : r.val < 1200 := r.isLt
    omega
  show (k1_pay2 (F := Ideal) (k1_pay4 (F := Ideal) (iblk1 V c 0 t) (iblk1 V c 6 t)) (k1_pay5 (F := Ideal) (iblk1 V c 3 t)) (k1_pay6 (F := Ideal) (iblk1 V c 4 t)) (iblk1 V c 11 t) (iblk1 V c 12 t) (iblk1 V c 13 t) (iblk1 V c 14 t)) (ix2 r j)
    = (msgBlk (V c main_arg2 : S600000x128.Idx → EReal) (V c main_v35 : S600000x128.Idx → EReal)
        (V c main_v36 : S600000x128.Idx → EReal) (V c main_v8 : S128x128.Idx → EReal) (V c main_v20 : S128x128.Idx → EReal)
        (V c main_v23 : S128x128.Idx → EReal) (V c main_v26 : S128x128.Idx → EReal) (V c main_v28 : S1x128.Idx → EReal)) (((cfg1.win 16).blk t).view.emb (ix2 r j))
  rw [emb16 t r j ⟨t.val * 1200 + r.val, hR⟩ rfl]
  refine (congrFun (pay16_eq (iblk1 V c 0 t) (iblk1 V c 3 t) (iblk1 V c 4 t) (iblk1 V c 6 t) (iblk1 V c 11 t) (iblk1 V c 12 t) (iblk1 V c 13 t) (iblk1 V c 14 t)) (ix2 r j)).trans ?_
  exact msgBlk_band (V c main_arg2) (V c main_v35) (V c main_v36) (V c main_v8) (V c main_v20) (V c main_v23) (V c main_v26) (V c main_v28)
    (iblk1 V c 0 t) (iblk1 V c 3 t) (iblk1 V c 4 t) (iblk1 V c 6 t) (iblk1 V c 11 t) (iblk1 V c 12 t) (iblk1 V c 13 t) (iblk1 V c 14 t)
    r j ⟨t.val * 1200 + r.val, hR⟩
    (fun k => blk0_apply V c t r k ⟨t.val * 1200 + r.val, hR⟩ rfl) (fun k => blk3_apply V c t r k ⟨t.val * 1200 + r.val, hR⟩ rfl)
    (fun k => blk4_apply V c t r k ⟨t.val * 1200 + r.val, hR⟩ rfl)
    (blk6_eq V c t) (blk11_eq V c t) (blk12_eq V c t) (blk13_eq V c t) (blk14_eq V c t)

/-- An index of the array is in point t's block of window 16 iff each coordinate is in the block's range on its axis. -/
theorem mem_blk16 (t : Fin cfg1.N) (i : S600000x128.Idx) :
    i ∈ ((cfg1.win 16).blk t).view.set ↔ ∀ a : Fin 2, win1_16.index t a * S1200x128.size a ≤ (i a).val ∧ (i a).val < win1_16.index t a * S1200x128.size a + S1200x128.size a := by
  show i ∈ ((View.whole main_v37_1).slice (win1_16.rect t)).set ↔ _
  rw [View.set_slice_whole, Rect.mem_set_unit]
  exact Iff.rfl

/-- Every row is in the block of the point whose number is the row divided by 1200. -/
theorem cover16 (i : S600000x128.Idx) :
    ∃ t : Fin cfg1.N, (cfg1.win 16).flush t = true ∧ i ∈ ((cfg1.win 16).blk t).view.set := by
  have hi0 : (i 0).val < 600000 := (i 0).isLt
  have hi1 : (i 1).val < 128 := (i 1).isLt
  have ht : (i 0).val / 1200 < 500 := by omega
  refine ⟨⟨(i 0).val / 1200, ht⟩, flush1_16 _, ?_⟩
  obtain ⟨f0, f1, f2, f3, f4, f5, f6, f7, f8, f9, f10, f11, f12, f13, f14, f15, f16⟩ := idx_facts ⟨(i 0).val / 1200, ht⟩
  rw [mem_blk16]
  intro a
  match a with
  | ⟨0, _⟩ =>
    show win1_16.index ⟨(i 0).val / 1200, ht⟩ (0 : Fin 2) * 1200 ≤ (i 0).val ∧ (i 0).val < win1_16.index ⟨(i 0).val / 1200, ht⟩ (0 : Fin 2) * 1200 + 1200
    rw [f16.1]
    show (i 0).val / 1200 * 1200 ≤ (i 0).val ∧ (i 0).val < (i 0).val / 1200 * 1200 + 1200
    omega
  | ⟨1, _⟩ =>
    show win1_16.index ⟨(i 0).val / 1200, ht⟩ (1 : Fin 2) * 128 ≤ (i 1).val ∧ (i 1).val < win1_16.index ⟨(i 0).val / 1200, ht⟩ (1 : Fin 2) * 128 + 128
    rw [f16.2]
    omega

end BlocksToArray

/-- Output window 15's array after the region: the source-to-target message. -/
theorem final15 (c : Dev nD) : (dat1 (F := Ideal) V c).arrAt 15 cfg1.N
    = Cert.Msg.msgBlk (V c main_arg2 : S600000x128.Idx → EReal) (V c main_v33 : S600000x128.Idx → EReal)
        (V c main_v34 : S600000x128.Idx → EReal) (V c main_v6 : S128x128.Idx → EReal) (V c main_v11 : S128x128.Idx → EReal)
        (V c main_v14 : S128x128.Idx → EReal) (V c main_v17 : S128x128.Idx → EReal) (V c main_v27 : S1x128.Idx → EReal) :=
  (dat1 (F := Ideal) V c).arrAt_eq_of_cover 15 _ (fun t _ => flushed15_eq V c t) cover15

/-- Output window 16's array after the region: the target-to-source message. -/
theorem final16 (c : Dev nD) : (dat1 (F := Ideal) V c).arrAt 16 cfg1.N
    = Cert.Msg.msgBlk (V c main_arg2 : S600000x128.Idx → EReal) (V c main_v35 : S600000x128.Idx → EReal)
        (V c main_v36 : S600000x128.Idx → EReal) (V c main_v8 : S128x128.Idx → EReal) (V c main_v20 : S128x128.Idx → EReal)
        (V c main_v23 : S128x128.Idx → EReal) (V c main_v26 : S128x128.Idx → EReal) (V c main_v28 : S1x128.Idx → EReal) :=
  (dat1 (F := Ideal) V c).arrAt_eq_of_cover 16 _ (fun t _ => flushed16_eq V c t) cover16

end Cert.KernelIdeal.Region1

end
-- ==== Proof.HostGlue.lean ====
/-
  The host operations of the kernel's program around its two regions, read at the ideal values: what each array a region
  is entered with holds, as a function of the program's arguments. The joined projection weight is the two node weights
  transposed side by side; each message weight is a transposed 128-column band of its [128, 384] argument; the edge
  weight is its argument transposed; the bias row is the bias vector; a change of float format is the identity; and no
  operation or region writes an argument.
-/
import proofs.«417207_j36507222016271_4_alg».proof.Proof.Gen.KernelIdeal.Frame
import proofs.«417207_j36507222016271_4_alg».proof.Proof.GlueDefs
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem
open Idealize.ShloMosaic.Pipeline (Dat)

namespace Cert.KernelIdeal.Glue

open Cert.KernelIdeal Cert.KernelIdeal.Gen Idealize.ShloMosaic.ValueIdx

variable (m : (ℓ : Loc nD τ sig) → Buf (Elt Ideal) ℓ) (ρ : Dev nD → PrngReg)

/-! ### A buffer that a stretch of host operations does not write is unchanged over it -/

/-- No operation of the stretch writes the reference: each operation's written reference is another one. -/
local macro "nowrite " ops:ident : tactic =>
  `(tactic| exact List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))

/-- A reference that none of the four gather stretches writes holds at region 1's entry what it held after the
    stretch of weight operations. -/
private theorem W7_eq_W3 (c : Dev nD) (r : Ref sig .tc)
    (h1 : ∀ op ∈ (hostOps1_1 : List (HloOp τ sig (Elt Ideal))), Proc.devRef .tc r ∉ op.writes)
    (h2 : ∀ op ∈ (hostOps1_2 : List (HloOp τ sig (Elt Ideal))), Proc.devRef .tc r ∉ op.writes)
    (h3 : ∀ op ∈ (hostOps1_3 : List (HloOp τ sig (Elt Ideal))), Proc.devRef .tc r ∉ op.writes)
    (h4 : ∀ op ∈ (hostOps1_4 : List (HloOp τ sig (Elt Ideal))), Proc.devRef .tc r ∉ op.writes) :
    W7 m ρ c (Proc.devRef .tc r) = W3 m ρ c (Proc.devRef .tc r) :=
  calc W7 m ρ c (Proc.devRef .tc r)
    _ = W6 m ρ c (Proc.devRef .tc r) := StableHlo.after_of_forall_not_mem _ _ h4
    _ = W5 m ρ c (Proc.devRef .tc r) := StableHlo.after_of_forall_not_mem _ _ h3
    _ = W4 m ρ c (Proc.devRef .tc r) := StableHlo.after_of_forall_not_mem _ _ h2
    _ = W3 m ρ c (Proc.devRef .tc r) := StableHlo.after_of_forall_not_mem _ _ h1

/-- An argument that is no array of region 0 holds at region 0's exit what the program was launched with. -/
private theorem W2_eq_launch (c : Dev nD) (r : Ref sig .tc) (hne : ∀ w, Pipeline.arrRef spec0 w ≠ r)
    (h0 : ∀ op ∈ (hostOps0 : List (HloOp τ sig (Elt Ideal))), Proc.devRef .tc r ∉ op.writes) :
    W2 m ρ c (Proc.devRef .tc r) = m ((c : Thread nD τ).loc r) :=
  calc W2 m ρ c (Proc.devRef .tc r)
    _ = W1 m ρ c (Proc.devRef .tc r) := W2_of_ne m ρ c r hne
    _ = W0 m ρ c (Proc.devRef .tc r) := StableHlo.after_of_forall_not_mem _ _ h0
    _ = m ((c : Thread nD τ).loc r) := rfl

/-! ### The layout operations of the weights, read at an index -/

/-- A 128 × 128 matrix transposed, its float format changed, reads at (k, j) the matrix at (j, k). -/
private theorem tr_read (x : FVec Ideal S128x128 .f32) (k j : Fin 128) :
    (truncf (F := Ideal) .bf16 (transpose S128x128 [1, 0] x transposes_S128x128_S128x128_1_0) bitsLt_bf16_f32 : FVec Ideal S128x128 .bf16) (ix2 k j)
      = x (ix2 j k) := by
  show transpose S128x128 [1, 0] x transposes_S128x128_S128x128_1_0 (ix2 k j) = _
  exact transpose_ix2_apply x transposes_S128x128_S128x128_1_0 k j

/-- A band of 128 columns, from column `o`, of a 128 × 384 matrix, transposed and its float format changed, reads at
    (k, j) the matrix at row j and column o + k. -/
private theorem band_read (o : Nat) (x : FVec Ideal S128x384 .f32) (h : S128x384.Slices ![0, o] S128x128) (k j : Fin 128)
    (col : Fin 384) (hcol : col.val = o + k.val) :
    (truncf (F := Ideal) .bf16 (transpose S128x128 [1, 0] (extractStridedSlice S128x128 ![0, o] x h) transposes_S128x128_S128x128_1_0)
        bitsLt_bf16_f32 : FVec Ideal S128x128 .bf16) (ix2 k j)
      = x (ix2 j col) := by
  show transpose S128x128 [1, 0] (extractStridedSlice S128x128 ![0, o] x h) transposes_S128x128_S128x128_1_0 (ix2 k j) = _
  exact (transpose_ix2_apply _ transposes_S128x128_S128x128_1_0 k j).trans (slice2_axis1_apply o x h j k col hcol)

/-- Two transposed 128 × 128 matrices side by side, the float format changed: at a column below 128 the first matrix
    transposed. -/
private theorem cat_read_lo (x y : FVec Ideal S128x128 .f32) (k j : Fin 128) (col : Fin 256) (hcol : col.val = j.val) :
    (truncf (F := Ideal) .bf16 (concatenate S128x256 1 [⟨S128x128, transpose S128x128 [1, 0] x transposes_S128x128_S128x128_1_0⟩,
        ⟨S128x128, transpose S128x128 [1, 0] y transposes_S128x128_S128x128_1_0⟩] concatenates_S128x128_S128x128_S128x256_d1)
        bitsLt_bf16_f32 : FVec Ideal S128x256 .bf16) (ix2 k col)
      = x (ix2 j k) := by
  show concatenate S128x256 1 [⟨S128x128, transpose S128x128 [1, 0] x transposes_S128x128_S128x128_1_0⟩,
        ⟨S128x128, transpose S128x128 [1, 0] y transposes_S128x128_S128x128_1_0⟩] concatenates_S128x128_S128x128_S128x256_d1 (ix2 k col) = _
  refine (concatenate_pair_apply_left _ _ _ concatenates_S128x128_S128x128_S128x256_d1 (ix2 k col) rfl (ix2 k j)
    (fun b => ?_)).trans (transpose_ix2_apply x transposes_S128x128_S128x128_1_0 k j)
  match b with
  | ⟨0, _⟩ => rfl
  | ⟨1, _⟩ => exact hcol.symm

/-- Two transposed 128 × 128 matrices side by side, the float format changed: at column 128 + j the second matrix
    transposed, at its column j. -/
private theorem cat_read_hi (x y : FVec Ideal S128x128 .f32) (k j : Fin 128) (col : Fin 256) (hcol : col.val = 128 + j.val) :
    (truncf (F := Ideal) .bf16 (concatenate S128x256 1 [⟨S128x128, transpose S128x128 [1, 0] x transposes_S128x128_S128x128_1_0⟩,
        ⟨S128x128, transpose S128x128 [1, 0] y transposes_S128x128_S128x128_1_0⟩] concatenates_S128x128_S128x128_S128x256_d1)
        bitsLt_bf16_f32 : FVec Ideal S128x256 .bf16) (ix2 k col)
      = y (ix2 j k) := by
  show concatenate S128x256 1 [⟨S128x128, transpose S128x128 [1, 0] x transposes_S128x128_S128x128_1_0⟩,
        ⟨S128x128, transpose S128x128 [1, 0] y transposes_S128x128_S128x128_1_0⟩] concatenates_S128x128_S128x128_S128x256_d1 (ix2 k col) = _
  refine (concatenate_pair_apply_right _ _ _ concatenates_S128x128_S128x128_S128x256_d1 (ix2 k col) rfl rfl (ix2 k j)
    (fun b hb => ?_) ?_).trans (transpose_ix2_apply y transposes_S128x128_S128x128_1_0 k j)
  · match b with
    | ⟨0, _⟩ => rfl
    | ⟨1, _⟩ => exact absurd rfl hb
  · show j.val + 128 = col.val
    omega

/-! ### The joined weight, as the first stretch of host operations leaves it -/

private theorem W1_v3 (c : Dev nD) :
    (W1 m ρ c (Proc.devRef .tc main_v3) : S128x256.Idx → EReal)
      = (truncf (F := Ideal) .bf16 (concatenate S128x256 1
          [⟨S128x128, transpose S128x128 [1, 0] (m ((c : Thread nD τ).loc main_arg5) : S128x128.Idx → EReal) transposes_S128x128_S128x128_1_0⟩,
           ⟨S128x128, transpose S128x128 [1, 0] (m ((c : Thread nD τ).loc main_arg9) : S128x128.Idx → EReal) transposes_S128x128_S128x128_1_0⟩]
          concatenates_S128x128_S128x128_S128x256_d1) bitsLt_bf16_f32 : FVec Ideal S128x256 .bf16) := by
  show StableHlo.after hostOps0 (W0 m ρ c) (Proc.devRef .tc main_v3) = _
  after_results

/-! ### Region 0 is entered with the node array and the joined weight -/

theorem V1_arg0 (c : Dev nD) : V1 m ρ c main_arg0 = m ((c : Thread nD τ).loc main_arg0) := by
  show W1 m ρ c (Proc.devRef .tc main_arg0) = _
  exact (StableHlo.after_of_forall_not_mem (b := Proc.devRef .tc main_arg0) _ _ (by nowrite hostOps0)).trans rfl

/-- Columns 0 .. 127 of the joined weight are the source-to-target node weight transposed. -/
theorem V1_v3_lo (c : Dev nD) (k j : Fin 128) :
    (V1 m ρ c main_v3 : S128x256.Idx → EReal) (ix2 k ⟨j.val, by have := j.isLt; omega⟩)
      = (m ((c : Thread nD τ).loc main_arg5) : S128x128.Idx → EReal) (ix2 j k) := by
  show (W1 m ρ c (Proc.devRef .tc main_v3) : S128x256.Idx → EReal) (ix2 k _) = _
  rw [W1_v3 m ρ c]
  exact cat_read_lo _ _ k j _ rfl

/-- Columns 128 .. 255 of the joined weight are the target-to-source node weight transposed. -/
theorem V1_v3_hi (c : Dev nD) (k j : Fin 128) :
    (V1 m ρ c main_v3 : S128x256.Idx → EReal) (ix2 k ⟨128 + j.val, by have := j.isLt; omega⟩)
      = (m ((c : Thread nD τ).loc main_arg9) : S128x128.Idx → EReal) (ix2 j k) := by
  show (W1 m ρ c (Proc.devRef .tc main_v3) : S128x256.Idx → EReal) (ix2 k _) = _
  rw [W1_v3 m ρ c]
  exact cat_read_hi _ _ k j _ rfl

/-! ### Region 1 is entered with the edge array, the weights and the bias rows -/

theorem V7_arg2 (c : Dev nD) : V7 m ρ c main_arg2 = m ((c : Thread nD τ).loc main_arg2) := by
  show W7 m ρ c (Proc.devRef .tc main_arg2) = _
  refine (W7_eq_W3 m ρ c main_arg2 (by nowrite hostOps1_1) (by nowrite hostOps1_2) (by nowrite hostOps1_3) (by nowrite hostOps1_4)).trans ?_
  refine (StableHlo.after_of_forall_not_mem (b := Proc.devRef .tc main_arg2) _ _ (by nowrite hostOps1)).trans ?_
  exact W2_eq_launch m ρ c main_arg2 (by decide) (by nowrite hostOps0)

theorem V7_v6 (c : Dev nD) (k j : Fin 128) :
    (V7 m ρ c main_v6 : S128x128.Idx → EReal) (ix2 k j) = (m ((c : Thread nD τ).loc main_arg6) : S128x128.Idx → EReal) (ix2 j k) := by
  have e : (W7 m ρ c (Proc.devRef .tc main_v6) : S128x128.Idx → EReal)
      = (truncf (F := Ideal) .bf16 (transpose S128x128 [1, 0] (m ((c : Thread nD τ).loc main_arg6) : S128x128.Idx → EReal)
          transposes_S128x128_S128x128_1_0) bitsLt_bf16_f32 : FVec Ideal S128x128 .bf16) := by
    refine (W7_eq_W3 m ρ c main_v6 (by nowrite hostOps1_1) (by nowrite hostOps1_2) (by nowrite hostOps1_3) (by nowrite hostOps1_4)).trans ?_
    show StableHlo.after hostOps1 (W2 m ρ c) (Proc.devRef .tc main_v6) = _
    after_results
    rw [W2_eq_launch m ρ c main_arg6 (by decide) (by nowrite hostOps0)]
  show (W7 m ρ c (Proc.devRef .tc main_v6) : S128x128.Idx → EReal) (ix2 k j) = _
  rw [e]
  exact tr_read _ k j

theorem V7_v8 (c : Dev nD) (k j : Fin 128) :
    (V7 m ρ c main_v8 : S128x128.Idx → EReal) (ix2 k j) = (m ((c : Thread nD τ).loc main_arg10) : S128x128.Idx → EReal) (ix2 j k) := by
  have e : (W7 m ρ c (Proc.devRef .tc main_v8) : S128x128.Idx → EReal)
      = (truncf (F := Ideal) .bf16 (transpose S128x128 [1, 0] (m ((c : Thread nD τ).loc main_arg10) : S128x128.Idx → EReal)
          transposes_S128x128_S128x128_1_0) bitsLt_bf16_f32 : FVec Ideal S128x128 .bf16) := by
    refine (W7_eq_W3 m ρ c main_v8 (by nowrite hostOps1_1) (by nowrite hostOps1_2) (by nowrite hostOps1_3) (by nowrite hostOps1_4)).trans ?_
    show StableHlo.after hostOps1 (W2 m ρ c) (Proc.devRef .tc main_v8) = _
    after_results
    rw [W2_eq_launch m ρ c main_arg10 (by decide) (by nowrite hostOps0)]
  show (W7 m ρ c (Proc.devRef .tc main_v8) : S128x128.Idx → EReal) (ix2 k j) = _
  rw [e]
  exact tr_read _ k j

theorem V7_v11 (c : Dev nD) (k j : Fin 128) :
    (V7 m ρ c main_v11 : S128x128.Idx → EReal) (ix2 k j)
      = (m ((c : Thread nD τ).loc main_arg7) : S128x384.Idx → EReal) (ix2 j ⟨k.val, by have := k.isLt; omega⟩) := by
  have e : (W7 m ρ c (Proc.devRef .tc main_v11) : S128x128.Idx → EReal)
      = (truncf (F := Ideal) .bf16 (transpose S128x128 [1, 0]
          (extractStridedSlice S128x128 ![0, 0] (m ((c : Thread nD τ).loc main_arg7) : S128x384.Idx → EReal)
            slices_S128x384_S128x128_0_0) transposes_S128x128_S128x128_1_0) bitsLt_bf16_f32 : FVec Ideal S128x128 .bf16) := by
    refine (W7_eq_W3 m ρ c main_v11 (by nowrite hostOps1_1) (by nowrite hostOps1_2) (by nowrite hostOps1_3) (by nowrite hostOps1_4)).trans ?_
    show StableHlo.after hostOps1 (W2 m ρ c) (Proc.devRef .tc main_v11) = _
    after_results
    rw [W2_eq_launch m ρ c main_arg7 (by decide) (by nowrite hostOps0)]
  show (W7 m ρ c (Proc.devRef .tc main_v11) : S128x128.Idx → EReal) (ix2 k j) = _
  rw [e]
  exact band_read 0 _ _ k j _ (Nat.zero_add _).symm

theorem V7_v14 (c : Dev nD) (k j : Fin 128) :
    (V7 m ρ c main_v14 : S128x128.Idx → EReal) (ix2 k j)
      = (m ((c : Thread nD τ).loc main_arg7) : S128x384.Idx → EReal) (ix2 j ⟨128 + k.val, by have := k.isLt; omega⟩) := by
  have e : (W7 m ρ c (Proc.devRef .tc main_v14) : S128x128.Idx → EReal)
      = (truncf (F := Ideal) .bf16 (transpose S128x128 [1, 0]
          (extractStridedSlice S128x128 ![0, 128] (m ((c : Thread nD τ).loc main_arg7) : S128x384.Idx → EReal)
            slices_S128x384_S128x128_0_128) transposes_S128x128_S128x128_1_0) bitsLt_bf16_f32 : FVec Ideal S128x128 .bf16) := by
    refine (W7_eq_W3 m ρ c main_v14 (by nowrite hostOps1_1) (by nowrite hostOps1_2) (by nowrite hostOps1_3) (by nowrite hostOps1_4)).trans ?_
    show StableHlo.after hostOps1 (W2 m ρ c) (Proc.devRef .tc main_v14) = _
    after_results
    rw [W2_eq_launch m ρ c main_arg7 (by decide) (by nowrite hostOps0)]
  show (W7 m ρ c (Proc.devRef .tc main_v14) : S128x128.Idx → EReal) (ix2 k j) = _
  rw [e]
  exact band_read 128 _ _ k j _ rfl

theorem V7_v17 (c : Dev nD) (k j : Fin 128) :
    (V7 m ρ c main_v17 : S128x128.Idx → EReal) (ix2 k j)
      = (m ((c : Thread nD τ).loc main_arg7) : S128x384.Idx → EReal) (ix2 j ⟨256 + k.val, by have := k.isLt; omega⟩) := by
  have e : (W7 m ρ c (Proc.devRef .tc main_v17) : S128x128.Idx → EReal)
      = (truncf (F := Ideal) .bf16 (transpose S128x128 [1, 0]
          (extractStridedSlice S128x128 ![0, 256] (m ((c : Thread nD τ).loc main_arg7) : S128x384.Idx → EReal)
            slices_S128x384_S128x128_0_256) transposes_S128x128_S128x128_1_0) bitsLt_bf16_f32 : FVec Ideal S128x128 .bf16) := by
    refine (W7_eq_W3 m ρ c main_v17 (by nowrite hostOps1_1) (by nowrite hostOps1_2) (by nowrite hostOps1_3) (by nowrite hostOps1_4)).trans ?_
    show StableHlo.after hostOps1 (W2 m ρ c) (Proc.devRef .tc main_v17) = _
    after_results
    rw [W2_eq_launch m ρ c main_arg7 (by decide) (by nowrite hostOps0)]
  show (W7 m ρ c (Proc.devRef .tc main_v17) : S128x128.Idx → EReal) (ix2 k j) = _
  rw [e]
  exact band_read 256 _ _ k j _ rfl

theorem V7_v20 (c : Dev nD) (k j : Fin 128) :
    (V7 m ρ c main_v20 : S128x128.Idx → EReal) (ix2 k j)
      = (m ((c : Thread nD τ).loc main_arg11) : S128x384.Idx → EReal) (ix2 j ⟨k.val, by have := k.isLt; omega⟩) := by
  have e : (W7 m ρ c (Proc.devRef .tc main_v20) : S128x128.Idx → EReal)
      = (truncf (F := Ideal) .bf16 (transpose S128x128 [1, 0]
          (extractStridedSlice S128x128 ![0, 0] (m ((c : Thread nD τ).loc main_arg11) : S128x384.Idx → EReal)
            slices_S128x384_S128x128_0_0) transposes_S128x128_S128x128_1_0) bitsLt_bf16_f32 : FVec Ideal S128x128 .bf16) := by
    refine (W7_eq_W3 m ρ c main_v20 (by nowrite hostOps1_1) (by nowrite hostOps1_2) (by nowrite hostOps1_3) (by nowrite hostOps1_4)).trans ?_
    show StableHlo.after hostOps1 (W2 m ρ c) (Proc.devRef .tc main_v20) = _
    after_results
    rw [W2_eq_launch m ρ c main_arg11 (by decide) (by nowrite hostOps0)]
  show (W7 m ρ c (Proc.devRef .tc main_v20) : S128x128.Idx → EReal) (ix2 k j) = _
  rw [e]
  exact band_read 0 _ _ k j _ (Nat.zero_add _).symm

theorem V7_v23 (c : Dev nD) (k j : Fin 128) :
    (V7 m ρ c main_v23 : S128x128.Idx → EReal) (ix2 k j)
      = (m ((c : Thread nD τ).loc main_arg11) : S128x384.Idx → EReal) (ix2 j ⟨128 + k.val, by have := k.isLt; omega⟩) := by
  have e : (W7 m ρ c (Proc.devRef .tc main_v23) : S128x128.Idx → EReal)
      = (truncf (F := Ideal) .bf16 (transpose S128x128 [1, 0]
          (extractStridedSlice S128x128 ![0, 128] (m ((c : Thread nD τ).loc main_arg11) : S128x384.Idx → EReal)
            slices_S128x384_S128x128_0_128) transposes_S128x128_S128x128_1_0) bitsLt_bf16_f32 : FVec Ideal S128x128 .bf16) := by
    refine (W7_eq_W3 m ρ c main_v23 (by nowrite hostOps1_1) (by nowrite hostOps1_2) (by nowrite hostOps1_3) (by nowrite hostOps1_4)).trans ?_
    show StableHlo.after hostOps1 (W2 m ρ c) (Proc.devRef .tc main_v23) = _
    after_results
    rw [W2_eq_launch m ρ c main_arg11 (by decide) (by nowrite hostOps0)]
  show (W7 m ρ c (Proc.devRef .tc main_v23) : S128x128.Idx → EReal) (ix2 k j) = _
  rw [e]
  exact band_read 128 _ _ k j _ rfl

theorem V7_v26 (c : Dev nD) (k j : Fin 128) :
    (V7 m ρ c main_v26 : S128x128.Idx → EReal) (ix2 k j)
      = (m ((c : Thread nD τ).loc main_arg11) : S128x384.Idx → EReal) (ix2 j ⟨256 + k.val, by have := k.isLt; omega⟩) := by
  have e : (W7 m ρ c (Proc.devRef .tc main_v26) : S128x128.Idx → EReal)
      = (truncf (F := Ideal) .bf16 (transpose S128x128 [1, 0]
          (extractStridedSlice S128x128 ![0, 256] (m ((c : Thread nD τ).loc main_arg11) : S128x384.Idx → EReal)
            slices_S128x384_S128x128_0_256) transposes_S128x128_S128x128_1_0) bitsLt_bf16_f32 : FVec Ideal S128x128 .bf16) := by
    refine (W7_eq_W3 m ρ c main_v26 (by nowrite hostOps1_1) (by nowrite hostOps1_2) (by nowrite hostOps1_3) (by nowrite hostOps1_4)).trans ?_
    show StableHlo.after hostOps1 (W2 m ρ c) (Proc.devRef .tc main_v26) = _
    after_results
    rw [W2_eq_launch m ρ c main_arg11 (by decide) (by nowrite hostOps0)]
  show (W7 m ρ c (Proc.devRef .tc main_v26) : S128x128.Idx → EReal) (ix2 k j) = _
  rw [e]
  exact band_read 256 _ _ k j _ rfl

theorem V7_v27 (c : Dev nD) (j : Fin 128) :
    (V7 m ρ c main_v27 : S1x128.Idx → EReal) (ix2 ⟨0, Nat.one_pos⟩ j) = (m ((c : Thread nD τ).loc main_arg8) : S128.Idx → EReal) (ix1 j) := by
  have e : (W7 m ρ c (Proc.devRef .tc main_v27) : S1x128.Idx → EReal)
      = shapeCast S1x128 (m ((c : Thread nD τ).loc main_arg8) : S128.Idx → EReal) shapeCasts_S128_S1x128 := by
    refine (W7_eq_W3 m ρ c main_v27 (by nowrite hostOps1_1) (by nowrite hostOps1_2) (by nowrite hostOps1_3) (by nowrite hostOps1_4)).trans ?_
    show StableHlo.after hostOps1 (W2 m ρ c) (Proc.devRef .tc main_v27) = _
    after_results
    rw [W2_eq_launch m ρ c main_arg8 (by decide) (by nowrite hostOps0)]
    rfl
  show (W7 m ρ c (Proc.devRef .tc main_v27) : S1x128.Idx → EReal) (ix2 _ j) = _
  rw [e]
  exact shapeCast_a_1a_apply _ shapeCasts_S128_S1x128 _ j

theorem V7_v28 (c : Dev nD) (j : Fin 128) :
    (V7 m ρ c main_v28 : S1x128.Idx → EReal) (ix2 ⟨0, Nat.one_pos⟩ j) = (m ((c : Thread nD τ).loc main_arg12) : S128.Idx → EReal) (ix1 j) := by
  have e : (W7 m ρ c (Proc.devRef .tc main_v28) : S1x128.Idx → EReal)
      = shapeCast S1x128 (m ((c : Thread nD τ).loc main_arg12) : S128.Idx → EReal) shapeCasts_S128_S1x128 := by
    refine (W7_eq_W3 m ρ c main_v28 (by nowrite hostOps1_1) (by nowrite hostOps1_2) (by nowrite hostOps1_3) (by nowrite hostOps1_4)).trans ?_
    show StableHlo.after hostOps1 (W2 m ρ c) (Proc.devRef .tc main_v28) = _
    after_results
    rw [W2_eq_launch m ρ c main_arg12 (by decide) (by nowrite hostOps0)]
    rfl
  show (W7 m ρ c (Proc.devRef .tc main_v28) : S1x128.Idx → EReal) (ix2 _ j) = _
  rw [e]
  exact shapeCast_a_1a_apply _ shapeCasts_S128_S1x128 _ j

/-! ### After region 1 the index rows and the node array are as the host operations left them -/

theorem V8_v30 (c : Dev nD) : (V8 m ρ c main_v30 : S600000.Idx → BitVec 32) = srcK m c := by
  show W8 m ρ c (Proc.devRef .tc main_v30) = _
  refine (W8_of_ne m ρ c main_v30 (by decide)).trans ?_
  refine (W7_eq_W3 m ρ c main_v30 (by nowrite hostOps1_1) (by nowrite hostOps1_2) (by nowrite hostOps1_3) (by nowrite hostOps1_4)).trans ?_
  show StableHlo.after hostOps1 (W2 m ρ c) (Proc.devRef .tc main_v30) = _
  after_results
  rw [W2_eq_launch m ρ c main_arg1 (by decide) (by nowrite hostOps0)]
  rfl

theorem V8_v32 (c : Dev nD) : (V8 m ρ c main_v32 : S600000.Idx → BitVec 32) = dstK m c := by
  show W8 m ρ c (Proc.devRef .tc main_v32) = _
  refine (W8_of_ne m ρ c main_v32 (by decide)).trans ?_
  refine (W7_eq_W3 m ρ c main_v32 (by nowrite hostOps1_1) (by nowrite hostOps1_2) (by nowrite hostOps1_3) (by nowrite hostOps1_4)).trans ?_
  show StableHlo.after hostOps1 (W2 m ρ c) (Proc.devRef .tc main_v32) = _
  after_results
  rw [W2_eq_launch m ρ c main_arg1 (by decide) (by nowrite hostOps0)]
  rfl

theorem V8_arg0 (c : Dev nD) : V8 m ρ c main_arg0 = m ((c : Thread nD τ).loc main_arg0) := by
  show W8 m ρ c (Proc.devRef .tc main_arg0) = _
  have h : W9 m ρ c (Proc.devRef .tc main_arg0) = W8 m ρ c (Proc.devRef .tc main_arg0) :=
    StableHlo.after_of_forall_not_mem _ _ (by nowrite hostOps2)
  exact h.symm.trans (W9_main_arg0 m ρ c)

end Cert.KernelIdeal.Glue

end
-- ==== Proof.TakeGlue.lean ====
/-
  The four row lookups between the two regions. Each is written by the kernel's program as a lookup that fills a row
  with a not-a-number pattern when its index, after a negative index has been moved up by 50000, falls outside
  0 .. 49999. When every edge index is a node number no row is filled, and the lookup is the plain gather of the table
  at the index column.
-/
import proofs.«417207_j36507222016271_4_alg».proof.Proof.Gen.KernelIdeal.Frame
import proofs.«417207_j36507222016271_4_alg».proof.Proof.GlueDefs
import proofs.«417207_j36507222016271_4_alg».proof.Proof.Spec
import Idealize.ShloMosaic.Lib.Pipeline.Value
import Idealize.ShloMosaic.Lib.ValueIdx
import Idealize.ShloMosaic.Lib.ReduceAll
import Idealize.ShloMosaic.Lib.StableHlo.Run
import Idealize.ShloMosaic.Lib.StableHlo.Predicate

noncomputable section

open Idealize.ShloMosaic Idealize.ShloMosaic.TcCoe Idealize.SL.Sem
open Idealize.ShloMosaic.Pipeline (Dat)

namespace Cert.KernelIdeal.Glue

open Cert.KernelIdeal Cert.KernelIdeal.Gen Idealize.ShloMosaic.ValueIdx

variable (m : (ℓ : Loc nD τ sig) → Buf (Elt Ideal) ℓ) (ρ : Dev nD → PrngReg)

/-- A fold of "and" over one-bit words that are all 1, started at 1, is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_one f l (fun n hn => h n (List.mem_cons_of_mem _ hn))

/-- A reduction by "and" of a mask that is 1 everywhere, from the initial value 1, is 1 everywhere. -/
theorem reduce_andi_one {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_one x _ (fun n _ => hx n)

/-- A signed word in 0 .. 49999 is not moved by the wrap of negative words, and passes both bound checks. -/
theorem word_inRange (a : BitVec 32) (h0 : 0 ≤ a.toInt) (h1 : a.toInt < 50000) :
    Scalar.select (IntOp.cmpi .slt a 0#32) (IntOp.addi a 50000#32) a = a
      ∧ IntOp.andi (IntOp.cmpi .sge a 0#32) (IntOp.cmpi .sle a 49999#32) = 1#1 := by
  have e0 : (0#32 : BitVec 32).toInt = 0 := by decide
  have e1 : (49999#32 : BitVec 32).toInt = 49999 := by decide
  have s1 : a.slt 0#32 = false := by
    simp only [BitVec.slt, e0]; exact decide_eq_false (by omega)
  have s2 : (0#32 : BitVec 32).sle a = true := by
    simp only [BitVec.sle, e0]; exact decide_eq_true h0
  have s3 : a.sle 49999#32 = true := by
    simp only [BitVec.sle, e1]; exact decide_eq_true (by omega)
  constructor
  · simp only [IntOp.cmpi, s1, Scalar.select]; rfl
  · simp only [IntOp.cmpi, s2, s3]; rfl

/-- A value moved to an equal type and back is itself. -/
theorem cast_cancel {α β : Type} (h : α = β) (h' : β = α) (v : α) : cast h' (cast h v) = v := by
  cases h; rfl

/-- The index column of a lookup. -/
abbrev colOf (idx : IVec S600000 32) : IVec S600000x1 32 :=
  Cert.Msg.wrapCol bcast_S_S600000 bcast_S600000_S600000x1_0 idx

/-- The bound check of a lookup: one bit per row, 1 where the row's index is in 0 .. 49999. -/
def maskOf (idx : IVec S600000 32) : IVec S600000 1 :=
  Host.reduce IntOp.andi
    (andi (cmpi .sge (colOf idx) (broadcastInDim S600000x1 ![] bcast_S_S600000x1 (constantI S_ 32 0#32)))
      (cmpi .sle (colOf idx) (broadcastInDim S600000x1 ![0, 1] bcast_S1x1_S600000x1_0_1
        (broadcastInDim S1x1 ![1] bcast_S1_S1x1_1 (constantI S1 32 49999#32)))))
    (constantI S_ 1 1#1) reducesTo_S600000x1_S600000_d1 h_S_

/-- The lookup as the program writes it: the gathered rows where the bound check passes, a fill pattern elsewhere. -/
def takeFill (table : S50000x128.Idx → EReal) (idx : IVec S600000 32) : S600000x128.Idx → EReal :=
  select (broadcastInDim S600000x128 ![0] bcast_S600000_S600000x128_0 (maskOf idx))
    (Host.gather gather_S50000x128_S600000x1_S600000x128_1_0_n_n_0_1_1128 table (colOf idx))
    (broadcastInDim S600000x128 ![] bcast_S_S600000x128 (constant (F := Ideal) S_ .f32 0x7FC00000#32))

/-- An entry of the index column is the wrap of an entry of the index vector. -/
theorem colOf_apply (idx : IVec S600000 32) (k : S600000x1.Idx) :
    ∃ e : S600000.Idx, colOf idx k
      = Scalar.select (IntOp.cmpi .slt (idx e) 0#32) (IntOp.addi (idx e) 50000#32) (idx e) := ⟨_, rfl⟩

/-- The two bound checks and their conjunction, read at one entry of a column. -/
theorem checks_apply (col : IVec S600000x1 32) (k : S600000x1.Idx) :
    (andi (cmpi .sge col (broadcastInDim S600000x1 ![] bcast_S_S600000x1 (constantI S_ 32 0#32)))
      (cmpi .sle col (broadcastInDim S600000x1 ![0, 1] bcast_S1x1_S600000x1_0_1
        (broadcastInDim S1x1 ![1] bcast_S1_S1x1_1 (constantI S1 32 49999#32))))) k
      = IntOp.andi (IntOp.cmpi .sge (col k) 0#32) (IntOp.cmpi .sle (col k) 49999#32) := rfl

/-- With every index a node number the bound check passes in every row. -/
theorem maskOf_one (idx : IVec S600000 32) (hidx : ∀ e, 0 ≤ (idx e).toInt ∧ (idx e).toInt < 50000) (j : S600000.Idx) :
    maskOf idx j = 1#1 := by
  unfold maskOf
  refine reduce_andi_one _ _ _ _ (fun k => ?_) rfl j
  obtain ⟨e, he⟩ := colOf_apply idx k
  obtain ⟨h1, h2⟩ := word_inRange (idx e) (hidx e).1 (hidx e).2
  rw [checks_apply, he, h1]; exact h2

/-- A mask that is 1 everywhere selects its first operand. -/
theorem select_of_one {s : Shape} {α : Type} (c : IVec s 1) (a b : s.Idx → α) (hc : ∀ i, c i = 1#1) :
    select c a b = a := by
  funext i
  show Scalar.select (c i) (a i) (b i) = a i
  rw [hc]; rfl

/-- A row mask that is 1 everywhere, laid along the rows of a rectangle, is 1 everywhere. -/
theorem bcast_one (mask : IVec S600000 1) (h : ∀ j, mask j = 1#1) (i : S600000x128.Idx) :
    broadcastInDim S600000x128 ![0] bcast_S600000_S600000x128_0 mask i = 1#1 := h _

/-- With every index a node number the lookup is the plain gather at the index column. -/
theorem takeFill_eq (table : S50000x128.Idx → EReal) (idx : IVec S600000 32)
    (hidx : ∀ e, 0 ≤ (idx e).toInt ∧ (idx e).toInt < 50000) :
    takeFill table idx
      = Host.gather gather_S50000x128_S600000x1_S600000x128_1_0_n_n_0_1_1128 table (colOf idx) := by
  unfold takeFill
  exact select_of_one _ _ _ (bcast_one (maskOf idx) (maskOf_one idx hidx))

/-- Every source index is a node number. -/
theorem srcK_inRange (c : Dev nD) (h : InRange m c) (e : S600000.Idx) :
    0 ≤ (srcK m c e).toInt ∧ (srcK m c e).toInt < 50000 := by
  obtain ⟨i, hi⟩ : ∃ i : S2x600000.Idx,
      srcK m c e = (m ((c : Thread nD τ).loc main_arg1) : S2x600000.Idx → BitVec 32) i := ⟨_, rfl⟩
  rw [hi]; exact h i

/-- Every target index is a node number. -/
theorem dstK_inRange (c : Dev nD) (h : InRange m c) (e : S600000.Idx) :
    0 ≤ (dstK m c e).toInt ∧ (dstK m c e).toInt < 50000 := by
  obtain ⟨i, hi⟩ : ∃ i : S2x600000.Idx,
      dstK m c e = (m ((c : Thread nD τ).loc main_arg1) : S2x600000.Idx → BitVec 32) i := ⟨_, rfl⟩
  rw [hi]; exact h i

/-- The first lookup's 23 operations leave the lookup of the table they read at the index vector they read. -/
theorem after_take1 (G : Valuation τ sig (Elt Ideal)) :
    StableHlo.after (hostOps1_1 (F := Ideal)) G (Proc.devRef .tc main_v33)
      = takeFill (G (Proc.devRef .tc main_v4_0)) (G (Proc.devRef .tc main_v30)) := by
  after_results_simp
  simp only [StableHlo.TRef.ofBuf, StableHlo.TRef.toBuf, cast_cancel]
  simp only [cast_eq]
  rfl

/-- Likewise the second lookup's. -/
theorem after_take2 (G : Valuation τ sig (Elt Ideal)) :
    StableHlo.after (hostOps1_2 (F := Ideal)) G (Proc.devRef .tc main_v34)
      = takeFill (G (Proc.devRef .tc main_v4_0)) (G (Proc.devRef .tc main_v32)) := by
  after_results_simp
  simp only [StableHlo.TRef.ofBuf, StableHlo.TRef.toBuf, cast_cancel]
  simp only [cast_eq]
  rfl

/-- Likewise the third lookup's. -/
theorem after_take3 (G : Valuation τ sig (Elt Ideal)) :
    StableHlo.after (hostOps1_3 (F := Ideal)) G (Proc.devRef .tc main_v35)
      = takeFill (G (Proc.devRef .tc main_v4_1)) (G (Proc.devRef .tc main_v32)) := by
  after_results_simp
  simp only [StableHlo.TRef.ofBuf, StableHlo.TRef.toBuf, cast_cancel]
  simp only [cast_eq]
  rfl

/-- Likewise the fourth lookup's. -/
theorem after_take4 (G : Valuation τ sig (Elt Ideal)) :
    StableHlo.after (hostOps1_4 (F := Ideal)) G (Proc.devRef .tc main_v36)
      = takeFill (G (Proc.devRef .tc main_v4_1)) (G (Proc.devRef .tc main_v30)) := by
  after_results_simp
  simp only [StableHlo.TRef.ofBuf, StableHlo.TRef.toBuf, cast_cancel]
  simp only [cast_eq]
  rfl

/-- The operations between the regions leave the sources in their buffer. -/
theorem after_ops1_v30 (G : Valuation τ sig (Elt Ideal)) :
    StableHlo.after (hostOps1 (F := Ideal)) G (Proc.devRef .tc main_v30)
      = shapeCast S600000 (extractStridedSlice S1x600000 ![0, 0] (G (Proc.devRef .tc main_arg1)) slices_S2x600000_S1x600000_0_0) shapeCasts_S1x600000_S600000 := by
  after_results_simp
  rfl

/-- The operations between the regions leave the targets in their buffer. -/
theorem after_ops1_v32 (G : Valuation τ sig (Elt Ideal)) :
    StableHlo.after (hostOps1 (F := Ideal)) G (Proc.devRef .tc main_v32)
      = shapeCast S600000 (extractStridedSlice S1x600000 ![1, 0] (G (Proc.devRef .tc main_arg1)) slices_S2x600000_S1x600000_1_0) shapeCasts_S1x600000_S600000 := by
  after_results_simp
  rfl

/-- A buffer that no operation of a stretch writes holds after the stretch what it held before. -/
local macro "unwritten " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- The edge index array is as launched when the first region has ended. -/
theorem W2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := by unwritten hostOps0
    _ = m ((c : Thread nD τ).loc main_arg1) := rfl

/-- The sources' buffer after the operations between the regions. -/
theorem W3_v30 (c : Dev nD) : (W3 m ρ c (Proc.devRef .tc main_v30) : S600000.Idx → BitVec 32) = srcK m c := by
  show StableHlo.after (hostOps1 (F := Ideal)) (W2 m ρ c) (Proc.devRef .tc main_v30) = _
  rw [after_ops1_v30, W2_arg1]

/-- The first projection's buffer after the operations between the regions. -/
theorem W3_v4_0 (c : Dev nD) : W3 m ρ c (Proc.devRef .tc main_v4_0) = W2 m ρ c (Proc.devRef .tc main_v4_0) := by
  unwritten hostOps1

/-- The targets' buffer after the operations between the regions. -/
theorem W3_v32 (c : Dev nD) : (W3 m ρ c (Proc.devRef .tc main_v32) : S600000.Idx → BitVec 32) = dstK m c := by
  show StableHlo.after (hostOps1 (F := Ideal)) (W2 m ρ c) (Proc.devRef .tc main_v32) = _
  rw [after_ops1_v32, W2_arg1]

/-- The second projection's buffer after the operations between the regions. -/
theorem W3_v4_1 (c : Dev nD) : W3 m ρ c (Proc.devRef .tc main_v4_1) = W2 m ρ c (Proc.devRef .tc main_v4_1) := by
  unwritten hostOps1

/-- x_j of the source-to-target direction: rows of the first projection at the sources. -/
theorem V7_v33 (c : Dev nD) (h : InRange m c) :
    (V7 m ρ c main_v33 : S600000x128.Idx → EReal)
      = Host.gather gather_S50000x128_S600000x1_S600000x128_1_0_n_n_0_1_1128 (V2 m ρ c main_v4_0 : S50000x128.Idx → EReal)
          (Cert.Msg.wrapCol bcast_S_S600000 bcast_S600000_S600000x1_0 (srcK m c)) := by
  have e1 : W7 m ρ c (Proc.devRef .tc main_v33) = W4 m ρ c (Proc.devRef .tc main_v33) :=
    calc W7 m ρ c (Proc.devRef .tc main_v33)
      _ = W6 m ρ c (Proc.devRef .tc main_v33) := by unwritten hostOps1_4
      _ = W5 m ρ c (Proc.devRef .tc main_v33) := by unwritten hostOps1_3
      _ = W4 m ρ c (Proc.devRef .tc main_v33) := by unwritten hostOps1_2
  have e2 : W4 m ρ c (Proc.devRef .tc main_v33)
      = takeFill (W3 m ρ c (Proc.devRef .tc main_v4_0)) (W3 m ρ c (Proc.devRef .tc main_v30)) :=
    after_take1 (W3 m ρ c)
  show W7 m ρ c (Proc.devRef .tc main_v33) = _
  rw [e1, e2, W3_v30, W3_v4_0]
  exact takeFill_eq _ _ (srcK_inRange m c h)

/-- x_i of the source-to-target direction: rows of the first projection at the targets. -/
theorem V7_v34 (c : Dev nD) (h : InRange m c) :
    (V7 m ρ c main_v34 : S600000x128.Idx → EReal)
      = Host.gather gather_S50000x128_S600000x1_S600000x128_1_0_n_n_0_1_1128 (V2 m ρ c main_v4_0 : S50000x128.Idx → EReal)
          (Cert.Msg.wrapCol bcast_S_S600000 bcast_S600000_S600000x1_0 (dstK m c)) := by
  have e1 : W7 m ρ c (Proc.devRef .tc main_v34) = W5 m ρ c (Proc.devRef .tc main_v34) :=
    calc W7 m ρ c (Proc.devRef .tc main_v34)
      _ = W6 m ρ c (Proc.devRef .tc main_v34) := by unwritten hostOps1_4
      _ = W5 m ρ c (Proc.devRef .tc main_v34) := by unwritten hostOps1_3
  have e2 : W5 m ρ c (Proc.devRef .tc main_v34)
      = takeFill (W4 m ρ c (Proc.devRef .tc main_v4_0)) (W4 m ρ c (Proc.devRef .tc main_v32)) :=
    after_take2 (W4 m ρ c)
  have e3 : W4 m ρ c (Proc.devRef .tc main_v4_0) = W3 m ρ c (Proc.devRef .tc main_v4_0) := by unwritten hostOps1_1
  have e4 : W4 m ρ c (Proc.devRef .tc main_v32) = W3 m ρ c (Proc.devRef .tc main_v32) := by unwritten hostOps1_1
  show W7 m ρ c (Proc.devRef .tc main_v34) = _
  rw [e1, e2, e3, e4, W3_v32, W3_v4_0]
  exact takeFill_eq _ _ (dstK_inRange m c h)

/-- x_j of the target-to-source direction: rows of the second projection at the targets. -/
theorem V7_v35 (c : Dev nD) (h : InRange m c) :
    (V7 m ρ c main_v35 : S600000x128.Idx → EReal)
      = Host.gather gather_S50000x128_S600000x1_S600000x128_1_0_n_n_0_1_1128 (V2 m ρ c main_v4_1 : S50000x128.Idx → EReal)
          (Cert.Msg.wrapCol bcast_S_S600000 bcast_S600000_S600000x1_0 (dstK m c)) := by
  have e1 : W7 m ρ c (Proc.devRef .tc main_v35) = W6 m ρ c (Proc.devRef .tc main_v35) := by unwritten hostOps1_4
  have e2 : W6 m ρ c (Proc.devRef .tc main_v35)
      = takeFill (W5 m ρ c (Proc.devRef .tc main_v4_1)) (W5 m ρ c (Proc.devRef .tc main_v32)) :=
    after_take3 (W5 m ρ c)
  have e3 : W5 m ρ c (Proc.devRef .tc main_v4_1) = W3 m ρ c (Proc.devRef .tc main_v4_1) :=
    calc W5 m ρ c (Proc.devRef .tc main_v4_1)
      _ = W4 m ρ c (Proc.devRef .tc main_v4_1) := by unwritten hostOps1_2
      _ = W3 m ρ c (Proc.devRef .tc main_v4_1) := by unwritten hostOps1_1
  have e4 : W5 m ρ c (Proc.devRef .tc main_v32) = W3 m ρ c (Proc.devRef .tc main_v32) :=
    calc W5 m ρ c (Proc.devRef .tc main_v32)
      _ = W4 m ρ c (Proc.devRef .tc main_v32) := by unwritten hostOps1_2
      _ = W3 m ρ c (Proc.devRef .tc main_v32) := by unwritten hostOps1_1
  show W7 m ρ c (Proc.devRef .tc main_v35) = _
  rw [e1, e2, e3, e4, W3_v32, W3_v4_1]
  exact takeFill_eq _ _ (dstK_inRange m c h)

/-- x_i of the target-to-source direction: rows of the second projection at the sources. -/
theorem V7_v36 (c : Dev nD) (h : InRange m c) :
    (V7 m ρ c main_v36 : S600000x128.Idx → EReal)
      = Host.gather gather_S50000x128_S600000x1_S600000x128_1_0_n_n_0_1_1128 (V2 m ρ c main_v4_1 : S50000x128.Idx → EReal)
          (Cert.Msg.wrapCol bcast_S_S600000 bcast_S600000_S600000x1_0 (srcK m c)) := by
  have e2 : W7 m ρ c (Proc.devRef .tc main_v36)
      = takeFill (W6 m ρ c (Proc.devRef .tc main_v4_1)) (W6 m ρ c (Proc.devRef .tc main_v30)) :=
    after_take4 (W6 m ρ c)
  have e3 : W6 m ρ c (Proc.devRef .tc main_v4_1) = W3 m ρ c (Proc.devRef .tc main_v4_1) :=
    calc W6 m ρ c (Proc.devRef .tc main_v4_1)
      _ = W5 m ρ c (Proc.devRef .tc main_v4_1) := by unwritten hostOps1_3
      _ = W4 m ρ c (Proc.devRef .tc main_v4_1) := by unwritten hostOps1_2
      _ = W3 m ρ c (Proc.devRef .tc main_v4_1) := by unwritten hostOps1_1
  have e4 : W6 m ρ c (Proc.devRef .tc main_v30) = W3 m ρ c (Proc.devRef .tc main_v30) :=
    calc W6 m ρ c (Proc.devRef .tc main_v30)
      _ = W5 m ρ c (Proc.devRef .tc main_v30) := by unwritten hostOps1_3
      _ = W4 m ρ c (Proc.devRef .tc main_v30) := by unwritten hostOps1_2
      _ = W3 m ρ c (Proc.devRef .tc main_v30) := by unwritten hostOps1_1
  show W7 m ρ c (Proc.devRef .tc main_v36) = _
  rw [e2, e3, e4, W3_v30, W3_v4_1]
  exact takeFill_eq _ _ (srcK_inRange m c h)

end Cert.KernelIdeal.Glue

end
-- ==== Proof.KernelValue.lean ====
/-
  The kernel's result array as a function of its arguments, at the ideal values: the shared tail of the two message
  arrays region 1 leaves, each message array the block function of Spec.lean at the edge array, at the two projection
  tables looked up at the edges' ends, and at the weights; and each projection table the host's own product x Wnᵀ,
  because the joined weight's two halves are the two node weights transposed.
-/
import proofs.«417207_j36507222016271_4_alg».proof.Proof.Gen.KernelIdeal.Frame
import proofs.«417207_j36507222016271_4_alg».proof.Proof.GlueDefs
import proofs.«417207_j36507222016271_4_alg».proof.Proof.Spec
import proofs.«417207_j36507222016271_4_alg».proof.Proof.Tail
import proofs.«417207_j36507222016271_4_alg».proof.Proof.LibMatProduct
import proofs.«417207_j36507222016271_4_alg».proof.Proof.Region0Value
import proofs.«417207_j36507222016271_4_alg».proof.Proof.Region1Value
import proofs.«417207_j36507222016271_4_alg».proof.Proof.HostGlue
import proofs.«417207_j36507222016271_4_alg».proof.Proof.TakeGlue
import Idealize.ShloMosaic.Lib.StableHlo.Run

noncomputable section

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Glue Cert.Msg Idealize.ShloMosaic.ValueIdx

variable (m : (ℓ : Loc nD τ sig) → Buf (Elt Ideal) ℓ) (ρ : Dev nD → PrngReg)

/-- The last host stretch: the result is the shared tail of what region 1 left. -/
theorem W9_v48 (c : Dev nD) : (W9 m ρ c (Proc.devRef .tc main_v48) : S50000x128.Idx → EReal)
    = aggTail scatter_S50000x128_S600000x1_S600000x128_1_0_0_1 bcast_S_S50000x128 bcast_S600000_S600000x1_0
        (V8 m ρ c main_arg0 : S50000x128.Idx → EReal) (V8 m ρ c main_v30 : S600000.Idx → BitVec 32) (V8 m ρ c main_v32 : S600000.Idx → BitVec 32)
        (V8 m ρ c main_v37_0 : S600000x128.Idx → EReal) (V8 m ρ c main_v37_1 : S600000x128.Idx → EReal) := by
  show StableHlo.after hostOps2 (W8 m ρ c) (Proc.devRef .tc main_v48) = _
  after_results
  rfl

/-- The first projection table is x times the transposed source-to-target node weight. -/
theorem V2_v4_0 (c : Dev nD) : (V2 m ρ c main_v4_0 : S50000x128.Idx → EReal)
    = Host.dotGeneral (F := Ideal) (φ₁ := .f32) (φ₂ := .f32) (DotDims.plain 50000 128 128) none
        (m ((c : Thread nD τ).loc main_arg0) : S50000x128.Idx → EReal)
        (transpose S128x128 [1, 0] (m ((c : Thread nD τ).loc main_arg5) : S128x128.Idx → EReal) transposes_S128x128_S128x128_1_0) := by
  have e : (V2 m ρ c main_v4_0 : S50000x128.Idx → EReal) = (dat0 (F := Ideal) (V1 m ρ) c).arrAt 2 cfg0.N := W2_arr m ρ c 2
  rw [e, Region0.final2 (V1 m ρ) c, Cert.Lib.MatProduct.dotGeneral_plain_eq]
  funext i
  obtain ⟨r, j, rfl⟩ : ∃ (r : Fin 50000) (j : Fin 128), i = ix2 r j := ⟨i 0, i 1, eq_ix2 i⟩
  rw [projCols_ix2, Cert.Lib.MatProduct.matProd_ix2]
  refine Finset.sum_congr rfl fun k _ => ?_
  rw [V1_arg0 m ρ c, transpose_swap, ← V1_v3_lo m ρ c k j]
  congr 3
  exact Fin.ext (Nat.zero_add _)

/-- The second projection table is x times the transposed target-to-source node weight. -/
theorem V2_v4_1 (c : Dev nD) : (V2 m ρ c main_v4_1 : S50000x128.Idx → EReal)
    = Host.dotGeneral (F := Ideal) (φ₁ := .f32) (φ₂ := .f32) (DotDims.plain 50000 128 128) none
        (m ((c : Thread nD τ).loc main_arg0) : S50000x128.Idx → EReal)
        (transpose S128x128 [1, 0] (m ((c : Thread nD τ).loc main_arg9) : S128x128.Idx → EReal) transposes_S128x128_S128x128_1_0) := by
  have e : (V2 m ρ c main_v4_1 : S50000x128.Idx → EReal) = (dat0 (F := Ideal) (V1 m ρ) c).arrAt 3 cfg0.N := W2_arr m ρ c 3
  rw [e, Region0.final3 (V1 m ρ) c, Cert.Lib.MatProduct.dotGeneral_plain_eq]
  funext i
  obtain ⟨r, j, rfl⟩ : ∃ (r : Fin 50000) (j : Fin 128), i = ix2 r j := ⟨i 0, i 1, eq_ix2 i⟩
  rw [projCols_ix2, Cert.Lib.MatProduct.matProd_ix2]
  refine Finset.sum_congr rfl fun k _ => ?_
  rw [V1_arg0 m ρ c, transpose_swap, ← V1_v3_hi m ρ c k j]

/-- The source-to-target messages region 1 leaves: the block function at the edge array, at the first projection's rows
    at the sources and at the targets, and at the source-to-target weights. -/
theorem msg_s (c : Dev nD) (h : InRange m c) : (V8 m ρ c main_v37_0 : S600000x128.Idx → EReal)
    = msgBlk (m ((c : Thread nD τ).loc main_arg2) : S600000x128.Idx → EReal)
        (Host.gather gather_S50000x128_S600000x1_S600000x128_1_0_n_n_0_1_1128
          (Host.dotGeneral (F := Ideal) (φ₁ := .f32) (φ₂ := .f32) (DotDims.plain 50000 128 128) none
            (m ((c : Thread nD τ).loc main_arg0) : S50000x128.Idx → EReal)
            (transpose S128x128 [1, 0] (m ((c : Thread nD τ).loc main_arg5) : S128x128.Idx → EReal) transposes_S128x128_S128x128_1_0))
          (wrapCol bcast_S_S600000 bcast_S600000_S600000x1_0 (srcK m c)))
        (Host.gather gather_S50000x128_S600000x1_S600000x128_1_0_n_n_0_1_1128
          (Host.dotGeneral (F := Ideal) (φ₁ := .f32) (φ₂ := .f32) (DotDims.plain 50000 128 128) none
            (m ((c : Thread nD τ).loc main_arg0) : S50000x128.Idx → EReal)
            (transpose S128x128 [1, 0] (m ((c : Thread nD τ).loc main_arg5) : S128x128.Idx → EReal) transposes_S128x128_S128x128_1_0))
          (wrapCol bcast_S_S600000 bcast_S600000_S600000x1_0 (dstK m c)))
        (V7 m ρ c main_v6 : S128x128.Idx → EReal) (V7 m ρ c main_v11 : S128x128.Idx → EReal)
        (V7 m ρ c main_v14 : S128x128.Idx → EReal) (V7 m ρ c main_v17 : S128x128.Idx → EReal) (V7 m ρ c main_v27 : S1x128.Idx → EReal) := by
  have e : (V8 m ρ c main_v37_0 : S600000x128.Idx → EReal) = (dat1 (F := Ideal) (V7 m ρ) c).arrAt 15 cfg1.N := W8_arr m ρ c 15
  rw [e, Region1.final15 (V7 m ρ) c, V7_arg2 m ρ c, V7_v33 m ρ c h, V7_v34 m ρ c h, V2_v4_0 m ρ c]

/-- The target-to-source messages region 1 leaves: the block function at the edge array, at the second projection's rows
    at the targets and at the sources, and at the target-to-source weights. -/
theorem msg_t (c : Dev nD) (h : InRange m c) : (V8 m ρ c main_v37_1 : S600000x128.Idx → EReal)
    = msgBlk (m ((c : Thread nD τ).loc main_arg2) : S600000x128.Idx → EReal)
        (Host.gather gather_S50000x128_S600000x1_S600000x128_1_0_n_n_0_1_1128
          (Host.dotGeneral (F := Ideal) (φ₁ := .f32) (φ₂ := .f32) (DotDims.plain 50000 128 128) none
            (m ((c : Thread nD τ).loc main_arg0) : S50000x128.Idx → EReal)
            (transpose S128x128 [1, 0] (m ((c : Thread nD τ).loc main_arg9) : S128x128.Idx → EReal) transposes_S128x128_S128x128_1_0))
          (wrapCol bcast_S_S600000 bcast_S600000_S600000x1_0 (dstK m c)))
        (Host.gather gather_S50000x128_S600000x1_S600000x128_1_0_n_n_0_1_1128
          (Host.dotGeneral (F := Ideal) (φ₁ := .f32) (φ₂ := .f32) (DotDims.plain 50000 128 128) none
            (m ((c : Thread nD τ).loc main_arg0) : S50000x128.Idx → EReal)
            (transpose S128x128 [1, 0] (m ((c : Thread nD τ).loc main_arg9) : S128x128.Idx → EReal) transposes_S128x128_S128x128_1_0))
          (wrapCol bcast_S_S600000 bcast_S600000_S600000x1_0 (srcK m c)))
        (V7 m ρ c main_v8 : S128x128.Idx → EReal) (V7 m ρ c main_v20 : S128x128.Idx → EReal)
        (V7 m ρ c main_v23 : S128x128.Idx → EReal) (V7 m ρ c main_v26 : S128x128.Idx → EReal) (V7 m ρ c main_v28 : S1x128.Idx → EReal) := by
  have e : (V8 m ρ c main_v37_1 : S600000x128.Idx → EReal) = (dat1 (F := Ideal) (V7 m ρ) c).arrAt 16 cfg1.N := W8_arr m ρ c 16
  rw [e, Region1.final16 (V7 m ρ) c, V7_arg2 m ρ c, V7_v35 m ρ c h, V7_v36 m ρ c h, V2_v4_1 m ρ c]

end Cert.KernelIdeal.KValue

end
-- ==== Proof.RefValue.lean ====
/-
  The reference's result as the shared tail of its two message arrays, and each message array as one product of the
  concatenation [x_j | x_i | e2] with the transposed [128, 384] weight plus the bias on every row: the reference's own
  operations, regrouped and nothing else.
-/
import proofs.«417207_j36507222016271_4_alg».proof.Proof.Gen.ReferenceIdeal.Run
import proofs.«417207_j36507222016271_4_alg».proof.Proof.Gen.ReferenceIdeal.Read
import proofs.«417207_j36507222016271_4_alg».proof.Proof.Spec
import proofs.«417207_j36507222016271_4_alg».proof.Proof.Tail

noncomputable section

open Idealize.ShloMosaic Idealize.ShloMosaic.TcCoe Idealize.SL.Sem

namespace Cert.ReferenceIdeal.RefValue

open Cert.ReferenceIdeal Cert.ReferenceIdeal.Gen Cert.ReferenceIdeal.Read Cert.Msg

/-- Row 0 of the edge index array: the source node of every edge. -/
abbrev srcR (x1 : S2x600000.Idx → BitVec 32) : IVec S600000 32 :=
  shapeCast S600000 (extractStridedSlice S1x600000 ![0, 0] x1 slices_S2x600000_S1x600000_0_0) shapeCasts_S1x600000_S600000

/-- Row 1 of the edge index array: the target node of every edge. -/
abbrev dstR (x1 : S2x600000.Idx → BitVec 32) : IVec S600000 32 :=
  shapeCast S600000 (extractStridedSlice S1x600000 ![1, 0] x1 slices_S2x600000_S1x600000_1_0) shapeCasts_S1x600000_S600000

variable (x0 : S50000x128.Idx → EReal) (x1 : S2x600000.Idx → BitVec 32) (x2 : S600000x128.Idx → EReal)
  (x5 x6 : S128x128.Idx → EReal) (x7 : S128x384.Idx → EReal) (x8 : S128.Idx → EReal)
  (x9 x10 : S128x128.Idx → EReal) (x11 : S128x384.Idx → EReal) (x12 : S128.Idx → EReal)

/-- The message array of one direction: rows of x Wnᵀ looked up at the j-ends and at the i-ends of the edges, joined with
    ea Weᵀ along the columns, times Wmᵀ, plus the bias on every row. -/
def msgR (Wn We : S128x128.Idx → EReal) (Wm : S128x384.Idx → EReal) (bm : S128.Idx → EReal) (jdx idx : IVec S600000 32) :
    S600000x128.Idx → EReal :=
  addf (F := Ideal) (φ := .f32)
    (Host.dotGeneral (F := Ideal) (φ₁ := .f32) (φ₂ := .f32) dot_S600000x384_S384x128_S600000x128_1_0_0_1_n_n none
      (concatenate S600000x384 1
        [⟨S600000x128, Host.gather gather_S50000x128_S600000x1_S600000x128_1_0_n_n_0_1_1128
            (Host.dotGeneral (F := Ideal) (φ₁ := .f32) (φ₂ := .f32) dot_S50000x128_S128x128_S50000x128_1_0_0_1_n_n none x0
              (transpose S128x128 [1, 0] Wn transposes_S128x128_S128x128_1_0))
            (wrapCol bcast_S_S600000 bcast_S600000_S600000x1_0 jdx)⟩,
         ⟨S600000x128, Host.gather gather_S50000x128_S600000x1_S600000x128_1_0_n_n_0_1_1128
            (Host.dotGeneral (F := Ideal) (φ₁ := .f32) (φ₂ := .f32) dot_S50000x128_S128x128_S50000x128_1_0_0_1_n_n none x0
              (transpose S128x128 [1, 0] Wn transposes_S128x128_S128x128_1_0))
            (wrapCol bcast_S_S600000 bcast_S600000_S600000x1_0 idx)⟩,
         ⟨S600000x128, Host.dotGeneral (F := Ideal) (φ₁ := .f32) (φ₂ := .f32) dot_S600000x128_S128x128_S600000x128_1_0_0_1_n_n none x2
            (transpose S128x128 [1, 0] We transposes_S128x128_S128x128_1_0)⟩]
        concatenates_S600000x128_S600000x128_S600000x128_S600000x384_d1)
      (transpose S384x128 [1, 0] Wm transposes_S128x384_S384x128_1_0))
    (broadcastInDim S600000x128 ![0, 1] bcast_S1x128_S600000x128_0_1 (broadcastInDim S1x128 ![1] bcast_S128_S1x128_1 bm))

/-- The source-to-target messages: x_j at the sources, x_i at the targets. -/
theorem msg_s_eq : val_main_v55 (F := Ideal) x0 x1 x2 x5 x6 x7 x8 = msgR x0 x2 x5 x6 x7 x8 (srcR x1) (dstR x1) := rfl

/-- The target-to-source messages: x_j at the targets, x_i at the sources. -/
theorem msg_t_eq : val_main_v27 (F := Ideal) x0 x1 x2 x9 x10 x11 x12 = msgR x0 x2 x9 x10 x11 x12 (dstR x1) (srcR x1) := rfl

/-- The reference's result is the shared tail of its two message arrays. -/
theorem result_eq : val_main_v62 (F := Ideal) x0 x1 x2 x5 x6 x7 x8 x9 x10 x11 x12
    = aggTail scatter_S50000x128_S600000x1_S600000x128_1_0_0_1 bcast_S_S50000x128 bcast_S600000_S600000x1_0 x0 (srcR x1) (dstR x1)
        (val_main_v55 (F := Ideal) x0 x1 x2 x5 x6 x7 x8) (val_main_v27 (F := Ideal) x0 x1 x2 x9 x10 x11 x12) := rfl

end Cert.ReferenceIdeal.RefValue

end
-- ==== Proof.LibTileSum.lean ====
/-
  Sums over an index set made of B equal tiles followed by a tail, and the few facts about the extended reals that go
  with them. A sum over Fin (B * E + N) is the sum over the B tiles of E plus the sum over the tail of N, and the same
  holds for a sum restricted by a predicate; a sum over the tiles of a quantity that does not depend on the tile is B
  copies of it; a sum over the places of Fin N equal to j is the term at j; B copies of a REAL number c, added in the
  extended reals, are (B : ℝ) * c (the extended reals are not a semiring, so the statement is made for real c); the
  inclusion of the reals commutes with finite sums, so a finite sum of real numbers is a real number; a sum of a one per
  element is the number of elements; the reciprocal square root of 1 is 1 and that of a positive real r is the real
  number (sqrt r)⁻¹; and in a family of integers all below K nobody equals a j with K ≤ j.
-/
import Idealize.ShloMosaic.PureOps.Ideal

noncomputable section

namespace Cert.Lib.TileSum

open Idealize.ShloMosaic

/-! ### Tiles and tail -/

theorem tile_lt {B E : ℕ} (N : ℕ) (t : Fin B) (e : Fin E) : t.val * E + e.val < B * E + N := by
  have h1 : t.val * E + e.val < (t.val + 1) * E := by
    have := e.isLt
    rw [Nat.add_mul, Nat.one_mul]
    omega
  have h2 : (t.val + 1) * E ≤ B * E := Nat.mul_le_mul_right E (Nat.succ_le_of_lt t.isLt)
  omega

/-- The flat position of element e of tile t: t * E + e. -/
def tileIx (B E N : ℕ) (t : Fin B) (e : Fin E) : Fin (B * E + N) := ⟨t.val * E + e.val, tile_lt N t e⟩

/-- The flat position of element n of the tail: B * E + n. -/
def tailIx (B E N : ℕ) (n : Fin N) : Fin (B * E + N) := ⟨B * E + n.val, by have := n.isLt; omega⟩

@[simp] theorem tileIx_val (B E N : ℕ) (t : Fin B) (e : Fin E) : (tileIx B E N t e).val = t.val * E + e.val := rfl
@[simp] theorem tailIx_val (B E N : ℕ) (n : Fin N) : (tailIx B E N n).val = B * E + n.val := rfl

/-- A sum over Fin (B * E) is the sum over the B tiles of the sums over the E places of a tile. -/
theorem sum_tiles {M : Type*} [AddCommMonoid M] (B E : ℕ) (g : Fin (B * E) → M) :
    ∑ k : Fin (B * E), g k = ∑ t : Fin B, ∑ e : Fin E, g ⟨t.val * E + e.val, by simpa using tile_lt 0 t e⟩ := by
  rw [← Fintype.sum_prod_type' (f := fun (t : Fin B) (e : Fin E) => g ⟨t.val * E + e.val, by simpa using tile_lt 0 t e⟩)]
  rw [← (finProdFinEquiv (m := B) (n := E)).sum_comp g]
  refine Finset.sum_congr rfl fun p _ => ?_
  congr 1
  apply Fin.ext
  simp [finProdFinEquiv, Nat.mul_comm, Nat.add_comm]

/-- A sum over Fin (B * E + N) is the sum over the B tiles of E plus the sum over the tail of N. -/
theorem sum_tiles_tail {M : Type*} [AddCommMonoid M] (B E N : ℕ) (f : Fin (B * E + N) → M) :
    ∑ k : Fin (B * E + N), f k
      = (∑ t : Fin B, ∑ e : Fin E, f (tileIx B E N t e)) + ∑ n : Fin N, f (tailIx B E N n) := by
  rw [Fin.sum_univ_add, sum_tiles]
  rfl

/-- The same for a sum restricted by a predicate: each tile, and the tail, restricted by the predicate at its places. -/
theorem sum_filter_tiles_tail {M : Type*} [AddCommMonoid M] (B E N : ℕ) (p : Fin (B * E + N) → Prop) [DecidablePred p]
    (f : Fin (B * E + N) → M) :
    ∑ k ∈ Finset.univ.filter p, f k
      = (∑ t : Fin B, ∑ e ∈ Finset.univ.filter (fun e => p (tileIx B E N t e)), f (tileIx B E N t e))
        + ∑ n ∈ Finset.univ.filter (fun n => p (tailIx B E N n)), f (tailIx B E N n) := by
  rw [Finset.sum_filter, sum_tiles_tail]
  simp only [Finset.sum_filter]

/-- A sum over the B tiles of a quantity that does not depend on the tile is B copies of it. -/
theorem sum_tiles_const {M : Type*} [AddCommMonoid M] (B : ℕ) (c : M) : ∑ _t : Fin B, c = B • c := by
  simp

/-- A sum over the places of Fin N whose value is j is the term at j. -/
theorem sum_filter_val_eq {M : Type*} [AddCommMonoid M] {N : ℕ} (j : ℕ) (hj : j < N) (f : Fin N → M) :
    ∑ n ∈ Finset.univ.filter (fun n : Fin N => n.val = j), f n = f ⟨j, hj⟩ := by
  have h : Finset.univ.filter (fun n : Fin N => n.val = j) = {⟨j, hj⟩} := by
    ext n
    simp [Fin.ext_iff]
  rw [h, Finset.sum_singleton]

/-! ### Real numbers inside the extended reals -/

/-- The inclusion of the reals commutes with finite sums. -/
theorem coe_finset_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem exists_real_sum {ι : Type*} (s : Finset ι) (f : ι → EReal) (h : ∀ i ∈ s, ∃ r : ℝ, f i = (r : EReal)) :
    ∃ r : ℝ, ∑ i ∈ s, f i = (r : EReal) := by
  classical
  choose! g hg using h
  exact ⟨∑ i ∈ s, g i, by rw [coe_finset_sum]; exact Finset.sum_congr rfl hg⟩

/-- A product of two real numbers is a real number. -/
theorem exists_real_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

/-- B copies of a real number c are (B : ℝ) * c. -/
theorem nsmul_coe (B : ℕ) (c : ℝ) : B • (c : EReal) = ((B : ℝ) : EReal) * (c : EReal) := by
  rw [← EReal.coe_nsmul, nsmul_eq_mul, EReal.coe_mul]

/-- B copies of a real number c, summed over the tiles, are (B : ℝ) * c. -/
theorem sum_tiles_real (B : ℕ) (c : ℝ) : ∑ _t : Fin B, (c : EReal) = ((B : ℝ) : EReal) * (c : EReal) := by
  rw [sum_tiles_const, nsmul_coe]

/-- A sum of a one per element, in the extended reals, is the number of elements. -/
theorem sum_ones {ι : Type*} (s : Finset ι) : ∑ _i ∈ s, (1 : EReal) = ((s.card : ℝ) : EReal) := by
  have h := coe_finset_sum s (fun _ => (1 : ℝ))
  rw [Finset.sum_const, nsmul_eq_mul, mul_one] at h
  rw [h]
  simp only [EReal.coe_one]

/-! ### The reciprocal square root -/

/-- The reciprocal square root of 1 is 1. -/
theorem rsqrt_one : Ideal.rsqrt ((1 : ℝ) : EReal) = 1 := by
  rw [Ideal.rsqrt_coe]
  norm_num

/-- The reciprocal square root of a positive real r is the real number (sqrt r)⁻¹. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- The reciprocal square root of a positive real is a real number. -/
theorem exists_real_rsqrt {r : ℝ} (h : 0 < r) : ∃ q : ℝ, Ideal.rsqrt (r : EReal) = (q : EReal) :=
  ⟨_, rsqrt_pos h⟩

/-! ### Bounded targets -/

/-- In a family of integers all below K, nobody equals a j with K ≤ j. -/
theorem filter_eq_empty_of_lt {E : ℕ} (d : Fin E → ℤ) (K : ℤ) (hd : ∀ e, d e < K) (j : ℤ) (hj : K ≤ j) :
    Finset.univ.filter (fun e => d e = j) = ∅ := by
  apply Finset.filter_eq_empty_iff.mpr
  intro e _ he
  have := hd e
  omega

end Cert.Lib.TileSum

end
-- ==== Proof.MsgCompare.lean ====
/-
  The algebraic law that joins the two programs. The reference multiplies the row-wise concatenation [g1 | g2 | ea we]
  : [E, 384] by one matrix wm : [384, 128] and adds the bias; the kernel multiplies g1, g2 and ea we by the three
  128-row bands of wm separately and adds the three products and the bias row. A sum over 384 places is the sum of the
  sums over its three bands of 128, and that is all: addition on the extended reals is commutative and associative, so
  no finiteness is used.
-/
import Idealize.ShloMosaic.PureOps.Ideal
import Idealize.ShloMosaic.PureOps.Ideal.Laws
import Idealize.ShloMosaic.Lib.ValueIdx
import Idealize.ShloMosaic.Lib.Pipeline.Value
import proofs.«417207_j36507222016271_4_alg».proof.Proof.LibMatProduct
import proofs.«417207_j36507222016271_4_alg».proof.Proof.LibTileSum
import proofs.«417207_j36507222016271_4_alg».proof.Proof.Spec

noncomputable section

namespace Cert.Msg

open Idealize.ShloMosaic Idealize.ShloMosaic.ValueIdx Cert.Lib.MatProduct

/-- A sum over 384 places is the sum of the sums over its three bands of 128. -/
theorem sum_three_bands {M : Type*} [AddCommMonoid M] (f : Fin 384 → M) :
    ∑ k : Fin 384, f k
      = (∑ k : Fin 128, f ⟨k.val, by have := k.isLt; omega⟩)
        + (∑ k : Fin 128, f ⟨128 + k.val, by have := k.isLt; omega⟩)
        + ∑ k : Fin 128, f ⟨256 + k.val, by have := k.isLt; omega⟩ := by
  have h := Fin.sum_univ_add (a := 128 + 128) (b := 128) (M := M) f
  have h' := Fin.sum_univ_add (a := 128) (b := 128) (M := M) (fun i => f (Fin.castAdd 128 i))
  rw [h, h']
  rfl

section Bands

variable {E : Nat} (x0 x1 x2 : (⟨2, ![E, 128]⟩ : Shape).Idx → EReal)
  (hc : Shape.Concatenates [(⟨2, ![E, 128]⟩ : Shape), ⟨2, ![E, 128]⟩, ⟨2, ![E, 128]⟩] ⟨2, ![E, 384]⟩ 1)

/-- The first band of the joined axis reads the first piece. -/
theorem cat3_band0 (e : Fin E) (k : Fin 128) :
    concatenate ⟨2, ![E, 384]⟩ 1 [⟨⟨2, ![E, 128]⟩, x0⟩, ⟨⟨2, ![E, 128]⟩, x1⟩, ⟨⟨2, ![E, 128]⟩, x2⟩] hc
      (ix2 e ⟨k.val, by have := k.isLt; omega⟩) = x0 (ix2 e k) := by
  refine concatenate_apply_piece (t := ⟨2, ![E, 384]⟩) (1 : Fin 2)
    [⟨⟨2, ![E, 128]⟩, x0⟩, ⟨⟨2, ![E, 128]⟩, x1⟩, ⟨⟨2, ![E, 128]⟩, x2⟩] hc _ 0 (by simp) ⟨2, ![E, 128]⟩ x0 rfl rfl 0
    (by simp) (ix2 e k) ?_ ?_
  · intro b hb
    match b with
    | ⟨0, _⟩ => rfl
    | ⟨1, _⟩ => exact absurd rfl hb
  · show 0 + k.val = k.val
    omega

/-- The second band of the joined axis reads the second piece. -/
theorem cat3_band1 (e : Fin E) (k : Fin 128) :
    concatenate ⟨2, ![E, 384]⟩ 1 [⟨⟨2, ![E, 128]⟩, x0⟩, ⟨⟨2, ![E, 128]⟩, x1⟩, ⟨⟨2, ![E, 128]⟩, x2⟩] hc
      (ix2 e ⟨128 + k.val, by have := k.isLt; omega⟩) = x1 (ix2 e k) := by
  refine concatenate_apply_piece (t := ⟨2, ![E, 384]⟩) (1 : Fin 2)
    [⟨⟨2, ![E, 128]⟩, x0⟩, ⟨⟨2, ![E, 128]⟩, x1⟩, ⟨⟨2, ![E, 128]⟩, x2⟩] hc _ 1 (by simp) ⟨2, ![E, 128]⟩ x1 rfl rfl 128
    (by simp) (ix2 e k) ?_ ?_
  · intro b hb
    match b with
    | ⟨0, _⟩ => rfl
    | ⟨1, _⟩ => exact absurd rfl hb
  · rfl

/-- The third band of the joined axis reads the third piece. -/
theorem cat3_band2 (e : Fin E) (k : Fin 128) :
    concatenate ⟨2, ![E, 384]⟩ 1 [⟨⟨2, ![E, 128]⟩, x0⟩, ⟨⟨2, ![E, 128]⟩, x1⟩, ⟨⟨2, ![E, 128]⟩, x2⟩] hc
      (ix2 e ⟨256 + k.val, by have := k.isLt; omega⟩) = x2 (ix2 e k) := by
  refine concatenate_apply_piece (t := ⟨2, ![E, 384]⟩) (1 : Fin 2)
    [⟨⟨2, ![E, 128]⟩, x0⟩, ⟨⟨2, ![E, 128]⟩, x1⟩, ⟨⟨2, ![E, 128]⟩, x2⟩] hc _ 2 (by simp) ⟨2, ![E, 128]⟩ x2 rfl rfl 256
    (by simp) (ix2 e k) ?_ ?_
  · intro b hb
    match b with
    | ⟨0, _⟩ => rfl
    | ⟨1, _⟩ => exact absurd rfl hb
  · rfl

end Bands

/-- The kernel's three products and bias row are the reference's one product over the concatenation, plus its bias. -/
theorem msgBlk_eq_concat {E : Nat} (ea g1 g2 : (⟨2, ![E, 128]⟩ : Shape).Idx → EReal)
    (we wmj wmi wme : (⟨2, ![128, 128]⟩ : Shape).Idx → EReal) (b : (⟨2, ![1, 128]⟩ : Shape).Idx → EReal)
    (wm : (⟨2, ![384, 128]⟩ : Shape).Idx → EReal) (bb : (⟨2, ![E, 128]⟩ : Shape).Idx → EReal)
    (hc : Shape.Concatenates [(⟨2, ![E, 128]⟩ : Shape), ⟨2, ![E, 128]⟩, ⟨2, ![E, 128]⟩] ⟨2, ![E, 384]⟩ 1)
    (hj : ∀ k j : Fin 128, wmj (ix2 k j) = wm (ix2 ⟨k.val, by have := k.isLt; omega⟩ j))
    (hi : ∀ k j : Fin 128, wmi (ix2 k j) = wm (ix2 ⟨128 + k.val, by have := k.isLt; omega⟩ j))
    (he : ∀ k j : Fin 128, wme (ix2 k j) = wm (ix2 ⟨256 + k.val, by have := k.isLt; omega⟩ j))
    (hb : ∀ (e : Fin E) (j : Fin 128), bb (ix2 e j) = b (ix2 ⟨0, Nat.one_pos⟩ j)) :
    msgBlk ea g1 g2 we wmj wmi wme b
      = addf (F := Ideal) (φ := .f32)
          (Host.dotGeneral (F := Ideal) (φ₁ := .f32) (φ₂ := .f32) (DotDims.plain E 384 128) none
            (concatenate ⟨2, ![E, 384]⟩ 1
              [⟨⟨2, ![E, 128]⟩, g1⟩, ⟨⟨2, ![E, 128]⟩, g2⟩,
               ⟨⟨2, ![E, 128]⟩, Host.dotGeneral (F := Ideal) (φ₁ := .f32) (φ₂ := .f32) (DotDims.plain E 128 128) none ea we⟩] hc)
            wm)
          bb := by
  funext i
  obtain ⟨e, j, rfl⟩ : ∃ (e : Fin E) (j : Fin 128), i = ix2 e j := ⟨i 0, i 1, eq_ix2 i⟩
  rw [msgBlk_ix2, matProd_ix2, matProd_ix2, matProd_ix2]
  show _ = Host.dotGeneral (F := Ideal) (φ₁ := .f32) (φ₂ := .f32) (DotDims.plain E 384 128) none _ wm (ix2 e j) + bb (ix2 e j)
  rw [StackMember.dotGeneral_plain_apply, sum_three_bands, hb e j, dotGeneral_plain_eq]
  congr 1
  congr 1
  · congr 1
    · exact Finset.sum_congr rfl fun k _ => by rw [cat3_band0, hj k j]
    · exact Finset.sum_congr rfl fun k _ => by rw [cat3_band1, hi k j]
  · exact Finset.sum_congr rfl fun k _ => by rw [cat3_band2, he k j]

end Cert.Msg

end
-- ==== Proof.Bridge.lean ====
/-
  The two programs' message arrays are one function. The kernel leaves, for each direction, (x_j Wmjᵀ + x_i Wmiᵀ) +
  (ea Weᵀ) Wmeᵀ + bias, with Wmj, Wmi, Wme the three 128-column bands of the message weight; the reference computes
  [x_j | x_i | ea Weᵀ] Wmᵀ + bias. The row lookups x_j, x_i are the same terms on both sides and stay unopened.
-/
import proofs.«417207_j36507222016271_4_alg».proof.Proof.KernelValue
import proofs.«417207_j36507222016271_4_alg».proof.Proof.RefValue
import proofs.«417207_j36507222016271_4_alg».proof.Proof.MsgCompare

noncomputable section

open Idealize.ShloMosaic Idealize.ShloMosaic.TcCoe Idealize.SL.Sem

namespace Cert.Proof.Bridge

open Cert.Msg Cert.KernelIdeal.Gen Cert.KernelIdeal.Glue Idealize.ShloMosaic.ValueIdx

variable (m : (ℓ : Loc Cert.KernelIdeal.nD Cert.KernelIdeal.τ Cert.KernelIdeal.sig) → Buf (Elt Ideal) ℓ) (ρ : Dev Cert.KernelIdeal.nD → PrngReg)

/-- The kernel's source-to-target messages are the reference's: the three products over the bands of the [128, 384] weight are
    the one product over the concatenation. -/
theorem msg_s_ref (c : Dev Cert.KernelIdeal.nD) (h : InRange m c) :
    (V8 m ρ c Cert.KernelIdeal.main_v37_0 : Cert.ReferenceIdeal.S600000x128.Idx → EReal)
      = Cert.ReferenceIdeal.RefValue.msgR (m ((c : Thread Cert.KernelIdeal.nD Cert.KernelIdeal.τ).loc Cert.KernelIdeal.main_arg0)) (m ((c : Thread Cert.KernelIdeal.nD Cert.KernelIdeal.τ).loc Cert.KernelIdeal.main_arg2)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (srcK m c) (dstK m c) := by
  rw [Cert.KernelIdeal.KValue.msg_s m ρ c h]
  have hwe : (V7 m ρ c Cert.KernelIdeal.main_v6 : Cert.ReferenceIdeal.S128x128.Idx → EReal)
      = transpose Cert.ReferenceIdeal.S128x128 [1, 0] ((m ((c : Thread Cert.KernelIdeal.nD Cert.KernelIdeal.τ).loc Cert.KernelIdeal.main_arg6)) : Cert.ReferenceIdeal.S128x128.Idx → EReal) Cert.ReferenceIdeal.Gen.transposes_S128x128_S128x128_1_0 := by
    funext i
    obtain ⟨k, j, rfl⟩ : ∃ (k j : Fin 128), i = ix2 k j := ⟨i 0, i 1, eq_ix2 i⟩
    rw [transpose_swap]
    exact V7_v6 m ρ c k j
  rw [hwe]
  exact msgBlk_eq_concat _ _ _ _ _ _ _ _
    (transpose Cert.ReferenceIdeal.S384x128 [1, 0] ((m ((c : Thread Cert.KernelIdeal.nD Cert.KernelIdeal.τ).loc Cert.KernelIdeal.main_arg7)) : Cert.ReferenceIdeal.S128x384.Idx → EReal) Cert.ReferenceIdeal.Gen.transposes_S128x384_S384x128_1_0)
    (broadcastInDim Cert.ReferenceIdeal.S600000x128 ![0, 1] Cert.ReferenceIdeal.Gen.bcast_S1x128_S600000x128_0_1
      (broadcastInDim Cert.ReferenceIdeal.S1x128 ![1] Cert.ReferenceIdeal.Gen.bcast_S128_S1x128_1 ((m ((c : Thread Cert.KernelIdeal.nD Cert.KernelIdeal.τ).loc Cert.KernelIdeal.main_arg8)) : Cert.ReferenceIdeal.S128.Idx → EReal)))
    Cert.ReferenceIdeal.Gen.concatenates_S600000x128_S600000x128_S600000x128_S600000x384_d1
    (fun k j => by rw [transpose_swap]; exact V7_v11 m ρ c k j)
    (fun k j => by rw [transpose_swap]; exact V7_v14 m ρ c k j)
    (fun k j => by rw [transpose_swap]; exact V7_v17 m ρ c k j)
    (fun e j => by rw [bias_rows_apply]; exact (V7_v27 m ρ c j).symm)

/-- The kernel's target-to-source messages are the reference's: the three products over the bands of the [128, 384] weight are
    the one product over the concatenation. -/
theorem msg_t_ref (c : Dev Cert.KernelIdeal.nD) (h : InRange m c) :
    (V8 m ρ c Cert.KernelIdeal.main_v37_1 : Cert.ReferenceIdeal.S600000x128.Idx → EReal)
      = Cert.ReferenceIdeal.RefValue.msgR (m ((c : Thread Cert.KernelIdeal.nD Cert.KernelIdeal.τ).loc Cert.KernelIdeal.main_arg0)) (m ((c : Thread Cert.KernelIdeal.nD Cert.KernelIdeal.τ).loc Cert.KernelIdeal.main_arg2)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (dstK m c) (srcK m c) := by
  rw [Cert.KernelIdeal.KValue.msg_t m ρ c h]
  have hwe : (V7 m ρ c Cert.KernelIdeal.main_v8 : Cert.ReferenceIdeal.S128x128.Idx → EReal)
      = transpose Cert.ReferenceIdeal.S128x128 [1, 0] ((m ((c : Thread Cert.KernelIdeal.nD Cert.KernelIdeal.τ).loc Cert.KernelIdeal.main_arg10)) : Cert.ReferenceIdeal.S128x128.Idx → EReal) Cert.ReferenceIdeal.Gen.transposes_S128x128_S128x128_1_0 := by
    funext i
    obtain ⟨k, j, rfl⟩ : ∃ (k j : Fin 128), i = ix2 k j := ⟨i 0, i 1, eq_ix2 i⟩
    rw [transpose_swap]
    exact V7_v8 m ρ c k j
  rw [hwe]
  exact msgBlk_eq_concat _ _ _ _ _ _ _ _
    (transpose Cert.ReferenceIdeal.S384x128 [1, 0] ((m ((c : Thread Cert.KernelIdeal.nD Cert.KernelIdeal.τ).loc Cert.KernelIdeal.main_arg11)) : Cert.ReferenceIdeal.S128x384.Idx → EReal) Cert.ReferenceIdeal.Gen.transposes_S128x384_S384x128_1_0)
    (broadcastInDim Cert.ReferenceIdeal.S600000x128 ![0, 1] Cert.ReferenceIdeal.Gen.bcast_S1x128_S600000x128_0_1
      (broadcastInDim Cert.ReferenceIdeal.S1x128 ![1] Cert.ReferenceIdeal.Gen.bcast_S128_S1x128_1 ((m ((c : Thread Cert.KernelIdeal.nD Cert.KernelIdeal.τ).loc Cert.KernelIdeal.main_arg12)) : Cert.ReferenceIdeal.S128.Idx → EReal)))
    Cert.ReferenceIdeal.Gen.concatenates_S600000x128_S600000x128_S600000x128_S600000x384_d1
    (fun k j => by rw [transpose_swap]; exact V7_v20 m ρ c k j)
    (fun k j => by rw [transpose_swap]; exact V7_v23 m ρ c k j)
    (fun k j => by rw [transpose_swap]; exact V7_v26 m ρ c k j)
    (fun e j => by rw [bias_rows_apply]; exact (V7_v28 m ρ c j).symm)

end Cert.Proof.Bridge

end
-- ==== Proof.lean ====
/-
  The claim. Both programs compute, for a graph of 50000 nodes and 600000 directed edges, one message-passing layer in
  both directions and average the two: with x2 = x Wnᵀ and e2 = ea Weᵀ, the message of an edge is
  [x2 at its j-end | x2 at its i-end | e2] Wmᵀ + bm, the messages are summed at their i-ends, x is added, and the two
  directions' results are averaged. The kernel's program computes x2 for both directions in one tiled product against
  the two node weights side by side, looks the rows up on the host, and computes the messages tile by tile as three
  products with the three 128-column bands of Wm; the reference multiplies the concatenation by Wm once. At the ideal
  values the two are equal by regrouping a sum over 384 places into its three bands: addition on the extended reals is
  commutative and associative, so finiteness of the inputs is not used. What IS used of the precondition is that every
  edge index is a node number (0 ≤ index < 50000): the kernel's row lookup fills a row whose index is out of range with
  a not-a-number pattern where the reference's lookup clamps the index, so outside that range the two differ.

  The frames of the two kernel programs are the generated ones; the reference's frame is its generated run with the
  result dropped; nothing was rewritten by the ideal pass, so preserves is trivial.
-/
import proofs.«417207_j36507222016271_4_alg».proof.Defs
import proofs.«417207_j36507222016271_4_alg».proof.Proof.Gen.Kernel.Frame
import proofs.«417207_j36507222016271_4_alg».proof.Proof.Gen.KernelIdeal.Frame
import proofs.«417207_j36507222016271_4_alg».proof.Proof.Gen.ReferenceIdeal.Run
import proofs.«417207_j36507222016271_4_alg».proof.Proof.Gen.ReferenceIdeal.Read
import proofs.«417207_j36507222016271_4_alg».proof.Proof.Gen.Pre_finite_inputs
import proofs.«417207_j36507222016271_4_alg».proof.Proof.RunValue
import proofs.«417207_j36507222016271_4_alg».proof.Proof.PreDecode
import proofs.«417207_j36507222016271_4_alg».proof.Proof.Bridge

noncomputable section

namespace Cert.Proof

open Idealize.ShloMosaic Idealize.ShloMosaic.TcCoe Idealize.SL.Sem
open Cert.KernelIdeal.Gen Cert.KernelIdeal.Glue

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments, under the precondition, the two idealized programs end with equal
    result arrays: the kernel's run leaves the shared tail of its two message arrays, the reference's run the same tail
    of its own, and the message arrays are equal (Bridge.lean). -/
theorem algebraic : Cert.algebraic_KernelIdeal_ReferenceIdeal := by
  intro m ρ m' ρ' hpre hagree
  refine ⟨fun c => W9 m ρ c (Proc.devRef .tc Cert.KernelIdeal.main_v48),
    fun c => m ((c.tc : Thread Cert.KernelIdeal.nD Cert.KernelIdeal.τ).loc Cert.KernelIdeal.main_arg2), ?_, ?_⟩
  · refine (θ_run Cert.KernelIdeal.defs _ _).mono (fun r h c => ?_) (Cert.KernelIdeal.RunValue.run_all (F := Ideal) m ρ)
    exact ⟨h c _ (mem_uc Cert.KernelIdeal.main_v48 (by decide)),
        (h c _ (mem_uc Cert.KernelIdeal.main_arg2 (by decide))).trans (W9_main_arg2 m ρ c),
        (h c _ (mem_uc Cert.KernelIdeal.main_arg0 (by decide))).trans (W9_main_arg0 m ρ c),
        (h c _ (mem_uc Cert.KernelIdeal.main_arg1 (by decide))).trans (W9_main_arg1 m ρ c),
        (h c _ (mem_uc Cert.KernelIdeal.main_arg2 (by decide))).trans (W9_main_arg2 m ρ c),
        (h c _ (mem_uc Cert.KernelIdeal.main_arg3 (by decide))).trans (W9_main_arg3 m ρ c),
        (h c _ (mem_uc Cert.KernelIdeal.main_arg4 (by decide))).trans (W9_main_arg4 m ρ c),
        (h c _ (mem_uc Cert.KernelIdeal.main_arg5 (by decide))).trans (W9_main_arg5 m ρ c),
        (h c _ (mem_uc Cert.KernelIdeal.main_arg6 (by decide))).trans (W9_main_arg6 m ρ c),
        (h c _ (mem_uc Cert.KernelIdeal.main_arg7 (by decide))).trans (W9_main_arg7 m ρ c),
        (h c _ (mem_uc Cert.KernelIdeal.main_arg8 (by decide))).trans (W9_main_arg8 m ρ c),
        (h c _ (mem_uc Cert.KernelIdeal.main_arg9 (by decide))).trans (W9_main_arg9 m ρ c),
        (h c _ (mem_uc Cert.KernelIdeal.main_arg10 (by decide))).trans (W9_main_arg10 m ρ c),
        (h c _ (mem_uc Cert.KernelIdeal.main_arg11 (by decide))).trans (W9_main_arg11 m ρ c),
        (h c _ (mem_uc Cert.KernelIdeal.main_arg12 (by decide))).trans (W9_main_arg12 m ρ c)⟩
  · refine (θ_run Cert.ReferenceIdeal.defs _ _).mono (fun r h c => ?_) (Cert.ReferenceIdeal.Value.run (F := Ideal) m' ρ')
    obtain ⟨h62, h2, hrest⟩ := h c
    obtain ⟨a0, a1, a2, a3, a4, a5, a6, a7, a8, a9, a10, a11, a12⟩ := hagree c
    refine ⟨h62.trans ?_, h2.trans a2, hrest⟩
    have hin : InRange m c := inRange_of_pre m hpre c
    rw [Cert.ReferenceIdeal.Read.val_main_v62_eq, Cert.ReferenceIdeal.RefValue.result_eq, Cert.ReferenceIdeal.RefValue.msg_s_eq, Cert.ReferenceIdeal.RefValue.msg_t_eq,
      a0, a1, a2, a5, a6, a7, a8, a9, a10, a11, a12]
    refine Eq.trans ?_ (Cert.KernelIdeal.KValue.W9_v48 m ρ c).symm
    rw [V8_arg0 m ρ c, V8_v30 m ρ c, V8_v32 m ρ c, Bridge.msg_s_ref m ρ c hin, Bridge.msg_t_ref m ρ c hin]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
